-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x1024x1024 : Shape := ⟨4, ![32, 3, 1024, 1024]⟩
abbrev S132x256 : Shape := ⟨2, ![132, 256]⟩
abbrev S256 : Shape := ⟨1, ![256]⟩
abbrev S_ : Shape := ⟨0, ![]⟩

class Facts : Prop where
  bcast_S_S32x3x1024x1024 : S_.BroadcastsInDim S32x3x1024x1024 (![] : Fin 0 → Fin S32x3x1024x1024.rank)
  reducesTo_S32x3x1024x1024_S_d0_1_2_3 : S32x3x1024x1024.ReducesTo [0, 1, 2, 3] S_
  h_S_ : 0 < S_.numel
  bcast_S_S132x256 : S_.BroadcastsInDim S132x256 (![] : Fin 0 → Fin S132x256.rank)
  reducesTo_S132x256_S_d0_1 : S132x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x3x1024x1024 .f32) (main_arg1 : FVec F S132x256 .f32) (main_arg2 : FVec F S256 .f32) (main_arg3 : FVec F S256 .f32) (main_arg4 : FVec F S256 .f32) : IVec S_ 1 :=
  let main_v0 : FVec F S32x3x1024x1024 .f32 := Host.absf main_arg0
  let main_cst : FVec F S_ .f32 := constant S_ .f32 0x7F800000#32
  let main_v1 : FVec F S32x3x1024x1024 .f32 := broadcastInDim S32x3x1024x1024 ![] bcast_S_S32x3x1024x1024 main_cst
  let main_v2 : IVec S32x3x1024x1024 1 := cmpf .olt main_v0 main_v1
  let main_c : IVec S_ 1 := constantI S_ 1 1#1
  let main_v3 : IVec S_ 1 := (fun x v => Host.reduce IntOp.andi x v reducesTo_S32x3x1024x1024_S_d0_1_2_3 h_S_) main_v2 main_c
  let main_v4 : FVec F S132x256 .f32 := Host.absf main_arg1
  let main_cst_0 : FVec F S_ .f32 := constant S_ .f32 0x7F800000#32
  let main_v5 : FVec F S132x256 .f32 := broadcastInDim S132x256 ![] bcast_S_S132x256 main_cst_0
  let main_v6 : IVec S132x256 1 := cmpf .olt main_v4 main_v5
  let main_c_1 : IVec S_ 1 := constantI S_ 1 1#1
  let main_v7 : IVec S_ 1 := (fun x v => Host.reduce IntOp.andi x v reducesTo_S132x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S32x3x1024x1024 : Shape := ⟨4, ![32, 3, 1024, 1024]⟩
abbrev S132x256 : Shape := ⟨2, ![132, 256]⟩
abbrev S256 : Shape := ⟨1, ![256]⟩
abbrev S32x1x132 : Shape := ⟨3, ![32, 1, 132]⟩
abbrev S1x1x1024x1024 : Shape := ⟨4, ![1, 1, 1024, 1024]⟩
abbrev S1x1x132 : Shape := ⟨3, ![1, 1, 132]⟩
abbrev S1x64 : Shape := ⟨2, ![1, 64]⟩
abbrev S1x1 : Shape := ⟨2, ![1, 1]⟩
abbrev S1x1x16x1024 : Shape := ⟨4, ![1, 1, 16, 1024]⟩
abbrev S16x1024 : Shape := ⟨2, ![16, 1024]⟩
abbrev S1x1x64 : Shape := ⟨3, ![1, 1, 64]⟩
abbrev S16x1024x1 : Shape := ⟨3, ![16, 1024, 1]⟩
abbrev S16x1024x64 : Shape := ⟨3, ![16, 1024, 64]⟩
abbrev S16x64 : Shape := ⟨2, ![16, 64]⟩
abbrev S64 : Shape := ⟨1, ![64]⟩
abbrev S16 : Shape := ⟨1, ![16]⟩
abbrev S16x1 : Shape := ⟨2, ![16, 1]⟩
abbrev S1 : Shape := ⟨1, ![1]⟩
abbrev S2x8x128x8 : Shape := ⟨4, ![2, 8, 128, 8]⟩
abbrev S2x8x128 : Shape := ⟨3, ![2, 8, 128]⟩
abbrev S2x128 : Shape := ⟨2, ![2, 128]⟩
abbrev S2 : Shape := ⟨1, ![2]⟩
abbrev S2x1 : Shape := ⟨2, ![2, 1]⟩
abbrev S1x132 : Shape := ⟨2, ![1, 132]⟩
abbrev S32x132 : Shape := ⟨2, ![32, 132]⟩
abbrev S32x256 : Shape := ⟨2, ![32, 256]⟩
abbrev S1x256 : Shape := ⟨2, ![1, 256]⟩

abbrev nBuf : Space → Nat
  | .hbm => 8
  | .vmem => 12
  | .smem => 0
  | _ => 0

abbrev bufTy : (tb : Table) → Fin (tcTables nBuf tb) → BufTy
  | .hbm, ⟨0, _⟩ => ⟨S32x3x1024x1024, .f32⟩
  | .hbm, ⟨1, _⟩ => ⟨S132x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S32x1x132, .f32⟩
  | .hbm, ⟨6, _⟩ => ⟨S32x132, .f32⟩
  | .hbm, ⟨7, _⟩ => ⟨S32x256, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x132, .f32⟩
  | .local _ .vmem, ⟨5, _⟩ => ⟨S1x1x132, .f32⟩
  | .local _ .vmem, ⟨6, _⟩ => ⟨S32x132, .f32⟩
  | .local _ .vmem, ⟨7, _⟩ => ⟨S132x256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S32x256, .f32⟩
  | _, _ => ⟨S32x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c16_i32 : BitVec 32 := 16#32
  let v44 : BitVec 32 := Scalar.muli arg4 c16_i32
  v44
def k0_off1 (k0_t1 : Fin k0_t1_loop.trips) : Fin 4 → Nat :=
  let c0_24 : Index := 0#32
  let c0_25 : Index := 0#32
  let c0_i32 : BitVec 32 := 0#32
  let c1_i32 : BitVec 32 := 1#32
  let arg4 : BitVec 32 := Scf.iv c0_i32 c1_i32 k0_t1
  let c16_i32 : BitVec 32 := 16#32
  let v44 : BitVec 32 := Scalar.muli arg4 c16_i32
  let v45 : BitVec 32 := v44
  let v46 : Index := Scalar.indexCast v45
  let c0_26 : Index := 0#32
  ![0, 0, v46.toNat, 0]
@[reducible] def k0_t2_loop : Scf.Loop 32 :=
  let c0_i32_13 : BitVec 32 := 0#32
  let c64_i32_14 : BitVec 32 := 64#32
  let v24 : BitVec 32 := Scalar.addi c0_i32_13 c64_i32_14
  let c1_i32_15 : BitVec 32 := 1#32
  ⟨c0_i32_13, v24, c1_i32_15⟩
def k0_mult2 (k0_t2 : Fin k0_t2_loop.trips) : BitVec 32 :=
  let c0_i32_13 : BitVec 32 := 0#32
  let c1_i32_15 : BitVec 32 := 1#32
  let arg4 : BitVec 32 := Scf.iv c0_i32_13 c1_i32_15 k0_t2
  let c16_i32 : BitVec 32 := 16#32
  let v44 : BitVec 32 := Scalar.muli arg4 c16_i32
  v44
def k0_off2 (k0_t2 : Fin k0_t2_loop.trips) : Fin 4 → Nat :=
  let c0_24 : Index := 0#32
  let c0_25 : Index := 0#32
  let c0_i32_13 : BitVec 32 := 0#32
  let c1_i32_15 : BitVec 32 := 1#32
  let arg4 : BitVec 32 := Scf.iv c0_i32_13 c1_i32_15 k0_t2
  let c16_i32 : BitVec 32 := 16#32
  let v44 : BitVec 32 := Scalar.muli arg4 c16_i32
  let v45 : BitVec 32 := v44
  let v46 : Index := Scalar.indexCast v45
  let c0_26 : Index := 0#32
  ![0, 0, v46.toNat, 0]
def cc0_transform_0 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_1 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x132 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x132 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S132x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  h_S1x1x16x1024 : 0 < S1x1x16x1024.numel
  shapeCasts_S1x1x16x1024_S16x1024 : S1x1x16x1024.ShapeCasts S16x1024
  iota_S1x1x64_d2_w32 : S1x1x64.Iotas .tc 32 [2]
  shapeCasts_S16x1024_S16x1024x1 : S16x1024.ShapeCasts S16x1024x1
  broadcasts_S16x1024x1_S16x1024x64 : S16x1024x1.Broadcasts S16x1024x64
  broadcasts_S1x1x64_S16x1024x64 : S1x1x64.Broadcasts S16x1024x64
  natLt_1_32 : 1 < 32
  reduces_S16x1024x64_S16x64 : S16x1024x64.Reduces [1] S16x64
  reduces_S16x64_S64 : S16x64.Reduces [0] S64
  shapeCasts_S64_S1x64 : S64.ShapeCasts S1x64
  reduces_S16x1024_S16 : S16x1024.Reduces [1] S16
  shapeCasts_S16_S16x1 : S16.ShapeCasts S16x1
  reduces_S16x1_S1 : S16x1.Reduces [0] S1
  shapeCasts_S1_S1x1 : S1.ShapeCasts S1x1
  shapeCasts_S16x1024_S2x8x128x8 : S16x1024.ShapeCasts S2x8x128x8
  reduces_S2x8x128x8_S2x8x128 : S2x8x128x8.Reduces [3] S2x8x128
  reduces_S2x8x128_S2x128 : S2x8x128.Reduces [1] S2x128
  reduces_S2x128_S2 : S2x128.Reduces [1] S2
  shapeCasts_S2_S2x1 : S2.ShapeCasts S2x1
  reduces_S2x1_S1 : S2x1.Reduces [0] S1
  reduces_S1x64_S1 : S1x64.Reduces [1] S1
  broadcasts_S1x1_S1x64 : S1x1.Broadcasts S1x64
  concatenates_S1x64_S1x64_S1x1_S1x1_S1x1_S1x1_S1x132_d1 : Shape.Concatenates [S1x64, S1x64, S1x1, S1x1, S1x1, S1x1] S1x132 1
  inb_S1x1x132_S1x1x132_0_0_0 : ∀ a, (![0, 0, 0] : Fin 3 → Nat) a + S1x1x132.size a ≤ S1x1x132.size a
  h_S1x1x132 : 0 < S1x1x132.numel
  shapeCasts_S1x1x132_S1x132 : S1x1x132.ShapeCasts S1x132
  shapeCasts_S1x132_S1x1x132 : S1x132.ShapeCasts S1x1x132
  shapeCasts_S32x1x132_S32x132 : S32x1x132.ShapeCasts S32x132
  inb_S32x132_S32x132_0_0 : ∀ a, (![0, 0] : Fin 2 → Nat) a + S32x132.size a ≤ S32x132.size a
  h_S32x132 : 0 < S32x132.numel
  shapeCasts_S32x132_S32x132 : S32x132.ShapeCasts S32x132
  inb_S132x256_S132x256_0_0 : ∀ a, (![0, 0] : Fin 2 → Nat) a + S132x256.size a ≤ S132x256.size a
  h_S132x256 : 0 < S132x256.numel
  inb_S256_S256_0 : ∀ a, (![0] : Fin 1 → Nat) a + S256.size a ≤ S256.size a
  h_S256 : 0 < S256.numel
  shapeCasts_S256_S1x256 : S256.ShapeCasts S1x256
  broadcasts_S1x256_S32x256 : S1x256.Broadcasts S32x256
  reduces_S32x256_S256 : S32x256.Reduces [0] S256
  inb_S32x256_S32x256_0_0 : ∀ a, (![0, 0] : Fin 2 → Nat) a + S32x256.size a ≤ S32x256.size a
  h_S32x256 : 0 < S32x256.numel
  dot_S32x132_S132x256_S32x256_1_0_0_1_n_n_wf : DotDims.WF S32x132 S132x256 S32x256 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S1x1x16x1024.size a ≤ S1x1x1024x1024.size a
  k0_t2_ok : k0_t2_loop.OK
  k0_mult2_dvd : ∀ k0_t2 : Fin k0_t2_loop.trips, 16 ∣ (k0_mult2 k0_t2).toNat
  k0_off2_inb : ∀ k0_t2 : Fin k0_t2_loop.trips, ∀ a, (k0_off2 k0_t2) a + S1x1x16x1024.size a ≤ S1x1x1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S32x3x1024x1024.size a
  hwx0_0 : ∀ i : grid0.Coords, EltTy.bits .f32 = 32 ∨ (Rect.block (s := S32x3x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S32x3x1024x1024.size a
  hwx0_1 : ∀ i : grid0.Coords, EltTy.bits .f32 = 32 ∨ (Rect.block (s := S32x3x1024x1024) S1x1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x132.size a ≤ S32x1x132.size a
  hwx0_2 : ∀ i : grid0.Coords, EltTy.bits .f32 = 32 ∨ (Rect.block (s := S32x1x132) S1x1x132.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x132.size a ≤ S32x132.size a
  hwx1_0 : ∀ i : grid1.Coords, EltTy.bits .f32 = 32 ∨ (Rect.block (s := S32x132) S32x132.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S132x256.size a ≤ S132x256.size a
  hwx1_1 : ∀ i : grid1.Coords, EltTy.bits .f32 = 32 ∨ (Rect.block (s := S132x256) S132x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x256.size a ≤ S32x256.size a
  hwx1_5 : ∀ i : grid1.Coords, EltTy.bits .f32 = 32 ∨ (Rect.block (s := S32x256) S32x256.size (cc1_transform_5 i) (hinb1_5 i)).WholeWords (EltTy.packing .f32)

variable [Facts₀]

def dot_S32x132_S132x256_S32x256_1_0_0_1_n_n : DotDims S32x132 S132x256 S32x256 where
  lhsContracting := [1]
  rhsContracting := [0]
  lhsNonContracting := [0]
  rhsNonContracting := [1]
  lhsBatch := []
  rhsBatch := []
  wf := dot_S32x132_S132x256_S32x256_1_0_0_1_n_n_wf

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x132.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S32x132.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S132x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S32x256.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x3x1024x1024 : Shape := ⟨4, ![32, 3, 1024, 1024]⟩
abbrev S132x256 : Shape := ⟨2, ![132, 256]⟩
abbrev S256 : Shape := ⟨1, ![256]⟩
abbrev S32x1x1024x1024 : Shape := ⟨4, ![32, 1, 1024, 1024]⟩
abbrev S32x1024x1024 : Shape := ⟨3, ![32, 1024, 1024]⟩
abbrev S32x1048576 : Shape := ⟨2, ![32, 1048576]⟩
abbrev S_ : Shape := ⟨0, ![]⟩
abbrev S32 : Shape := ⟨1, ![32]⟩
abbrev S32x1 : Shape := ⟨2, ![32, 1]⟩
abbrev S33554432 : Shape := ⟨1, ![33554432]⟩
abbrev S2048 : Shape := ⟨1, ![2048]⟩
abbrev S33554432x1 : Shape := ⟨2, ![33554432, 1]⟩
abbrev S32x64 : Shape := ⟨2, ![32, 64]⟩
abbrev S32x128x8x128x8 : Shape := ⟨5, ![32, 128, 8, 128, 8]⟩
abbrev S32x128x128x8x8 : Shape := ⟨5, ![32, 128, 128, 8, 8]⟩
abbrev S32x16384x64 : Shape := ⟨3, ![32, 16384, 64]⟩
abbrev S32x16384 : Shape := ⟨2, ![32, 16384]⟩
abbrev S32x16384x1 : Shape := ⟨3, ![32, 16384, 1]⟩
abbrev S32x4 : Shape := ⟨2, ![32, 4]⟩
abbrev S32x132 : Shape := ⟨2, ![32, 132]⟩
abbrev S32x256 : Shape := ⟨2, ![32, 256]⟩
abbrev S1x256 : Shape := ⟨2, ![1, 256]⟩

abbrev nBuf : Space → Nat
  | .hbm => 200
  | .vmem => 0
  | .smem => 0
  | _ => 0

abbrev hbmTy0_0 (i : Nat) : BufTy := match i % 128 with
  | 0 => ⟨S32x3x1024x1024, .f32⟩
  | 1 => ⟨S132x256, .f32⟩
  | 2 => ⟨S256, .f32⟩
  | 3 => ⟨S256, .f32⟩
  | 4 => ⟨S256, .f32⟩
  | 5 => ⟨S32x1x1024x1024, .f32⟩
  | 6 => ⟨S32x1024x1024, .f32⟩
  | 7 => ⟨S32x1x1024x1024, .f32⟩
  | 8 => ⟨S32x1024x1024, .f32⟩
  | 9 => ⟨S32x1048576, .f32⟩
  | 10 => ⟨S_, .f32⟩
  | 11 => ⟨S32x1048576, .f32⟩
  | 12 => ⟨S32x1048576, .f32⟩
  | 13 => ⟨S32x1048576, .f32⟩
  | 14 => ⟨S_, .i32⟩
  | 15 => ⟨S_, .i32⟩
  | 16 => ⟨S_, .f32⟩
  | 17 => ⟨S32x1048576, .f32⟩
  | 18 => ⟨S32x1048576, .f32⟩
  | 19 => ⟨S_, .f32⟩
  | 20 => ⟨S32x1048576, .f32⟩
  | 21 => ⟨S32x1048576, .f32⟩
  | 22 => ⟨S32x1048576, .i32⟩
  | 23 => ⟨S32, .i32⟩
  | 24 => ⟨S32x1, .i32⟩
  | 25 => ⟨S_, .i32⟩
  | 26 => ⟨S32x1, .i32⟩
  | 27 => ⟨S32x1, .i32⟩
  | 28 => ⟨S32x1048576, .i32⟩
  | 29 => ⟨S32x1048576, .i32⟩
  | 30 => ⟨S33554432, .i32⟩
  | 31 => ⟨S_, .f32⟩
  | 32 => ⟨S33554432, .f32⟩
  | 33 => ⟨S_, .f32⟩
  | 34 => ⟨S2048, .f32⟩
  | 35 => ⟨S33554432x1, .i32⟩
  | 36 => ⟨S2048, .f32⟩
  | 37 => ⟨S32x64, .f32⟩
  | 38 => ⟨S_, .f32⟩
  | 39 => ⟨S32, .f32⟩
  | 40 => ⟨S32x1, .f32⟩
  | 41 => ⟨S_, .f32⟩
  | 42 => ⟨S32x1, .f32⟩
  | 43 => ⟨S32x1, .f32⟩
  | 44 => ⟨S32x64, .f32⟩
  | 45 => ⟨S32x64, .f32⟩
  | 46 => ⟨S32x1048576, .f32⟩
  | 47 => ⟨S_, .f32⟩
  | 48 => ⟨S32x1048576, .f32⟩
  | 49 => ⟨S32x1048576, .f32⟩
  | 50 => ⟨S32x1048576, .f32⟩
  | 51 => ⟨S_, .i32⟩
  | 52 => ⟨S_, .i32⟩
  | 53 => ⟨S_, .f32⟩
  | 54 => ⟨S32x1048576, .f32⟩
  | 55 => ⟨S32x1048576, .f32⟩
  | 56 => ⟨S_, .f32⟩
  | 57 => ⟨S32x1048576, .f32⟩
  | 58 => ⟨S32x1048576, .f32⟩
  | 59 => ⟨S32x1048576, .i32⟩
  | 60 => ⟨S32, .i32⟩
  | 61 => ⟨S32x1, .i32⟩
  | 62 => ⟨S_, .i32⟩
  | 63 => ⟨S32x1, .i32⟩
  | 64 => ⟨S32x1, .i32⟩
  | 65 => ⟨S32x1048576, .i32⟩
  | 66 => ⟨S32x1048576, .i32⟩
  | 67 => ⟨S33554432, .i32⟩
  | 68 => ⟨S_, .f32⟩
  | 69 => ⟨S33554432, .f32⟩
  | 70 => ⟨S_, .f32⟩
  | 71 => ⟨S2048, .f32⟩
  | 72 => ⟨S33554432x1, .i32⟩
  | 73 => ⟨S2048, .f32⟩
  | 74 => ⟨S32x64, .f32⟩
  | 75 => ⟨S_, .f32⟩
  | 76 => ⟨S32, .f32⟩
  | 77 => ⟨S32x1, .f32⟩
  | 78 => ⟨S_, .f32⟩
  | 79 => ⟨S32x1, .f32⟩
  | 80 => ⟨S32x1, .f32⟩
  | 81 => ⟨S32x64, .f32⟩
  | 82 => ⟨S32x64, .f32⟩
  | 83 => ⟨S32x1048576, .f32⟩
  | 84 => ⟨S_, .f32⟩
  | 85 => ⟨S32, .f32⟩
  | 86 => ⟨S32x1, .f32⟩
  | 87 => ⟨S_, .f32⟩
  | 88 => ⟨S32x1, .f32⟩
  | 89 => ⟨S32x1, .f32⟩
  | 90 => ⟨S32x1048576, .f32⟩
  | 91 => ⟨S32x1048576, .f32⟩
  | 92 => ⟨S32x1048576, .f32⟩
  | 93 => ⟨S_, .f32⟩
  | 94 => ⟨S32, .f32⟩
  | 95 => ⟨S_, .f32⟩
  | 96 => ⟨S32, .f32⟩
  | 97 => ⟨S32, .f32⟩
  | 98 => ⟨S32x128x8x128x8, .f32⟩
  | 99 => ⟨S32x128x128x8x8, .f32⟩
  | 100 => ⟨S32x16384x64, .f32⟩
  | 101 => ⟨S_, .f32⟩
  | 102 => ⟨S32x16384, .f32⟩
  | 103 => ⟨S32x16384x1, .f32⟩
  | 104 => ⟨S_, .f32⟩
  | 105 => ⟨S32x16384x1, .f32⟩
  | 106 => ⟨S32x16384x1, .f32⟩
  | 107 => ⟨S32x16384x64, .f32⟩
  | 108 => ⟨S32x16384x64, .f32⟩
  | 109 => ⟨S32x16384x64, .f32⟩
  | 110 => ⟨S_, .f32⟩
  | 111 => ⟨S32x16384, .f32⟩
  | 112 => ⟨S_, .f32⟩
  | 113 => ⟨S32x16384, .f32⟩
  | 114 => ⟨S32x16384, .f32⟩
  | 115 => ⟨S_, .f32⟩
  | 116 => ⟨S32, .f32⟩
  | 117 => ⟨S_, .f32⟩
  | 118 => ⟨S32, .f32⟩
  | 119 => ⟨S32, .f32⟩
  | 120 => ⟨S32x1048576, .f32⟩
  | 121 => ⟨S_, .f32⟩
  | 122 => ⟨S32, .f32⟩
  | 123 => ⟨S32x1, .f32⟩
  | 124 => ⟨S_, .f32⟩
  | 125 => ⟨S32x1, .f32⟩
  | 126 => ⟨S32x1, .f32⟩
  | 127 => ⟨S32x1048576, .f32⟩
  | _ => ⟨S32x3x1024x1024, .f32⟩

abbrev hbmTy0_1 (i : Nat) : BufTy := match i % 128 with
  | 0 => ⟨S32x1048576, .f32⟩
  | 1 => ⟨S32x1048576, .f32⟩
  | 2 => ⟨S_, .f32⟩
  | 3 => ⟨S32, .f32⟩
  | 4 => ⟨S_, .f32⟩
  | 5 => ⟨S32, .f32⟩
  | 6 => ⟨S32, .f32⟩
  | 7 => ⟨S32x128x8x128x8, .f32⟩
  | 8 => ⟨S32x128x128x8x8, .f32⟩
  | 9 => ⟨S32x16384x64, .f32⟩
  | 10 => ⟨S_, .f32⟩
  | 11 => ⟨S32x16384, .f32⟩
  | 12 => ⟨S32x16384x1, .f32⟩
  | 13 => ⟨S_, .f32⟩
  | 14 => ⟨S32x16384x1, .f32⟩
  | 15 => ⟨S32x16384x1, .f32⟩
  | 16 => ⟨S32x16384x64, .f32⟩
  | 17 => ⟨S32x16384x64, .f32⟩
  | 18 => ⟨S32x16384x64, .f32⟩
  | 19 => ⟨S_, .f32⟩
  | 20 => ⟨S32x16384, .f32⟩
  | 21 => ⟨S_, .f32⟩
  | 22 => ⟨S32x16384, .f32⟩
  | 23 => ⟨S32x16384, .f32⟩
  | 24 => ⟨S_, .f32⟩
  | 25 => ⟨S32, .f32⟩
  | 26 => ⟨S_, .f32⟩
  | 27 => ⟨S32, .f32⟩
  | 28 => ⟨S32, .f32⟩
  | 29 => ⟨S32x1, .f32⟩
  | 30 => ⟨S32x1, .f32⟩
  | 31 => ⟨S32x1, .f32⟩
  | 32 => ⟨S32x1, .f32⟩
  | 33 => ⟨S32x4, .f32⟩
  | 34 => ⟨S32x132, .f32⟩
  | 35 => ⟨S32x256, .f32⟩
  | 36 => ⟨S1x256, .f32⟩
  | 37 => ⟨S32x256, .f32⟩
  | 38 => ⟨S32x256, .f32⟩
  | 39 => ⟨S_, .f32⟩
  | 40 => ⟨S32x256, .f32⟩
  | 41 => ⟨S32x256, .f32⟩
  | 42 => ⟨S_, .f32⟩
  | 43 => ⟨S256, .f32⟩
  | 44 => ⟨S_, .f32⟩
  | 45 => ⟨S256, .f32⟩
  | 46 => ⟨S256, .f32⟩
  | 47 => ⟨S1x256, .f32⟩
  | 48 => ⟨S32x256, .f32⟩
  | 49 => ⟨S32x256, .f32⟩
  | 50 => ⟨S32x256, .f32⟩
  | 51 => ⟨S_, .f32⟩
  | 52 => ⟨S256, .f32⟩
  | 53 => ⟨S_, .f32⟩
  | 54 => ⟨S256, .f32⟩
  | 55 => ⟨S256, .f32⟩
  | 56 => ⟨S1x256, .f32⟩
  | 57 => ⟨S32x256, .f32⟩
  | 58 => ⟨S32x256, .f32⟩
  | 59 => ⟨S1x256, .f32⟩
  | 60 => ⟨S32x256, .f32⟩
  | 61 => ⟨S32x256, .f32⟩
  | 62 => ⟨S_, .f32⟩
  | 63 => ⟨S256, .f32⟩
  | 64 => ⟨S256, .f32⟩
  | 65 => ⟨S256, .f32⟩
  | 66 => ⟨S1x256, .f32⟩
  | 67 => ⟨S32x256, .f32⟩
  | 68 => ⟨S32x256, .f32⟩
  | 69 => ⟨S1x256, .f32⟩
  | 70 => ⟨S32x256, .f32⟩
  | 71 => ⟨S32x256, .f32⟩
  | _ => ⟨S32x3x1024x1024, .f32⟩

abbrev hbmTy (i : Nat) : BufTy := match i / 128 with
  | 0 => hbmTy0_0 i
  | 1 => hbmTy0_1 i
  | _ => ⟨S32x3x1024x1024, .f32⟩

abbrev bufTy : (tb : Table) → Fin (tcTables nBuf tb) → BufTy
  | .hbm, ⟨i, _⟩ => hbmTy i
  | _, _ => ⟨S32x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_c_8 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_v41 : Ref sig .tc := ⟨.hbm, 69, rfl⟩
abbrev main_cst_11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_12 : Ref sig .tc := ⟨.hbm, 75, rfl⟩
abbrev main_v46 : Ref sig .tc := ⟨.hbm, 76, rfl⟩
abbrev main_v47 : Ref sig .tc := ⟨.hbm, 77, rfl⟩
abbrev main_cst_13 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_14 : Ref sig .tc := ⟨.hbm, 84, rfl⟩
abbrev main_v53 : Ref sig .tc := ⟨.hbm, 85, rfl⟩
abbrev main_v54 : Ref sig .tc := ⟨.hbm, 86, rfl⟩
abbrev main_cst_15 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_16 : Ref sig .tc := ⟨.hbm, 93, rfl⟩
abbrev main_v60 : Ref sig .tc := ⟨.hbm, 94, rfl⟩
abbrev main_cst_17 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_18 : Ref sig .tc := ⟨.hbm, 101, rfl⟩
abbrev main_v66 : Ref sig .tc := ⟨.hbm, 102, rfl⟩
abbrev main_v67 : Ref sig .tc := ⟨.hbm, 103, rfl⟩
abbrev main_cst_19 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_20 : Ref sig .tc := ⟨.hbm, 110, rfl⟩
abbrev main_v73 : Ref sig .tc := ⟨.hbm, 111, rfl⟩
abbrev main_cst_21 : Ref sig .tc := ⟨.hbm, 112, rfl⟩
abbrev main_v74 : Ref sig .tc := ⟨.hbm, 113, rfl⟩
abbrev main_v75 : Ref sig .tc := ⟨.hbm, 114, rfl⟩
abbrev main_cst_22 : Ref sig .tc := ⟨.hbm, 115, rfl⟩
abbrev main_v76 : Ref sig .tc := ⟨.hbm, 116, rfl⟩
abbrev main_cst_23 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_24 : Ref sig .tc := ⟨.hbm, 121, rfl⟩
abbrev main_v80 : Ref sig .tc := ⟨.hbm, 122, rfl⟩
abbrev main_v81 : Ref sig .tc := ⟨.hbm, 123, rfl⟩
abbrev main_cst_25 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_26 : Ref sig .tc := ⟨.hbm, 130, rfl⟩
abbrev main_v87 : Ref sig .tc := ⟨.hbm, 131, rfl⟩
abbrev main_cst_27 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_28 : Ref sig .tc := ⟨.hbm, 138, rfl⟩
abbrev main_v93 : Ref sig .tc := ⟨.hbm, 139, rfl⟩
abbrev main_v94 : Ref sig .tc := ⟨.hbm, 140, rfl⟩
abbrev main_cst_29 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_30 : Ref sig .tc := ⟨.hbm, 147, rfl⟩
abbrev main_v100 : Ref sig .tc := ⟨.hbm, 148, rfl⟩
abbrev main_cst_31 : Ref sig .tc := ⟨.hbm, 149, rfl⟩
abbrev main_v101 : Ref sig .tc := ⟨.hbm, 150, rfl⟩
abbrev main_v102 : Ref sig .tc := ⟨.hbm, 151, rfl⟩
abbrev main_cst_32 : Ref sig .tc := ⟨.hbm, 152, rfl⟩
abbrev main_v103 : Ref sig .tc := ⟨.hbm, 153, rfl⟩
abbrev main_cst_33 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_call2_cst : Ref sig .tc := ⟨.hbm, 167, rfl⟩
abbrev main_call2_v0 : Ref sig .tc := ⟨.hbm, 168, rfl⟩
abbrev main_v116 : Ref sig .tc := ⟨.hbm, 169, rfl⟩
abbrev main_cst_34 : Ref sig .tc := ⟨.hbm, 170, rfl⟩
abbrev main_v117 : Ref sig .tc := ⟨.hbm, 171, rfl⟩
abbrev main_cst_35 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_36 : Ref sig .tc := ⟨.hbm, 179, rfl⟩
abbrev main_v124 : Ref sig .tc := ⟨.hbm, 180, rfl⟩
abbrev main_cst_37 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_38 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩

abbrev nD : Nat := 1
abbrev τ : Topo := Topo.v7x

variable {F : FTy → Type} [FloatOps F]

class Facts₀ : Prop where
  slices_S32x3x1024x1024_S32x1x1024x1024_0_1_0_0 : S32x3x1024x1024.Slices ![0, 1, 0, 0] S32x1x1024x1024
  shapeCasts_S32x1x1024x1024_S32x1024x1024 : S32x1x1024x1024.ShapeCasts S32x1024x1024
  slices_S32x3x1024x1024_S32x1x1024x1024_0_2_0_0 : S32x3x1024x1024.Slices ![0, 2, 0, 0] S32x1x1024x1024
  shapeCasts_S32x1024x1024_S32x1048576 : S32x1024x1024.ShapeCasts S32x1048576
  bcast_S_S32x1048576 : S_.BroadcastsInDim S32x1048576 (![] : Fin 0 → Fin S32x1048576.rank)
  bcast_S32_S32x1_0 : S32.BroadcastsInDim S32x1 (![0] : Fin 1 → Fin S32x1.rank)
  bcast_S_S32x1 : S_.BroadcastsInDim S32x1 (![] : Fin 0 → Fin S32x1.rank)
  bcast_S32x1_S32x1048576_0_1 : S32x1.BroadcastsInDim S32x1048576 (![0, 1] : Fin 2 → Fin S32x1048576.rank)
  shapeCasts_S32x1048576_S33554432 : S32x1048576.ShapeCasts S33554432
  bcast_S_S33554432 : S_.BroadcastsInDim S33554432 (![] : Fin 0 → Fin S33554432.rank)
  bcast_S_S2048 : S_.BroadcastsInDim S2048 (![] : Fin 0 → Fin S2048.rank)
  bcast_S33554432_S33554432x1_0 : S33554432.BroadcastsInDim S33554432x1 (![0] : Fin 1 → Fin S33554432x1.rank)
  shapeCasts_S2048_S32x64 : S2048.ShapeCasts S32x64
  reducesTo_S32x64_S32_d1 : S32x64.ReducesTo [1] S32
  h_S_ : 0 < S_.numel
  bcast_S32x1_S32x64_0_1 : S32x1.BroadcastsInDim S32x64 (![0, 1] : Fin 2 → Fin S32x64.rank)
  reducesTo_S32x1048576_S32_d1 : S32x1048576.ReducesTo [1] S32
  bcast_S_S32 : S_.BroadcastsInDim S32 (![] : Fin 0 → Fin S32.rank)
  shapeCasts_S32x1024x1024_S32x128x8x128x8 : S32x1024x1024.ShapeCasts S32x128x8x128x8
  transposes_S32x128x8x128x8_S32x128x128x8x8_0_1_3_2_4 : S32x128x8x128x8.Transposes [0, 1, 3, 2, 4] S32x128x128x8x8
  shapeCasts_S32x128x128x8x8_S32x16384x64 : S32x128x128x8x8.ShapeCasts S32x16384x64
  reducesTo_S32x16384x64_S32x16384_d2 : S32x16384x64.ReducesTo [2] S32x16384
  bcast_S32x16384_S32x16384x1_0_1 : S32x16384.BroadcastsInDim S32x16384x1 (![0, 1] : Fin 2 → Fin S32x16384x1.rank)
  bcast_S_S32x16384x1 : S_.BroadcastsInDim S32x16384x1 (![] : Fin 0 → Fin S32x16384x1.rank)
  bcast_S32x16384x1_S32x16384x64_0_1_2 : S32x16384x1.BroadcastsInDim S32x16384x64 (![0, 1, 2] : Fin 3 → Fin S32x16384x64.rank)
  bcast_S_S32x16384 : S_.BroadcastsInDim S32x16384 (![] : Fin 0 → Fin S32x16384.rank)
  reducesTo_S32x16384_S32_d1 : S32x16384.ReducesTo [1] S32
  concatenates_S32x1_S32x1_S32x1_S32x1_S32x4_d1 : Shape.Concatenates [S32x1, S32x1, S32x1, S32x1] S32x4 1
  concatenates_S32x64_S32x64_S32x4_S32x132_d1 : Shape.Concatenates [S32x64, S32x64, S32x4] S32x132 1
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  reducesTo_S32x256_S256_d0 : S32x256.ReducesTo [0] S256
  bcast_S_S256 : S_.BroadcastsInDim S256 (![] : Fin 0 → Fin S256.rank)
  scatter_S2048_S33554432x1_S33554432_n_0_0_1_wf : ScatterDims.WF S2048 S33554432x1 S33554432 [] [0] [0] 1
  dot_S32x132_S132x256_S32x256_1_0_0_1_n_n_wf : DotDims.WF S32x132 S132x256 S32x256 [1] [0] [0] [1] [] []

variable [Facts₀]

def scatter_S2048_S33554432x1_S33554432_n_0_0_1 : ScatterDims S2048 S33554432x1 S33554432 where
  updateWindowDims := []
  insertedWindowDims := [0]
  scatterDimsToOperandDims := [0]
  indexVectorDim := 1
  wf := scatter_S2048_S33554432x1_S33554432_n_0_0_1_wf
def dot_S32x132_S132x256_S32x256_1_0_0_1_n_n : DotDims S32x132 S132x256 S32x256 where
  lhsContracting := [1]
  rhsContracting := [0]
  lhsNonContracting := [0]
  rhsNonContracting := [1]
  lhsBatch := []
  rhsBatch := []
  wf := dot_S32x132_S132x256_S32x256_1_0_0_1_n_n_wf

class Facts : Prop extends Facts₀ where

variable [Facts]
-- ==== Proof.KBBody0.lean ====
/-
  The first kernel's body at one grid point, as a function of the two channel planes it is handed.

  The body walks each plane in 64 chunks of 16 rows, carrying four running values per plane (64 bin counts, the sum of
  the pixels, the sum of their squares, the sum of the patch variances); from the two final quadruples it builds the
  row of 132 features and stores it.  A chunk's contribution is a function of the 16 rows it loads (trip1, trip2: the
  body's own arithmetic applied to that load); the carried quadruple before chunk k is the recursion acc1, acc2.
-/
import proofs.«111025_j75557064671630_1_alg».proof.Proof.Gen.Kernel.Skeleton
import Idealize.ShloMosaic.Lib.Exec
import Idealize.ShloMosaic.Lib.Tactic
import Idealize.ShloMosaic.Lib.Pipeline.Kit
import Idealize.ShloMosaic.Lib.Pipeline.FrameBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- The four running values of a plane. -/
abbrev Acc (F : FTy → Type) : Type := FVec F S1x64 .f32 × FVec F S1x1 .f32 × FVec F S1x1 .f32 × FVec F S1x1 .f32

/-- The 16 rows chunk k of the first plane covers. -/
abbrev rk1 (k : Fin k0_t1_loop.trips) : Rect S1x1x1024x1024 :=
  Rect.unit (s := S1x1x1024x1024) (k0_off1 k) S1x1x16x1024.size (k0_off1_inb k)
/-- The 16 rows chunk k of the second plane covers. -/
abbrev rk2 (k : Fin k0_t2_loop.trips) : Rect S1x1x1024x1024 :=
  Rect.unit (s := S1x1x1024x1024) (k0_off2 k) S1x1x16x1024.size (k0_off2_inb k)

/-- What chunk k of the first plane does to the running values. -/
def trip1 (X : Vec F S1x1x1024x1024 .f32) (k : Fin k0_t1_loop.trips) (a : Acc F) : Acc F :=
  (k0_pay3 a.1 (View.ld X (rk1 k)), k0_pay4 a.2.1 (View.ld X (rk1 k)), k0_pay5 a.2.2.1 (View.ld X (rk1 k)),
    k0_pay20 a.2.2.2 (k0_pay7 (View.ld X (rk1 k))) (k0_pay8 (View.ld X (rk1 k))))
/-- What chunk k of the second plane does to the running values. -/
def trip2 (X : Vec F S1x1x1024x1024 .f32) (k : Fin k0_t2_loop.trips) (a : Acc F) : Acc F :=
  (k0_pay10 a.1 (View.ld X (rk2 k)), k0_pay11 a.2.1 (View.ld X (rk2 k)), k0_pay12 a.2.2.1 (View.ld X (rk2 k)),
    k0_pay28 a.2.2.2 (k0_pay14 (View.ld X (rk2 k))) (k0_pay15 (View.ld X (rk2 k))))

/-- The running values of the first plane before chunk k. -/
def acc1 (X : Vec F S1x1x1024x1024 .f32) (init : Acc F) : ℕ → Acc F
  | 0 => init
  | k + 1 => if h : k < k0_t1_loop.trips then trip1 X ⟨k, h⟩ (acc1 X init k) else acc1 X init k
/-- The running values of the second plane before chunk k. -/
def acc2 (X : Vec F S1x1x1024x1024 .f32) (init : Acc F) : ℕ → Acc F
  | 0 => init
  | k + 1 => if h : k < k0_t2_loop.trips then trip2 X ⟨k, h⟩ (acc2 X init k) else acc2 X init k

theorem acc1_succ (X : Vec F S1x1x1024x1024 .f32) (init : Acc F) (k : Fin k0_t1_loop.trips) :
    acc1 X init (k.val + 1) = trip1 X k (acc1 X init k.val) := by
  rw [acc1]; exact dif_pos k.isLt
theorem acc2_succ (X : Vec F S1x1x1024x1024 .f32) (init : Acc F) (k : Fin k0_t2_loop.trips) :
    acc2 X init (k.val + 1) = trip2 X k (acc2 X init k.val) := by
  rw [acc2]; exact dif_pos k.isLt

/-- The zero quadruple each plane starts from. -/
def init1 : Acc F := (k0_pay16 (F := F), k0_pay17 (F := F), k0_pay18 (F := F), k0_pay19 (F := F))
def init2 : Acc F := (k0_pay24 (F := F), k0_pay25 (F := F), k0_pay26 (F := F), k0_pay27 (F := F))

/-- The row of 132 features from the two planes. -/
def feat0 (x0 x1 : Vec F S1x1x1024x1024 .f32) : Vec F S1x1x132 .f32 :=
  let a := acc1 x0 (init1 (F := F)) k0_t1_loop.trips
  let b := acc2 x1 (init2 (F := F)) k0_t2_loop.trips
  k0_pay1 (k0_pay21 a.1) (k0_pay22 a.2.1 a.2.2.1) (k0_pay23 a.2.2.2) b.2.2.1 b.2.2.2 (k0_pay29 b.1) (k0_pay30 b.2.1)

/-- The whole output block. -/
abbrev r0 : Rect S1x1x132 := Rect.unit (s := S1x1x132) ![0, 0, 0] S1x1x132.size inb_S1x1x132_S1x1x132_0_0_0

/-- The output window's staging buffer after the body: its one store. -/
def out0_2 (x0 x1 : Vec F S1x1x1024x1024 .f32) : Vec F S1x1x132 .f32 :=
  View.canon [⟨r0, feat0 x0 x1⟩]

/-! ## The body's run

Everything above this line is FIXED (other modules are written against it). Below: the two counted loops by their
invariants, and the body's triple. -/

/-! ### The first plane's loop -/

/-- One chunk of the first plane, at any chunk number and any running values: it reads its 16 rows, leaves the plane
    as it was, and hands on the running values trip1 names (the loaded rows are the plane read at the chunk's
    rectangle, which is how trip1 spells them). -/
theorem trip1_run (𝒱 : Variants) (c : Dev nD) (bd : Option 𝒱.V) (E : Set ℕ) (i : grid0.Coords)
    (arg1 : Memref sig .tc .vmem S1x1x1024x1024 .f32) (harg1 : arg1.IsWhole)
    (arg2 : Memref sig .tc .vmem S1x1x1024x1024 .f32) (harg2 : arg2.IsWhole)
    (arg3 : Memref sig .tc .vmem S1x1x132 .f32) (harg3 : arg3.IsWhole)
    (X : BufTy.Contents (Elt F) arg1.view.ty) (k : Fin k0_t1_loop.trips) (acc : Acc F) :
    (iprop(arg1.view.loc (c : Thread nD τ) ↦[arg1.view.set]{fullShare} X) : sProp 𝕄)
      ⊢ wp frame (wpE (defs₀ (F := F)) 𝒱 (c : Thread nD τ) bd) E (k0_t1_body (F := F) i arg1 harg1 arg2 harg2 arg3 harg3 k acc)
          (fun yld => iprop(⌜yld = trip1 (arg1.view.read (Elt F) X) k acc⌝
            ∗ (arg1.view.loc (c : Thread nD τ) ↦[arg1.view.set]{fullShare} X))) := by
  unfold k0_t1_body
  iintro HR_arg1
  sl_exec
  sl_step
  isplitr
  · ipureintro
    sl_unfold_run_names
    rfl
  · iexact HR_arg1

/-- Before any chunk the running values are the ones the loop starts from. -/
theorem acc1_zero (X : Vec F S1x1x1024x1024 .f32) (init : Acc F) : acc1 X init 0 = init := rfl

macro_rules | `(tactic| sl_pure) => `(tactic| with_reducible exact (Cert.Kernel.Hand.acc1_zero ..).symm)

/-- Before chunk k: the first plane is held, untouched, and the running values are acc1 of what it reads. -/
abbrev inv1 (c : Dev nD) (arg1 : Memref sig .tc .vmem S1x1x1024x1024 .f32)
    (X : BufTy.Contents (Elt F) arg1.view.ty) (init : Acc F) (k : ℕ) (acc : Acc F) : sProp 𝕄 :=
  iprop((arg1.view.loc (c : Thread nD τ) ↦[arg1.view.set]{fullShare} X)
    ∗ ⌜acc = acc1 (arg1.view.read (Elt F) X) init k⌝)

set_option warn.classDefReducibility false in
/-- The first plane's loop by that invariant: one chunk takes acc1 at k to acc1 at k + 1, by the recursion's
    successor equation. -/
@[sl_loop] def loopInv1 (𝒱 : Variants) (c : Dev nD) (bd : Option 𝒱.V) (E : Set ℕ) (i : grid0.Coords)
    (arg1 : Memref sig .tc .vmem S1x1x1024x1024 .f32) (harg1 : arg1.IsWhole)
    (arg2 : Memref sig .tc .vmem S1x1x1024x1024 .f32) (harg2 : arg2.IsWhole)
    (arg3 : Memref sig .tc .vmem S1x1x132 .f32) (harg3 : arg3.IsWhole)
    (X : BufTy.Contents (Elt F) arg1.view.ty) (init : Acc F) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok init
      (k0_t1_body (F := F) i arg1 harg1 arg2 harg2 arg3 harg3) where
  inv := inv1 (F := F) c arg1 X init
  step k acc := by
    iintro ⟨HR, %h_acc⟩
    subst h_acc
    iapply (wp_wand_r Idealize.ShloMosaic.frame (wpE (defs₀ (F := F)) 𝒱 (c : Thread nD τ) bd) E)
    isplitl [HR]
    · iapply (trip1_run (F := F) 𝒱 c bd E i arg1 harg1 arg2 harg2 arg3 harg3 X k
        (acc1 (arg1.view.read (Elt F) X) init k))
      iexact HR
    · iintro %yld ⟨%h_res, HR⟩
      isplitl [HR]; · iexact HR
      ipureintro
      rw [h_res]; exact (acc1_succ _ init k).symm

/-! ### The second plane's loop -/

/-- One chunk of the second plane, at any chunk number and any running values: it reads its 16 rows, leaves the plane
    as it was, and hands on the running values trip2 names (the loaded rows are the plane read at the chunk's
    rectangle, which is how trip2 spells them). -/
theorem trip2_run (𝒱 : Variants) (c : Dev nD) (bd : Option 𝒱.V) (E : Set ℕ) (i : grid0.Coords)
    (arg1 : Memref sig .tc .vmem S1x1x1024x1024 .f32) (harg1 : arg1.IsWhole)
    (arg2 : Memref sig .tc .vmem S1x1x1024x1024 .f32) (harg2 : arg2.IsWhole)
    (arg3 : Memref sig .tc .vmem S1x1x132 .f32) (harg3 : arg3.IsWhole)
    (X : BufTy.Contents (Elt F) arg2.view.ty) (k : Fin k0_t2_loop.trips) (acc : Acc F) :
    (iprop(arg2.view.loc (c : Thread nD τ) ↦[arg2.view.set]{fullShare} X) : sProp 𝕄)
      ⊢ wp frame (wpE (defs₀ (F := F)) 𝒱 (c : Thread nD τ) bd) E (k0_t2_body (F := F) i arg1 harg1 arg2 harg2 arg3 harg3 k acc)
          (fun yld => iprop(⌜yld = trip2 (arg2.view.read (Elt F) X) k acc⌝
            ∗ (arg2.view.loc (c : Thread nD τ) ↦[arg2.view.set]{fullShare} X))) := by
  unfold k0_t2_body
  iintro HR_arg2
  sl_exec
  sl_step
  isplitr
  · ipureintro
    sl_unfold_run_names
    rfl
  · iexact HR_arg2

/-- Before any chunk the running values are the ones the loop starts from. -/
theorem acc2_zero (X : Vec F S1x1x1024x1024 .f32) (init : Acc F) : acc2 X init 0 = init := rfl

macro_rules | `(tactic| sl_pure) => `(tactic| with_reducible exact (Cert.Kernel.Hand.acc2_zero ..).symm)

/-- Before chunk k: the second plane is held, untouched, and the running values are acc2 of what it reads. -/
abbrev inv2 (c : Dev nD) (arg2 : Memref sig .tc .vmem S1x1x1024x1024 .f32)
    (X : BufTy.Contents (Elt F) arg2.view.ty) (init : Acc F) (k : ℕ) (acc : Acc F) : sProp 𝕄 :=
  iprop((arg2.view.loc (c : Thread nD τ) ↦[arg2.view.set]{fullShare} X)
    ∗ ⌜acc = acc2 (arg2.view.read (Elt F) X) init k⌝)

set_option warn.classDefReducibility false in
/-- The second plane's loop by that invariant: one chunk takes acc2 at k to acc2 at k + 1, by the recursion's
    successor equation. -/
@[sl_loop] def loopInv2 (𝒱 : Variants) (c : Dev nD) (bd : Option 𝒱.V) (E : Set ℕ) (i : grid0.Coords)
    (arg1 : Memref sig .tc .vmem S1x1x1024x1024 .f32) (harg1 : arg1.IsWhole)
    (arg2 : Memref sig .tc .vmem S1x1x1024x1024 .f32) (harg2 : arg2.IsWhole)
    (arg3 : Memref sig .tc .vmem S1x1x132 .f32) (harg3 : arg3.IsWhole)
    (X : BufTy.Contents (Elt F) arg2.view.ty) (init : Acc F) :
    Idealize.ShloMosaic.LoopInv (M := 𝕄) Idealize.ShloMosaic.frame (wpE (defs₀ (F := F)) 𝒱 (c : Thread nD τ) bd) E
      k0_t2_loop.lb k0_t2_loop.ub k0_t2_loop.st k0_t2_ok init
      (k0_t2_body (F := F) i arg1 harg1 arg2 harg2 arg3 harg3) where
  inv := inv2 (F := F) c arg2 X init
  step k acc := by
    iintro ⟨HR, %h_acc⟩
    subst h_acc
    iapply (wp_wand_r Idealize.ShloMosaic.frame (wpE (defs₀ (F := F)) 𝒱 (c : Thread nD τ) bd) E)
    isplitl [HR]
    · iapply (trip2_run (F := F) 𝒱 c bd E i arg1 harg1 arg2 harg2 arg3 harg3 X k
        (acc2 (arg2.view.read (Elt F) X) init k))
      iexact HR
    · iintro %yld ⟨%h_res, HR⟩
      isplitl [HR]; · iexact HR
      ipureintro
      rw [h_res]; exact (acc2_succ _ init k).symm

/-! ### The body -/

/-- The one store covers the output block: its rectangle is the whole block. -/
theorem cover0_2 (p0 : Vec F S1x1x132 .f32) (y : S1x1x132.Idx) :
    ∃ pc ∈ ([⟨r0, p0⟩] : List (View.Piece (Elt F) S1x1x132 .f32)), y ∈ pc.1.set :=
  View.cover_of_tiled [⟨r0, p0⟩] S1x1x132.size (by rfl) y

/-- The body on whole staging buffers, the two planes at x0 and x1 and the output buffer at anything, runs to the
    continuation holding the planes as they were and the output buffer at out0_2 x0 x1. -/
theorem sound_kernel0 (c : Dev nD) (E : Set ℕ) (i : grid0.Coords)
    (arg1 : Memref sig .tc .vmem S1x1x1024x1024 .f32) (harg1 : arg1.IsWhole)
    (arg2 : Memref sig .tc .vmem S1x1x1024x1024 .f32) (harg2 : arg2.IsWhole)
    (arg3 : Memref sig .tc .vmem S1x1x132 .f32) (harg3 : arg3.IsWhole)
    (x0 x1 : Vec F S1x1x1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__hist_var_kernel i arg1 harg1 arg2 harg2 arg3 harg3) K := by
  simp only [cc0__hist_var_kernel_eq_skeleton]; unfold cc0__hist_var_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _)).trans ?_
  sl_unfold_run_names
  unfold out0_2 feat0 init1 init2
  rfl

end Cert.Kernel.Hand

end
-- ==== Proof.KBBody1.lean ====
/-
  The second kernel's body: it loads the feature matrix, the weights, the bias and the two normalisation vectors whole,
  computes the dense layer, the clip at zero and the normalisation over the 32 rows, and stores the 32 x 256 result whole.
-/
import proofs.«111025_j75557064671630_1_alg».proof.Proof.Gen.Kernel.Skeleton
import Idealize.ShloMosaic.Lib.Exec
import Idealize.ShloMosaic.Lib.Tactic
import Idealize.ShloMosaic.Lib.Pipeline.Kit
import Idealize.ShloMosaic.Lib.Pipeline.FrameBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- The whole blocks the body reads and writes. -/
abbrev r1_0 : Rect S32x132 := Rect.unit (s := S32x132) ![0, 0] S32x132.size inb_S32x132_S32x132_0_0
abbrev r1_1 : Rect S132x256 := Rect.unit (s := S132x256) ![0, 0] S132x256.size inb_S132x256_S132x256_0_0
abbrev r1_2 : Rect S256 := Rect.unit (s := S256) ![0] S256.size inb_S256_S256_0
abbrev r1_5 : Rect S32x256 := Rect.unit (s := S32x256) ![0, 0] S32x256.size inb_S32x256_S32x256_0_0

/-- The output window's staging buffer after the body, from the five input blocks: its one store. -/
def out1_5 (x0 : Vec F S32x132 .f32) (x1 : Vec F S132x256 .f32) (x2 x3 x4 : Vec F S256 .f32) : Vec F S32x256 .f32 :=
  View.canon [⟨r1_5, k1_pay1 (View.ld x0 r1_0) (View.ld x1 r1_1) (View.ld x2 r1_2) (View.ld x3 r1_2) (View.ld x4 r1_2)⟩]

/-! ## The body's run

Everything above this line is FIXED (other modules are written against it). -/

/-- The one stored piece is the whole block, so every index of the block lies under it. -/
theorem cover1_5 (p0 : Vec F S32x256 .f32) (y : S32x256.Idx) :
    ∃ pc ∈ ([⟨r1_5, p0⟩] : List (View.Piece (Elt F) S32x256 .f32)), y ∈ pc.1.set :=
  View.cover_of_tiled [⟨r1_5, p0⟩] S32x256.size (by rfl) y

/-- The body on whole staging buffers, the five inputs at x0 … x4 and the output buffer at anything, runs to the
    continuation holding the inputs as they were and the output buffer at out1_5 x0 … x4. -/
theorem sound_kernel1 (c : Dev nD) (E : Set ℕ) (i : grid1.Coords)
    (arg1 : Memref sig .tc .vmem S32x132 .f32) (harg1 : arg1.IsWhole)
    (arg2 : Memref sig .tc .vmem S132x256 .f32) (harg2 : arg2.IsWhole)
    (arg3 : Memref sig .tc .vmem S256 .f32) (harg3 : arg3.IsWhole)
    (arg4 : Memref sig .tc .vmem S256 .f32) (harg4 : arg4.IsWhole)
    (arg5 : Memref sig .tc .vmem S256 .f32) (harg5 : arg5.IsWhole)
    (arg6 : Memref sig .tc .vmem S32x256 .f32) (harg6 : arg6.IsWhole)
    (x0 : Vec F S32x132 .f32) (x1 : Vec F S132x256 .f32) (x2 x3 x4 : Vec F S256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out1_5 x0 x1 x2 x3 x4)) -∗ K ⟨⟩))
      ⊢ wp frame (wpE (defs₀ (F := F)) Variants.none c none) E
          (cc1__mlp_bn_kernel i arg1 harg1 arg2 harg2 arg3 harg3 arg4 harg4 arg5 harg5 arg6 harg6) K := by
  simp only [cc1__mlp_bn_kernel_eq_skeleton]; unfold cc1__mlp_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  -- each input block is returned with the contents it was read at
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- the output block holds its one whole-block write, which reads as the canonical contents of that piece
  iexists _; isplitr
  swap; · iexact H5
  ipureintro
  exact View.read_writes_eq_canon _ _ _ (cover1_5 _)

end Cert.Kernel.Hand

end
-- ==== Proof.KBRegion.lean ====
/-
  The two kernel regions' proof data and the buffer contents at the boundaries of the program's three items
  (first kernel, a reshape, second kernel).

  A window's block at a grid point is read off its array as the region finds it.  After the first kernel's body at
  point t the two input buffers still hold their blocks (planes 1 and 2 of image t) and the output buffer holds the
  feature row of image t; the two input windows read ONE array, so each holds it at half the full share.  After the
  second kernel's body the output buffer holds the normalised layer of the five inputs.
-/
import proofs.«111025_j75557064671630_1_alg».proof.Proof.KBBody0
import proofs.«111025_j75557064671630_1_alg».proof.Proof.KBBody1
import proofs.«111025_j75557064671630_1_alg».proof.Proof.Gen.Kernel.Launch
import proofs.«111025_j75557064671630_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window w's block at point t of the first kernel, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first kernel's proof data: the arrays as found; after the body the planes' buffers at their blocks and the
    output buffer at the feature row; the two planes' windows share their array half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

/-- Window w's block at the second kernel's one point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second kernel's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

end Regions

/-! ## The buffers' contents between the items -/

variable (m : (ℓ : Loc nD τ sig) → Buf (Elt F) ℓ)

/-- Core c's unscoped buffers at launch. -/
abbrev W0 (c : Dev nD) : Valuation τ sig (Elt F) := fun b => m (c, b)
/-- The same read at the TensorCore's references: what the first kernel's proof data take. -/
abbrev V0 : (c : Dev nD) → (b : Ref sig .tc) → Buf (Elt F) ((c : Thread nD τ).loc b) := fun c b => W0 m c b
/-- What the first kernel leaves in its output array: every image's feature row written back. -/
def feats3 (c : Dev nD) : Buf (Elt F) ((c : Thread nD τ).loc main_v0) := (dat0 (V0 m) c).arrAt 2 cfg0.N
/-- After the first kernel: its output array at what it wrote, every other buffer as launched. -/
abbrev W1 (c : Dev nD) : Valuation τ sig (Elt F) := Function.update (W0 m c) main_v0 (feats3 m c)
/-- After the reshape. -/
abbrev W2 (c : Dev nD) : Valuation τ sig (Elt F) := StableHlo.after hostOps1 (W1 m c)
/-- The same read at the TensorCore's references: what the second kernel's proof data take. -/
abbrev V2 : (c : Dev nD) → (b : Ref sig .tc) → Buf (Elt F) ((c : Thread nD τ).loc b) := fun c b => W2 m c b
/-- What the second kernel leaves in its output array. -/
def result (c : Dev nD) : Buf (Elt F) ((c : Thread nD τ).loc main_v2) := (dat1 (V2 m) c).arrAt 5 cfg1.N
/-- After the second kernel. -/
abbrev W3 (c : Dev nD) : Valuation τ sig (Elt F) := Function.update (W2 m c) main_v2 (result m c)

/-- No pallas_call has a prefetched table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c

end Cert.Kernel.Hand

end
-- ==== Proof.KBRegion0.lean ====
/-
  The first kernel region around its body: what its windows' staging buffers hold before the body at every point, the
  body obligation, and how the core's unscoped buffers are dealt to the region at entry and joined again at exit.

  The region's two input windows read ONE array (the image tensor): at entry that array's full share is halved between
  them, the output array goes to the third window whole, and every other unscoped buffer bypasses the region; at exit
  the two halves (both still at the launch contents: an input window writes nothing back) join again and the output
  array holds what the 32 write-backs left.
-/
import proofs.«111025_j75557064671630_1_alg».proof.Proof.KBRegion

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The proof data projected -/

section Body
variable (V : (c : Dev nD) → (b : Ref sig .tc) → Buf (Elt F) ((c : Thread nD τ).loc b))

/-- The arrays of the proof data are the contents the region is entered at. -/
theorem A_eq0 (c : Dev nD) (w : Fin cfg0.W) : (dat0 V c).A w = V c (Pipeline.arrRef spec0 w) := by
  dsimp only [dat0]

/-- What the body leaves in each window's buffer: the two planes where they were, the feature row in the third. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- An input window is fetched whole and its block is left in place, so at every point its current buffer holds the
    block of its array there, whatever the buffer held before. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation at one point -/

/-- What the body is handed at point t: the invariant, what the core owes, and the three current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The two planes' buffers hold their blocks, so the body's triple applies at them; the invariant and what the core
    owes do not change from a point to the next and pass beside the body untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Body

/-! ## The region's arrays against the core's unscoped buffers

The first two windows read one array, the image tensor, and the third writes the output array; so the buffers behind
the windows' arrays are two, not three.  The region holds the image tensor as two half shares, one per input window,
and the output array whole. -/

section Arrays
variable (V : (c : Dev nD) → (b : Ref sig .tc) → Buf (Elt F) ((c : Thread nD τ).loc b))

/-- The share each window holds its array at: an input window's is the proof data's, the output window's is full. -/
theorem share0_0 (c : Dev nD) : (dat0 V c).share 0 = fullShare.left := by unfold Dat.share; rfl
theorem share0_1 (c : Dev nD) : (dat0 V c).share 1 = fullShare.right := by unfold Dat.share; rfl
theorem share0_2 (c : Dev nD) : (dat0 V c).share 2 = fullShare := by unfold Dat.share; rfl

/-- The region's arrays at contents G, window by window: every array is a whole buffer, so each conjunct is a
    whole-buffer points-to; the image tensor appears twice, at the left and at the right half of the full share. -/
theorem arrays_eq0 (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0)
          ∗ (((c : Thread nD τ).loc main_arg0) ↦{fullShare.right} G 1)
          ∗ (((c : Thread nD τ).loc main_v0) ↦{fullShare} G 2)) := by
  unfold Dat.arrays
  rw [bigSep_W0, share0_0, share0_1, share0_2, (arr_whole0 0).set_eq_univ, (arr_whole0 2).set_eq_univ]

/-- The distinct buffers behind the windows' arrays are the image tensor and the output array. -/
theorem arrBufs_eq0 (c : Dev nD) (X : (b : Ref sig .tc) → Buf (Elt F) ((c : Thread nD τ).loc b)) :
    (Pipeline.arrBufs spec0 c X : sProp 𝕄)
      = iprop((((c : Thread nD τ).loc main_arg0) ↦{fullShare} X main_arg0)
          ∗ (((c : Thread nD τ).loc main_v0) ↦{fullShare} X main_v0)) := by
  unfold Pipeline.arrBufs
  rw [show Finset.univ.image (Pipeline.arrRef spec0) = {main_arg0, main_v0} from by decide,
    bigSep_insert (by decide), bigSep_singleton]
  rfl

/-- The core's unscoped buffers at contents X are those two buffers beside all the others: the windows' arrays are
    unscoped, and that is all the split asks. -/
theorem split0 (c : Dev nD) (X : (b : Ref sig .tc) → Buf (Elt F) ((c : Thread nD τ).loc b)) :
    (unscopedBufs c X : sProp 𝕄) = iprop(Pipeline.arrBufs spec0 c X ∗ Pipeline.unscopedRest spec0 c X) :=
  Pipeline.unscopedBufs_split₀ (fun _ : Unit => cfg0) () winFacts₀0.arr_unscoped c X

end Arrays

/-! ## The contents after the region, buffer by buffer -/

section After
variable (m : (ℓ : Loc nD τ sig) → Buf (Elt F) ℓ)

/-- Only the output array changes across the region. -/
theorem W1_of_ne (c : Dev nD) (b : Ref sig .tc) (hne : b ≠ main_v0) : W1 m c b = W0 m c b :=
  Function.update_of_ne (StableHlo.devRef_ne_of_ne hne) _ _
theorem W1_v0 (c : Dev nD) : W1 m c main_v0 = feats3 m c :=
  Function.update_self ..

/-- The output array is a window's array, so no bypassing buffer is it: the bypassing buffers hold after the region
    what they held before. -/
theorem rest_W1 (c : Dev nD) :
    (Pipeline.unscopedRest spec0 c (fun b => W1 m c b) : sProp 𝕄) = Pipeline.unscopedRest spec0 c (V0 m c) := by
  unfold Pipeline.unscopedRest
  refine bigSep_congr fun b hb => ?_
  have hne : b ≠ main_v0 := fun e =>
    (Finset.mem_sdiff.mp hb).2 (e ▸ Finset.mem_image.mpr ⟨2, Finset.mem_univ _, rfl⟩)
  exact congrArg (pointsTo ((c : Thread nD τ).loc b) Finset.univ fullShare) (W1_of_ne m c b hne)

/-- After the region the two buffers behind the arrays: the image tensor as launched, the output array at feats3. -/
theorem arrBufs_W1 (c : Dev nD) :
    (Pipeline.arrBufs spec0 c (fun b => W1 m c b) : sProp 𝕄)
      = iprop((((c : Thread nD τ).loc main_arg0) ↦{fullShare} V0 m c main_arg0)
          ∗ (((c : Thread nD τ).loc main_v0) ↦{fullShare} feats3 m c)) := by
  rw [arrBufs_eq0, W1_of_ne m c main_arg0 (by decide), W1_v0]

/-- An input window writes nothing back: after all the points its array holds what it held at entry. -/
theorem arrAt_N_0 (c : Dev nD) : (dat0 (V0 m) c).arrAt 0 cfg0.N = V0 m c main_arg0 :=
  ((dat0 (V0 m) c).arrAt_in 0 rfl _).trans (A_eq0 (V0 m) c 0)
theorem arrAt_N_1 (c : Dev nD) : (dat0 (V0 m) c).arrAt 1 cfg0.N = V0 m c main_arg0 :=
  ((dat0 (V0 m) c).arrAt_in 1 rfl _).trans (A_eq0 (V0 m) c 1)

end After

/-! Everything in this file's STATEMENTS is FIXED (the run is written against them). -/

/-- The body obligation of the first kernel, at every point, for the proof data at ANY entry contents V. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body0 V c t

variable (m : (ℓ : Loc nD τ sig) → Buf (Elt F) ℓ)

/-- ENTRY: the core's unscoped buffers at the launch contents give the region its arrays at the entry contents (the
    image tensor halved between the two input windows) beside the unscoped buffers that are no window's array. -/
theorem entry0 (c : Dev nD) :
    (StableHlo.held (c : Thread nD τ) (Pipeline.ucRefs τ sig) (W0 m c) : sProp 𝕄)
      ⊢ iprop((dat0 (V0 m) c).arrays ((dat0 (V0 m) c).arrAt · 0) ∗ Pipeline.unscopedRest spec0 c (V0 m c)) := by
  -- the held set is the unscoped buffers, which are the two array buffers beside the rest; before any point an
  -- array holds its entry contents
  rw [← Pipeline.unscopedBufs_held c (W0 m c), split0 c, arrBufs_eq0, arrays_eq0]
  iintro ⟨⟨Ha, Hv⟩, Hrest⟩
  -- the full share of the image tensor is its left half beside its right half, at the same contents
  ihave Ha := (pointsTo_share (PosShare.mem_left_op_right fullShare)).1 $$ Ha
  icases Ha with ⟨Ha1, Ha2⟩
  isplitr [Hrest]
  · isplitl [Ha1]; · iexact Ha1
    isplitl [Ha2]; · iexact Ha2
    iexact Hv
  iexact Hrest

/-- EXIT: the arrays at what the write-backs left, beside the bypassing buffers, are the core's unscoped buffers at the
    contents after the region: the output array at feats3, everything else as launched. -/
theorem exit0 (c : Dev nD) :
    iprop((dat0 (V0 m) c).arrays ((dat0 (V0 m) c).arrAt · cfg0.N) ∗ Pipeline.unscopedRest spec0 c (V0 m c))
      ⊢ (StableHlo.held (c : Thread nD τ) (Pipeline.ucRefs τ sig) (W1 m c) : sProp 𝕄) := by
  -- the held set after the region is the two array buffers at the contents after it beside the rest, which is the
  -- rest as launched; both input windows' arrays end at the launch contents
  rw [← Pipeline.unscopedBufs_held c (W1 m c), split0 c, arrBufs_W1, rest_W1, arrays_eq0, arrAt_N_0, arrAt_N_1]
  iintro ⟨⟨Ha1, Ha2, Hv⟩, Hrest⟩
  isplitr [Hrest]
  · isplitl [Ha1 Ha2]
    · -- two halves of one buffer at the same contents are the buffer whole
      iapply (pointsTo_share (PosShare.mem_left_op_right fullShare)).2
      isplitl [Ha1]; · iexact Ha1
      iexact Ha2
    iexact Hv
  iexact Hrest

end Cert.Kernel.Hand

end
-- ==== Proof.KBRun.lean ====
/-
  The whole program's run: the first kernel region, the reshape, the second kernel region, from the launch to the
  return, with every unscoped buffer's final contents named.

  Every weakly fair execution from any memory with zero counters terminates, nothing faulting, and at the end each
  unscoped buffer holds W3: the arguments as launched, the feature array and its reshape as the first kernel left
  them, the result array at what the second kernel wrote.
-/
import proofs.«111025_j75557064671630_1_alg».proof.Proof.KBRegion0
import proofs.«111025_j75557064671630_1_alg».proof.Proof.Gen.Kernel.Regions
import Idealize.ShloMosaic.Lib.Pipeline.Frame
import Idealize.ShloMosaic.Lib.Pipeline.Regions
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Everything in this file's STATEMENTS is FIXED (the claims are written against them). -/

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### What each item leaves alone

The first kernel rewrites the feature array only, the reshape its result array only, the second kernel the result
array only: at any other reference the contents pass through. -/

theorem W1_of (c : Dev nD) (r : Ref sig .tc) (h : r ≠ main_v0) : W1 m c (Proc.devRef .tc r) = W0 m c (Proc.devRef .tc r) :=
  Function.update_of_ne (StableHlo.devRef_ne_of_ne h) _ _
theorem W2_of (c : Dev nD) (r : Ref sig .tc) (h : r ∉ hostOps1_W) : W2 m c (Proc.devRef .tc r) = W1 m c (Proc.devRef .tc r) :=
  StableHlo.after_of_writes_sub hostOps1 _ hostOps1_writes h
theorem W3_of (c : Dev nD) (r : Ref sig .tc) (h : r ≠ main_v2) : W3 m c (Proc.devRef .tc r) = W2 m c (Proc.devRef .tc r) :=
  Function.update_of_ne (StableHlo.devRef_ne_of_ne h) _ _
/-- and at the result array the final contents are what the second kernel wrote. -/
theorem W3_at_result (c : Dev nD) : W3 m c (Proc.devRef .tc main_v2) = result m c := Function.update_self _ _ _

/-! ## The second kernel region around its body

Six windows over one grid point, every array a buffer of its own, so every window holds its array at the full share.
The five input windows' staging buffers hold their blocks when the body is called; the body's triple then gives the
output window's buffer at out1_5 of those blocks. -/

section Region1
variable (V : (c : Dev nD) → (b : Ref sig .tc) → Buf (Elt F) ((c : Thread nD τ).loc b))

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

/-- Input window 0's current buffer holds its block at the one point, fetched there or not: the window is uncut and never
    idle, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current buffer holds its block at the one point, fetched there or not: the window is uncut and never
    idle, and the body leaves the block in place. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current buffer holds its block at the one point, fetched there or not: the window is uncut and never
    idle, and the body leaves the block in place. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's current buffer holds its block at the one point, fetched there or not: the window is uncut and never
    idle, and the body leaves the block in place. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4's current buffer holds its block at the one point, fetched there or not: the window is uncut and never
    idle, and the body leaves the block in place. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- What the body is called with at point t: the invariant, the core's dues, each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at the point: the five inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second kernel, for the proof data at any entry contents. -/
theorem body_obligation1 (c : Dev nD) : BodyObligation (dat1 (F := F) V c) (defs₀ (F := F)) Variants.none () Set.univ := fun t => by
  rw [bigSep_W1, bigSep_W1]
  exact sound_body1 V c t

end Region1

/-! ## The thread state between the items -/

/-- No core owes another anything: no level is assigned. -/
abbrev noLevels : GSem nD τ sig → Finset Unit := fun _ => ∅
abbrev levelZero : GSem nD τ sig → Unit → ℕ := fun _ _ => 0
/-- What rides beside the buffers through every item: the core's generator register at some state and its dues, at
    nothing. -/
abbrev rest (c : Dev nD) : sProp 𝕄 :=
  iprop((∃ r, prngReg c r) ∗ ∃ W, owes (c : Thread nD τ) (0 : CellTallies nD τ sig Unit) W)
/-- The last thread state without the dues: every unscoped buffer at the final contents, the generator register at some
    state. -/
abbrev lastState (c : Dev nD) : sProp 𝕄 :=
  iprop(StableHlo.held (c : Thread nD τ) (Pipeline.ucRefs τ sig) (W3 m c) ∗ ∃ r, prngReg c r)

/-- The final contents read at the TensorCore's references. -/
abbrev V3 : (c : Dev nD) → (b : Ref sig .tc) → Buf (Elt F) ((c : Thread nD τ).loc b) := fun c b => W3 m c b

/-- At the second region's exit each of its arrays holds what the pipeline leaves there: an input window writes nothing
    back, so its array is as entered, and the second kernel does not touch it afterwards; the result array is at
    result by definition. -/
theorem hF1 (c : Dev nD) : ∀ w : Fin 6, (dat1 (V2 m) c).arrAt w cfg1.N = V3 m c (Pipeline.arrRef spec1 w)
  | 0 => ((dat1 (V2 m) c).arrAt_in 0 rfl _).trans <| (A_eq1 (V2 m) c 0).trans (W3_of m c _ (by decide)).symm
  | 1 => ((dat1 (V2 m) c).arrAt_in 1 rfl _).trans <| (A_eq1 (V2 m) c 1).trans (W3_of m c _ (by decide)).symm
  | 2 => ((dat1 (V2 m) c).arrAt_in 2 rfl _).trans <| (A_eq1 (V2 m) c 2).trans (W3_of m c _ (by decide)).symm
  | 3 => ((dat1 (V2 m) c).arrAt_in 3 rfl _).trans <| (A_eq1 (V2 m) c 3).trans (W3_of m c _ (by decide)).symm
  | 4 => ((dat1 (V2 m) c).arrAt_in 4 rfl _).trans <| (A_eq1 (V2 m) c 4).trans (W3_of m c _ (by decide)).symm
  | 5 => (W3_at_result m c).symm
  | ⟨_ + 6, h⟩ => absurd h (Nat.not_lt.2 (Nat.le_add_left _ _))

/-- Off the region's arrays the final contents are the entry contents: the only buffer that changes is the result array,
    which is one of them. -/
theorem hrest1 (c : Dev nD) : ∀ b, b ∉ Finset.univ.image (Pipeline.arrRef spec1) → V3 m c b = V2 m c b :=
  fun b hb => W3_of m c b fun e => hb (Finset.mem_image.mpr ⟨5, Finset.mem_univ _, e.symm⟩)

/-! ## The two kernel regions as segments -/

set_option backward.isDefEq.respectTransparency.types false in
/-- The first kernel region over the thread state: entered from every unscoped buffer at the launch contents, left with
    the feature array at what the write-backs made of it. The image tensor is halved between the two input windows at
    entry and joined again at exit; the generator register goes into the region's invariant and comes back; nothing is
    owed; the kernel has no semaphore of its own. -/
def reg0 : Pipeline.RegionSeg (pcfgs (F := F)) adm (pdats m) () defs₀ Variants.none noLevels levelZero 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ noLevels levelZero 0 fun _ _ => rfl
  pre c := iprop(StableHlo.held (c : Thread nD τ) (Pipeline.ucRefs τ sig) (W0 m c) ∗ rest c)
  post c := iprop(StableHlo.held (c : Thread nD τ) (Pipeline.ucRefs τ sig) (W1 m c) ∗ rest c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit : (StableHlo.held (c : Thread nD τ) (Pipeline.ucRefs τ sig) (W0 m c) : sProp 𝕄)
        ⊢ iprop((pdats m 0 c).arrays ((pdats m 0 c).arrAt · 0) ∗ Pipeline.unscopedRest spec0 c (V0 m c)) := entry0 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V0 m c))
        ⊢ (StableHlo.held (c : Thread nD τ) (Pipeline.ucRefs τ sig) (W1 m c) : sProp 𝕄) := exit0 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel region over the thread state: entered from every unscoped buffer at the contents after the reshape,
    left with the result array at what the one write-back made of it. Every window's array is a buffer of its own, split
    out of the unscoped buffers at entry and put back at the final contents at exit. -/
def reg1 : Pipeline.RegionSeg (pcfgs (F := F)) adm (pdats m) () defs₀ Variants.none noLevels levelZero 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ noLevels levelZero 1 fun _ _ => rfl
  pre c := iprop(StableHlo.held (c : Thread nD τ) (Pipeline.ucRefs τ sig) (W2 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The reshape between the two kernels as a segment: a line of one host operation over the unscoped buffers from the
    contents the first kernel leaves, the rest of the state riding along; it ends at those buffers after the line. -/
abbrev hostSeg1 : Pipeline.HostSeg (Name := ℕ) (U := UR sig nD τ) (pcfgs (F := F)) defs₀ Variants.none noLevels levelZero :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) rest

/-- The program's three items in order. -/
abbrev segs : List (Pipeline.Seg (pcfgs (F := F)) adm (pdats m) () defs₀ Variants.none noLevels levelZero) :=
  [ .region (reg0 m), .host (hostSeg1 m), .region (reg1 m) ]

/-- The program is the run of its items: it is their chain, and the segments' run is that chain by unfolding. -/
theorem main_run (c : Dev nD) : main (F := F) c = Pipeline.Seg.run (segs m) := (main_chain c).trans (by chain_rfl)

set_option backward.isDefEq.respectTransparency.types false in
/-- THE RUN, at any F: the program terminates without a fault and every unscoped buffer ends at W3. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) := by
  exact Pipeline.θ_run_regions_kit (pcfgs (F := F)) adm (pdats m) () cellOf_inj emb₁ defs₀ Variants.none noLevels levelZero m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c)) (Tₙ := lastState m)
    (hch := ⟨fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-! ### The last valuation read back -/

theorem W3_main_arg0 (c : Dev nD) : W3 m c (Proc.devRef .tc main_arg0) = m ((c : Thread nD τ).loc main_arg0) :=
  (W3_of m c main_arg0 (by decide)).trans <| (W2_of m c main_arg0 (by decide)).trans <| (W1_of m c main_arg0 (by decide)).trans rfl
theorem W3_main_arg1 (c : Dev nD) : W3 m c (Proc.devRef .tc main_arg1) = m ((c : Thread nD τ).loc main_arg1) :=
  (W3_of m c main_arg1 (by decide)).trans <| (W2_of m c main_arg1 (by decide)).trans <| (W1_of m c main_arg1 (by decide)).trans rfl
theorem W3_main_arg2 (c : Dev nD) : W3 m c (Proc.devRef .tc main_arg2) = m ((c : Thread nD τ).loc main_arg2) :=
  (W3_of m c main_arg2 (by decide)).trans <| (W2_of m c main_arg2 (by decide)).trans <| (W1_of m c main_arg2 (by decide)).trans rfl
theorem W3_main_arg3 (c : Dev nD) : W3 m c (Proc.devRef .tc main_arg3) = m ((c : Thread nD τ).loc main_arg3) :=
  (W3_of m c main_arg3 (by decide)).trans <| (W2_of m c main_arg3 (by decide)).trans <| (W1_of m c main_arg3 (by decide)).trans rfl
theorem W3_main_arg4 (c : Dev nD) : W3 m c (Proc.devRef .tc main_arg4) = m ((c : Thread nD τ).loc main_arg4) :=
  (W3_of m c main_arg4 (by decide)).trans <| (W2_of m c main_arg4 (by decide)).trans <| (W1_of m c main_arg4 (by decide)).trans rfl
/-- The result array ends at what the second kernel wrote. -/
theorem W3_main_v2 (c : Dev nD) : W3 m c (Proc.devRef .tc main_v2) = result m c := Function.update_self _ _ _

/-! ### What the second kernel finds -/

/-- Its first operand is the reshape of the feature array. -/
theorem V2_main_v1 (c : Dev nD) : V2 m c main_v1 = shapeCast S32x132 (feats3 m c) shapeCasts_S32x1x132_S32x132 := by
  show StableHlo.after hostOps1 (W1 m c) (Proc.devRef .tc main_v1) = _
  unfold hostOps1
  after_results
  -- the feature array is what the first kernel left there
  have h : W1 m c (Proc.devRef .tc main_v0) = feats3 m c := Function.update_self _ _ _
  rw [h]
  rfl
theorem V2_main_arg1 (c : Dev nD) : V2 m c main_arg1 = m ((c : Thread nD τ).loc main_arg1) :=
  (W2_of m c main_arg1 (by decide)).trans <| (W1_of m c main_arg1 (by decide)).trans rfl
theorem V2_main_arg2 (c : Dev nD) : V2 m c main_arg2 = m ((c : Thread nD τ).loc main_arg2) :=
  (W2_of m c main_arg2 (by decide)).trans <| (W1_of m c main_arg2 (by decide)).trans rfl
theorem V2_main_arg3 (c : Dev nD) : V2 m c main_arg3 = m ((c : Thread nD τ).loc main_arg3) :=
  (W2_of m c main_arg3 (by decide)).trans <| (W1_of m c main_arg3 (by decide)).trans rfl
theorem V2_main_arg4 (c : Dev nD) : V2 m c main_arg4 = m ((c : Thread nD τ).loc main_arg4) :=
  (W2_of m c main_arg4 (by decide)).trans <| (W1_of m c main_arg4 (by decide)).trans rfl

end Cert.Kernel.Hand

end
-- ==== Proof.KIBody0.lean ====
/-
  The first kernel's body at one grid point, as a function of the two channel planes it is handed.

  The body walks each plane in 64 chunks of 16 rows, carrying four running values per plane (64 bin counts, the sum of
  the pixels, the sum of their squares, the sum of the patch variances); from the two final quadruples it builds the
  row of 132 features and stores it.  A chunk's contribution is a function of the 16 rows it loads (trip1, trip2: the
  body's own arithmetic applied to that load); the carried quadruple before chunk k is the recursion acc1, acc2.
-/
import proofs.«111025_j75557064671630_1_alg».proof.Proof.Gen.KernelIdeal.Skeleton
import Idealize.ShloMosaic.Lib.Exec
import Idealize.ShloMosaic.Lib.Tactic
import Idealize.ShloMosaic.Lib.Pipeline.Kit
import Idealize.ShloMosaic.Lib.Pipeline.FrameBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The four running values of a plane. -/
abbrev Acc (F : FTy → Type) : Type := FVec F S1x64 .f32 × FVec F S1x1 .f32 × FVec F S1x1 .f32 × FVec F S1x1 .f32

/-- The 16 rows chunk k of the first plane covers. -/
abbrev rk1 (k : Fin k0_t1_loop.trips) : Rect S1x1x1024x1024 :=
  Rect.unit (s := S1x1x1024x1024) (k0_off1 k) S1x1x16x1024.size (k0_off1_inb k)
/-- The 16 rows chunk k of the second plane covers. -/
abbrev rk2 (k : Fin k0_t2_loop.trips) : Rect S1x1x1024x1024 :=
  Rect.unit (s := S1x1x1024x1024) (k0_off2 k) S1x1x16x1024.size (k0_off2_inb k)

/-- What chunk k of the first plane does to the running values. -/
def trip1 (X : Vec F S1x1x1024x1024 .f32) (k : Fin k0_t1_loop.trips) (a : Acc F) : Acc F :=
  (k0_pay3 a.1 (View.ld X (rk1 k)), k0_pay4 a.2.1 (View.ld X (rk1 k)), k0_pay5 a.2.2.1 (View.ld X (rk1 k)),
    k0_pay20 a.2.2.2 (k0_pay7 (View.ld X (rk1 k))) (k0_pay8 (View.ld X (rk1 k))))
/-- What chunk k of the second plane does to the running values. -/
def trip2 (X : Vec F S1x1x1024x1024 .f32) (k : Fin k0_t2_loop.trips) (a : Acc F) : Acc F :=
  (k0_pay10 a.1 (View.ld X (rk2 k)), k0_pay11 a.2.1 (View.ld X (rk2 k)), k0_pay12 a.2.2.1 (View.ld X (rk2 k)),
    k0_pay28 a.2.2.2 (k0_pay14 (View.ld X (rk2 k))) (k0_pay15 (View.ld X (rk2 k))))

/-- The running values of the first plane before chunk k. -/
def acc1 (X : Vec F S1x1x1024x1024 .f32) (init : Acc F) : ℕ → Acc F
  | 0 => init
  | k + 1 => if h : k < k0_t1_loop.trips then trip1 X ⟨k, h⟩ (acc1 X init k) else acc1 X init k
/-- The running values of the second plane before chunk k. -/
def acc2 (X : Vec F S1x1x1024x1024 .f32) (init : Acc F) : ℕ → Acc F
  | 0 => init
  | k + 1 => if h : k < k0_t2_loop.trips then trip2 X ⟨k, h⟩ (acc2 X init k) else acc2 X init k

theorem acc1_succ (X : Vec F S1x1x1024x1024 .f32) (init : Acc F) (k : Fin k0_t1_loop.trips) :
    acc1 X init (k.val + 1) = trip1 X k (acc1 X init k.val) := by
  rw [acc1]; exact dif_pos k.isLt
theorem acc2_succ (X : Vec F S1x1x1024x1024 .f32) (init : Acc F) (k : Fin k0_t2_loop.trips) :
    acc2 X init (k.val + 1) = trip2 X k (acc2 X init k.val) := by
  rw [acc2]; exact dif_pos k.isLt

/-- The zero quadruple each plane starts from. -/
def init1 : Acc F := (k0_pay16 (F := F), k0_pay17 (F := F), k0_pay18 (F := F), k0_pay19 (F := F))
def init2 : Acc F := (k0_pay24 (F := F), k0_pay25 (F := F), k0_pay26 (F := F), k0_pay27 (F := F))

/-- The row of 132 features from the two planes. -/
def feat0 (x0 x1 : Vec F S1x1x1024x1024 .f32) : Vec F S1x1x132 .f32 :=
  let a := acc1 x0 (init1 (F := F)) k0_t1_loop.trips
  let b := acc2 x1 (init2 (F := F)) k0_t2_loop.trips
  k0_pay1 (k0_pay21 a.1) (k0_pay22 a.2.1 a.2.2.1) (k0_pay23 a.2.2.2) b.2.2.1 b.2.2.2 (k0_pay29 b.1) (k0_pay30 b.2.1)

/-- The whole output block. -/
abbrev r0 : Rect S1x1x132 := Rect.unit (s := S1x1x132) ![0, 0, 0] S1x1x132.size inb_S1x1x132_S1x1x132_0_0_0

/-- The output window's staging buffer after the body: its one store. -/
def out0_2 (x0 x1 : Vec F S1x1x1024x1024 .f32) : Vec F S1x1x132 .f32 :=
  View.canon [⟨r0, feat0 x0 x1⟩]

/-! ## The body's run

Everything above this line is FIXED (other modules are written against it). Below: the two counted loops by their
invariants, and the body's triple. -/

/-! ### The first plane's loop -/

/-- One chunk of the first plane, at any chunk number and any running values: it reads its 16 rows, leaves the plane
    as it was, and hands on the running values trip1 names (the loaded rows are the plane read at the chunk's
    rectangle, which is how trip1 spells them). -/
theorem trip1_run (𝒱 : Variants) (c : Dev nD) (bd : Option 𝒱.V) (E : Set ℕ) (i : grid0.Coords)
    (arg1 : Memref sig .tc .vmem S1x1x1024x1024 .f32) (harg1 : arg1.IsWhole)
    (arg2 : Memref sig .tc .vmem S1x1x1024x1024 .f32) (harg2 : arg2.IsWhole)
    (arg3 : Memref sig .tc .vmem S1x1x132 .f32) (harg3 : arg3.IsWhole)
    (X : BufTy.Contents (Elt F) arg1.view.ty) (k : Fin k0_t1_loop.trips) (acc : Acc F) :
    (iprop(arg1.view.loc (c : Thread nD τ) ↦[arg1.view.set]{fullShare} X) : sProp 𝕄)
      ⊢ wp frame (wpE (defs₀ (F := F)) 𝒱 (c : Thread nD τ) bd) E (k0_t1_body (F := F) i arg1 harg1 arg2 harg2 arg3 harg3 k acc)
          (fun yld => iprop(⌜yld = trip1 (arg1.view.read (Elt F) X) k acc⌝
            ∗ (arg1.view.loc (c : Thread nD τ) ↦[arg1.view.set]{fullShare} X))) := by
  unfold k0_t1_body
  iintro HR_arg1
  sl_exec
  sl_step
  isplitr
  · ipureintro
    sl_unfold_run_names
    rfl
  · iexact HR_arg1

/-- Before any chunk the running values are the ones the loop starts from. -/
theorem acc1_zero (X : Vec F S1x1x1024x1024 .f32) (init : Acc F) : acc1 X init 0 = init := rfl

macro_rules | `(tactic| sl_pure) => `(tactic| with_reducible exact (Cert.KernelIdeal.Hand.acc1_zero ..).symm)

/-- Before chunk k: the first plane is held, untouched, and the running values are acc1 of what it reads. -/
abbrev inv1 (c : Dev nD) (arg1 : Memref sig .tc .vmem S1x1x1024x1024 .f32)
    (X : BufTy.Contents (Elt F) arg1.view.ty) (init : Acc F) (k : ℕ) (acc : Acc F) : sProp 𝕄 :=
  iprop((arg1.view.loc (c : Thread nD τ) ↦[arg1.view.set]{fullShare} X)
    ∗ ⌜acc = acc1 (arg1.view.read (Elt F) X) init k⌝)

set_option warn.classDefReducibility false in
/-- The first plane's loop by that invariant: one chunk takes acc1 at k to acc1 at k + 1, by the recursion's
    successor equation. -/
@[sl_loop] def loopInv1 (𝒱 : Variants) (c : Dev nD) (bd : Option 𝒱.V) (E : Set ℕ) (i : grid0.Coords)
    (arg1 : Memref sig .tc .vmem S1x1x1024x1024 .f32) (harg1 : arg1.IsWhole)
    (arg2 : Memref sig .tc .vmem S1x1x1024x1024 .f32) (harg2 : arg2.IsWhole)
    (arg3 : Memref sig .tc .vmem S1x1x132 .f32) (harg3 : arg3.IsWhole)
    (X : BufTy.Contents (Elt F) arg1.view.ty) (init : Acc F) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok init
      (k0_t1_body (F := F) i arg1 harg1 arg2 harg2 arg3 harg3) where
  inv := inv1 (F := F) c arg1 X init
  step k acc := by
    iintro ⟨HR, %h_acc⟩
    subst h_acc
    iapply (wp_wand_r Idealize.ShloMosaic.frame (wpE (defs₀ (F := F)) 𝒱 (c : Thread nD τ) bd) E)
    isplitl [HR]
    · iapply (trip1_run (F := F) 𝒱 c bd E i arg1 harg1 arg2 harg2 arg3 harg3 X k
        (acc1 (arg1.view.read (Elt F) X) init k))
      iexact HR
    · iintro %yld ⟨%h_res, HR⟩
      isplitl [HR]; · iexact HR
      ipureintro
      rw [h_res]; exact (acc1_succ _ init k).symm

/-! ### The second plane's loop -/

/-- One chunk of the second plane, at any chunk number and any running values: it reads its 16 rows, leaves the plane
    as it was, and hands on the running values trip2 names (the loaded rows are the plane read at the chunk's
    rectangle, which is how trip2 spells them). -/
theorem trip2_run (𝒱 : Variants) (c : Dev nD) (bd : Option 𝒱.V) (E : Set ℕ) (i : grid0.Coords)
    (arg1 : Memref sig .tc .vmem S1x1x1024x1024 .f32) (harg1 : arg1.IsWhole)
    (arg2 : Memref sig .tc .vmem S1x1x1024x1024 .f32) (harg2 : arg2.IsWhole)
    (arg3 : Memref sig .tc .vmem S1x1x132 .f32) (harg3 : arg3.IsWhole)
    (X : BufTy.Contents (Elt F) arg2.view.ty) (k : Fin k0_t2_loop.trips) (acc : Acc F) :
    (iprop(arg2.view.loc (c : Thread nD τ) ↦[arg2.view.set]{fullShare} X) : sProp 𝕄)
      ⊢ wp frame (wpE (defs₀ (F := F)) 𝒱 (c : Thread nD τ) bd) E (k0_t2_body (F := F) i arg1 harg1 arg2 harg2 arg3 harg3 k acc)
          (fun yld => iprop(⌜yld = trip2 (arg2.view.read (Elt F) X) k acc⌝
            ∗ (arg2.view.loc (c : Thread nD τ) ↦[arg2.view.set]{fullShare} X))) := by
  unfold k0_t2_body
  iintro HR_arg2
  sl_exec
  sl_step
  isplitr
  · ipureintro
    sl_unfold_run_names
    rfl
  · iexact HR_arg2

/-- Before any chunk the running values are the ones the loop starts from. -/
theorem acc2_zero (X : Vec F S1x1x1024x1024 .f32) (init : Acc F) : acc2 X init 0 = init := rfl

macro_rules | `(tactic| sl_pure) => `(tactic| with_reducible exact (Cert.KernelIdeal.Hand.acc2_zero ..).symm)

/-- Before chunk k: the second plane is held, untouched, and the running values are acc2 of what it reads. -/
abbrev inv2 (c : Dev nD) (arg2 : Memref sig .tc .vmem S1x1x1024x1024 .f32)
    (X : BufTy.Contents (Elt F) arg2.view.ty) (init : Acc F) (k : ℕ) (acc : Acc F) : sProp 𝕄 :=
  iprop((arg2.view.loc (c : Thread nD τ) ↦[arg2.view.set]{fullShare} X)
    ∗ ⌜acc = acc2 (arg2.view.read (Elt F) X) init k⌝)

set_option warn.classDefReducibility false in
/-- The second plane's loop by that invariant: one chunk takes acc2 at k to acc2 at k + 1, by the recursion's
    successor equation. -/
@[sl_loop] def loopInv2 (𝒱 : Variants) (c : Dev nD) (bd : Option 𝒱.V) (E : Set ℕ) (i : grid0.Coords)
    (arg1 : Memref sig .tc .vmem S1x1x1024x1024 .f32) (harg1 : arg1.IsWhole)
    (arg2 : Memref sig .tc .vmem S1x1x1024x1024 .f32) (harg2 : arg2.IsWhole)
    (arg3 : Memref sig .tc .vmem S1x1x132 .f32) (harg3 : arg3.IsWhole)
    (X : BufTy.Contents (Elt F) arg2.view.ty) (init : Acc F) :
    Idealize.ShloMosaic.LoopInv (M := 𝕄) Idealize.ShloMosaic.frame (wpE (defs₀ (F := F)) 𝒱 (c : Thread nD τ) bd) E
      k0_t2_loop.lb k0_t2_loop.ub k0_t2_loop.st k0_t2_ok init
      (k0_t2_body (F := F) i arg1 harg1 arg2 harg2 arg3 harg3) where
  inv := inv2 (F := F) c arg2 X init
  step k acc := by
    iintro ⟨HR, %h_acc⟩
    subst h_acc
    iapply (wp_wand_r Idealize.ShloMosaic.frame (wpE (defs₀ (F := F)) 𝒱 (c : Thread nD τ) bd) E)
    isplitl [HR]
    · iapply (trip2_run (F := F) 𝒱 c bd E i arg1 harg1 arg2 harg2 arg3 harg3 X k
        (acc2 (arg2.view.read (Elt F) X) init k))
      iexact HR
    · iintro %yld ⟨%h_res, HR⟩
      isplitl [HR]; · iexact HR
      ipureintro
      rw [h_res]; exact (acc2_succ _ init k).symm

/-! ### The body -/

/-- The one store covers the output block: its rectangle is the whole block. -/
theorem cover0_2 (p0 : Vec F S1x1x132 .f32) (y : S1x1x132.Idx) :
    ∃ pc ∈ ([⟨r0, p0⟩] : List (View.Piece (Elt F) S1x1x132 .f32)), y ∈ pc.1.set :=
  View.cover_of_tiled [⟨r0, p0⟩] S1x1x132.size (by rfl) y

/-- The body on whole staging buffers, the two planes at x0 and x1 and the output buffer at anything, runs to the
    continuation holding the planes as they were and the output buffer at out0_2 x0 x1. -/
theorem sound_kernel0 (c : Dev nD) (E : Set ℕ) (i : grid0.Coords)
    (arg1 : Memref sig .tc .vmem S1x1x1024x1024 .f32) (harg1 : arg1.IsWhole)
    (arg2 : Memref sig .tc .vmem S1x1x1024x1024 .f32) (harg2 : arg2.IsWhole)
    (arg3 : Memref sig .tc .vmem S1x1x132 .f32) (harg3 : arg3.IsWhole)
    (x0 x1 : Vec F S1x1x1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__hist_var_kernel i arg1 harg1 arg2 harg2 arg3 harg3) K := by
  simp only [cc0__hist_var_kernel_eq_skeleton]; unfold cc0__hist_var_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover0_2 _)).trans ?_
  sl_unfold_run_names
  unfold out0_2 feat0 init1 init2
  rfl

end Cert.KernelIdeal.Hand

end
-- ==== Proof.KIBody1.lean ====
/-
  The second kernel's body: it loads the feature matrix, the weights, the bias and the two normalisation vectors whole,
  computes the dense layer, the clip at zero and the normalisation over the 32 rows, and stores the 32 x 256 result whole.
-/
import proofs.«111025_j75557064671630_1_alg».proof.Proof.Gen.KernelIdeal.Skeleton
import Idealize.ShloMosaic.Lib.Exec
import Idealize.ShloMosaic.Lib.Tactic
import Idealize.ShloMosaic.Lib.Pipeline.Kit
import Idealize.ShloMosaic.Lib.Pipeline.FrameBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The whole blocks the body reads and writes. -/
abbrev r1_0 : Rect S32x132 := Rect.unit (s := S32x132) ![0, 0] S32x132.size inb_S32x132_S32x132_0_0
abbrev r1_1 : Rect S132x256 := Rect.unit (s := S132x256) ![0, 0] S132x256.size inb_S132x256_S132x256_0_0
abbrev r1_2 : Rect S256 := Rect.unit (s := S256) ![0] S256.size inb_S256_S256_0
abbrev r1_5 : Rect S32x256 := Rect.unit (s := S32x256) ![0, 0] S32x256.size inb_S32x256_S32x256_0_0

/-- The output window's staging buffer after the body, from the five input blocks: its one store. -/
def out1_5 (x0 : Vec F S32x132 .f32) (x1 : Vec F S132x256 .f32) (x2 x3 x4 : Vec F S256 .f32) : Vec F S32x256 .f32 :=
  View.canon [⟨r1_5, k1_pay1 (View.ld x0 r1_0) (View.ld x1 r1_1) (View.ld x2 r1_2) (View.ld x3 r1_2) (View.ld x4 r1_2)⟩]

/-! ## The body's run

Everything above this line is FIXED (other modules are written against it). -/

/-- The one stored piece is the whole block, so every index of the block lies under it. -/
theorem cover1_5 (p0 : Vec F S32x256 .f32) (y : S32x256.Idx) :
    ∃ pc ∈ ([⟨r1_5, p0⟩] : List (View.Piece (Elt F) S32x256 .f32)), y ∈ pc.1.set :=
  View.cover_of_tiled [⟨r1_5, p0⟩] S32x256.size (by rfl) y

/-- The body on whole staging buffers, the five inputs at x0 … x4 and the output buffer at anything, runs to the
    continuation holding the inputs as they were and the output buffer at out1_5 x0 … x4. -/
theorem sound_kernel1 (c : Dev nD) (E : Set ℕ) (i : grid1.Coords)
    (arg1 : Memref sig .tc .vmem S32x132 .f32) (harg1 : arg1.IsWhole)
    (arg2 : Memref sig .tc .vmem S132x256 .f32) (harg2 : arg2.IsWhole)
    (arg3 : Memref sig .tc .vmem S256 .f32) (harg3 : arg3.IsWhole)
    (arg4 : Memref sig .tc .vmem S256 .f32) (harg4 : arg4.IsWhole)
    (arg5 : Memref sig .tc .vmem S256 .f32) (harg5 : arg5.IsWhole)
    (arg6 : Memref sig .tc .vmem S32x256 .f32) (harg6 : arg6.IsWhole)
    (x0 : Vec F S32x132 .f32) (x1 : Vec F S132x256 .f32) (x2 x3 x4 : Vec F S256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out1_5 x0 x1 x2 x3 x4)) -∗ K ⟨⟩))
      ⊢ wp frame (wpE (defs₀ (F := F)) Variants.none c none) E
          (cc1__mlp_bn_kernel i arg1 harg1 arg2 harg2 arg3 harg3 arg4 harg4 arg5 harg5 arg6 harg6) K := by
  simp only [cc1__mlp_bn_kernel_eq_skeleton]; unfold cc1__mlp_bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  -- each input block is returned with the contents it was read at
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  -- the output block holds its one whole-block write, which reads as the canonical contents of that piece
  iexists _; isplitr
  swap; · iexact H5
  ipureintro
  exact View.read_writes_eq_canon _ _ _ (cover1_5 _)

end Cert.KernelIdeal.Hand

end
-- ==== Proof.KIRegion.lean ====
/-
  The two kernel regions' proof data and the buffer contents at the boundaries of the program's three items
  (first kernel, a reshape, second kernel).

  A window's block at a grid point is read off its array as the region finds it.  After the first kernel's body at
  point t the two input buffers still hold their blocks (planes 1 and 2 of image t) and the output buffer holds the
  feature row of image t; the two input windows read ONE array, so each holds it at half the full share.  After the
  second kernel's body the output buffer holds the normalised layer of the five inputs.
-/
import proofs.«111025_j75557064671630_1_alg».proof.Proof.KIBody0
import proofs.«111025_j75557064671630_1_alg».proof.Proof.KIBody1
import proofs.«111025_j75557064671630_1_alg».proof.Proof.Gen.KernelIdeal.Launch
import proofs.«111025_j75557064671630_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- Window w's block at point t of the first kernel, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first kernel's proof data: the arrays as found; after the body the planes' buffers at their blocks and the
    output buffer at the feature row; the two planes' windows share their array half and half. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

/-- Window w's block at the second kernel's one point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second kernel's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

end Regions

/-! ## The buffers' contents between the items -/

variable (m : (ℓ : Loc nD τ sig) → Buf (Elt F) ℓ)

/-- Core c's unscoped buffers at launch. -/
abbrev W0 (c : Dev nD) : Valuation τ sig (Elt F) := fun b => m (c, b)
/-- The same read at the TensorCore's references: what the first kernel's proof data take. -/
abbrev V0 : (c : Dev nD) → (b : Ref sig .tc) → Buf (Elt F) ((c : Thread nD τ).loc b) := fun c b => W0 m c b
/-- What the first kernel leaves in its output array: every image's feature row written back. -/
def feats3 (c : Dev nD) : Buf (Elt F) ((c : Thread nD τ).loc main_v0) := (dat0 (V0 m) c).arrAt 2 cfg0.N
/-- After the first kernel: its output array at what it wrote, every other buffer as launched. -/
abbrev W1 (c : Dev nD) : Valuation τ sig (Elt F) := Function.update (W0 m c) main_v0 (feats3 m c)
/-- After the reshape. -/
abbrev W2 (c : Dev nD) : Valuation τ sig (Elt F) := StableHlo.after hostOps1 (W1 m c)
/-- The same read at the TensorCore's references: what the second kernel's proof data take. -/
abbrev V2 : (c : Dev nD) → (b : Ref sig .tc) → Buf (Elt F) ((c : Thread nD τ).loc b) := fun c b => W2 m c b
/-- What the second kernel leaves in its output array. -/
def result (c : Dev nD) : Buf (Elt F) ((c : Thread nD τ).loc main_v2) := (dat1 (V2 m) c).arrAt 5 cfg1.N
/-- After the second kernel. -/
abbrev W3 (c : Dev nD) : Valuation τ sig (Elt F) := Function.update (W2 m c) main_v2 (result m c)

/-- No pallas_call has a prefetched table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c

end Cert.KernelIdeal.Hand

end
-- ==== Proof.KIRegion0.lean ====
/-
  The first kernel region around its body: what its windows' staging buffers hold before the body at every point, the
  body obligation, and how the core's unscoped buffers are dealt to the region at entry and joined again at exit.

  The region's two input windows read ONE array (the image tensor): at entry that array's full share is halved between
  them, the output array goes to the third window whole, and every other unscoped buffer bypasses the region; at exit
  the two halves (both still at the launch contents: an input window writes nothing back) join again and the output
  array holds what the 32 write-backs left.
-/
import proofs.«111025_j75557064671630_1_alg».proof.Proof.KIRegion

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The proof data projected -/

section Body
variable (V : (c : Dev nD) → (b : Ref sig .tc) → Buf (Elt F) ((c : Thread nD τ).loc b))

/-- The arrays of the proof data are the contents the region is entered at. -/
theorem A_eq0 (c : Dev nD) (w : Fin cfg0.W) : (dat0 V c).A w = V c (Pipeline.arrRef spec0 w) := by
  dsimp only [dat0]

/-- What the body leaves in each window's buffer: the two planes where they were, the feature row in the third. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- An input window is fetched whole and its block is left in place, so at every point its current buffer holds the
    block of its array there, whatever the buffer held before. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation at one point -/

/-- What the body is handed at point t: the invariant, what the core owes, and the three current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The two planes' buffers hold their blocks, so the body's triple applies at them; the invariant and what the core
    owes do not change from a point to the next and pass beside the body untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Body

/-! ## The region's arrays against the core's unscoped buffers

The first two windows read one array, the image tensor, and the third writes the output array; so the buffers behind
the windows' arrays are two, not three.  The region holds the image tensor as two half shares, one per input window,
and the output array whole. -/

section Arrays
variable (V : (c : Dev nD) → (b : Ref sig .tc) → Buf (Elt F) ((c : Thread nD τ).loc b))

/-- The share each window holds its array at: an input window's is the proof data's, the output window's is full. -/
theorem share0_0 (c : Dev nD) : (dat0 V c).share 0 = fullShare.left := by unfold Dat.share; rfl
theorem share0_1 (c : Dev nD) : (dat0 V c).share 1 = fullShare.right := by unfold Dat.share; rfl
theorem share0_2 (c : Dev nD) : (dat0 V c).share 2 = fullShare := by unfold Dat.share; rfl

/-- The region's arrays at contents G, window by window: every array is a whole buffer, so each conjunct is a
    whole-buffer points-to; the image tensor appears twice, at the left and at the right half of the full share. -/
theorem arrays_eq0 (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0)
          ∗ (((c : Thread nD τ).loc main_arg0) ↦{fullShare.right} G 1)
          ∗ (((c : Thread nD τ).loc main_v0) ↦{fullShare} G 2)) := by
  unfold Dat.arrays
  rw [bigSep_W0, share0_0, share0_1, share0_2, (arr_whole0 0).set_eq_univ, (arr_whole0 2).set_eq_univ]

/-- The distinct buffers behind the windows' arrays are the image tensor and the output array. -/
theorem arrBufs_eq0 (c : Dev nD) (X : (b : Ref sig .tc) → Buf (Elt F) ((c : Thread nD τ).loc b)) :
    (Pipeline.arrBufs spec0 c X : sProp 𝕄)
      = iprop((((c : Thread nD τ).loc main_arg0) ↦{fullShare} X main_arg0)
          ∗ (((c : Thread nD τ).loc main_v0) ↦{fullShare} X main_v0)) := by
  unfold Pipeline.arrBufs
  rw [show Finset.univ.image (Pipeline.arrRef spec0) = {main_arg0, main_v0} from by decide,
    bigSep_insert (by decide), bigSep_singleton]
  rfl

/-- The core's unscoped buffers at contents X are those two buffers beside all the others: the windows' arrays are
    unscoped, and that is all the split asks. -/
theorem split0 (c : Dev nD) (X : (b : Ref sig .tc) → Buf (Elt F) ((c : Thread nD τ).loc b)) :
    (unscopedBufs c X : sProp 𝕄) = iprop(Pipeline.arrBufs spec0 c X ∗ Pipeline.unscopedRest spec0 c X) :=
  Pipeline.unscopedBufs_split₀ (fun _ : Unit => cfg0) () winFacts₀0.arr_unscoped c X

end Arrays

/-! ## The contents after the region, buffer by buffer -/

section After
variable (m : (ℓ : Loc nD τ sig) → Buf (Elt F) ℓ)

/-- Only the output array changes across the region. -/
theorem W1_of_ne (c : Dev nD) (b : Ref sig .tc) (hne : b ≠ main_v0) : W1 m c b = W0 m c b :=
  Function.update_of_ne (StableHlo.devRef_ne_of_ne hne) _ _
theorem W1_v0 (c : Dev nD) : W1 m c main_v0 = feats3 m c :=
  Function.update_self ..

/-- The output array is a window's array, so no bypassing buffer is it: the bypassing buffers hold after the region
    what they held before. -/
theorem rest_W1 (c : Dev nD) :
    (Pipeline.unscopedRest spec0 c (fun b => W1 m c b) : sProp 𝕄) = Pipeline.unscopedRest spec0 c (V0 m c) := by
  unfold Pipeline.unscopedRest
  refine bigSep_congr fun b hb => ?_
  have hne : b ≠ main_v0 := fun e =>
    (Finset.mem_sdiff.mp hb).2 (e ▸ Finset.mem_image.mpr ⟨2, Finset.mem_univ _, rfl⟩)
  exact congrArg (pointsTo ((c : Thread nD τ).loc b) Finset.univ fullShare) (W1_of_ne m c b hne)

/-- After the region the two buffers behind the arrays: the image tensor as launched, the output array at feats3. -/
theorem arrBufs_W1 (c : Dev nD) :
    (Pipeline.arrBufs spec0 c (fun b => W1 m c b) : sProp 𝕄)
      = iprop((((c : Thread nD τ).loc main_arg0) ↦{fullShare} V0 m c main_arg0)
          ∗ (((c : Thread nD τ).loc main_v0) ↦{fullShare} feats3 m c)) := by
  rw [arrBufs_eq0, W1_of_ne m c main_arg0 (by decide), W1_v0]

/-- An input window writes nothing back: after all the points its array holds what it held at entry. -/
theorem arrAt_N_0 (c : Dev nD) : (dat0 (V0 m) c).arrAt 0 cfg0.N = V0 m c main_arg0 :=
  ((dat0 (V0 m) c).arrAt_in 0 rfl _).trans (A_eq0 (V0 m) c 0)
theorem arrAt_N_1 (c : Dev nD) : (dat0 (V0 m) c).arrAt 1 cfg0.N = V0 m c main_arg0 :=
  ((dat0 (V0 m) c).arrAt_in 1 rfl _).trans (A_eq0 (V0 m) c 1)

end After

/-! Everything in this file's STATEMENTS is FIXED (the run is written against them). -/

/-- The body obligation of the first kernel, at every point, for the proof data at ANY entry contents V. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body0 V c t

variable (m : (ℓ : Loc nD τ sig) → Buf (Elt F) ℓ)

/-- ENTRY: the core's unscoped buffers at the launch contents give the region its arrays at the entry contents (the
    image tensor halved between the two input windows) beside the unscoped buffers that are no window's array. -/
theorem entry0 (c : Dev nD) :
    (StableHlo.held (c : Thread nD τ) (Pipeline.ucRefs τ sig) (W0 m c) : sProp 𝕄)
      ⊢ iprop((dat0 (V0 m) c).arrays ((dat0 (V0 m) c).arrAt · 0) ∗ Pipeline.unscopedRest spec0 c (V0 m c)) := by
  -- the held set is the unscoped buffers, which are the two array buffers beside the rest; before any point an
  -- array holds its entry contents
  rw [← Pipeline.unscopedBufs_held c (W0 m c), split0 c, arrBufs_eq0, arrays_eq0]
  iintro ⟨⟨Ha, Hv⟩, Hrest⟩
  -- the full share of the image tensor is its left half beside its right half, at the same contents
  ihave Ha := (pointsTo_share (PosShare.mem_left_op_right fullShare)).1 $$ Ha
  icases Ha with ⟨Ha1, Ha2⟩
  isplitr [Hrest]
  · isplitl [Ha1]; · iexact Ha1
    isplitl [Ha2]; · iexact Ha2
    iexact Hv
  iexact Hrest

/-- EXIT: the arrays at what the write-backs left, beside the bypassing buffers, are the core's unscoped buffers at the
    contents after the region: the output array at feats3, everything else as launched. -/
theorem exit0 (c : Dev nD) :
    iprop((dat0 (V0 m) c).arrays ((dat0 (V0 m) c).arrAt · cfg0.N) ∗ Pipeline.unscopedRest spec0 c (V0 m c))
      ⊢ (StableHlo.held (c : Thread nD τ) (Pipeline.ucRefs τ sig) (W1 m c) : sProp 𝕄) := by
  -- the held set after the region is the two array buffers at the contents after it beside the rest, which is the
  -- rest as launched; both input windows' arrays end at the launch contents
  rw [← Pipeline.unscopedBufs_held c (W1 m c), split0 c, arrBufs_W1, rest_W1, arrays_eq0, arrAt_N_0, arrAt_N_1]
  iintro ⟨⟨Ha1, Ha2, Hv⟩, Hrest⟩
  isplitr [Hrest]
  · isplitl [Ha1 Ha2]
    · -- two halves of one buffer at the same contents are the buffer whole
      iapply (pointsTo_share (PosShare.mem_left_op_right fullShare)).2
      isplitl [Ha1]; · iexact Ha1
      iexact Ha2
    iexact Hv
  iexact Hrest

end Cert.KernelIdeal.Hand

end
-- ==== Proof.KIRun.lean ====
/-
  The whole program's run: the first kernel region, the reshape, the second kernel region, from the launch to the
  return, with every unscoped buffer's final contents named.

  Every weakly fair execution from any memory with zero counters terminates, nothing faulting, and at the end each
  unscoped buffer holds W3: the arguments as launched, the feature array and its reshape as the first kernel left
  them, the result array at what the second kernel wrote.
-/
import proofs.«111025_j75557064671630_1_alg».proof.Proof.KIRegion0
import proofs.«111025_j75557064671630_1_alg».proof.Proof.Gen.KernelIdeal.Regions
import Idealize.ShloMosaic.Lib.Pipeline.Frame
import Idealize.ShloMosaic.Lib.Pipeline.Regions
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Everything in this file's STATEMENTS is FIXED (the claims are written against them). -/

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### What each item leaves alone

The first kernel rewrites the feature array only, the reshape its result array only, the second kernel the result
array only: at any other reference the contents pass through. -/

theorem W1_of (c : Dev nD) (r : Ref sig .tc) (h : r ≠ main_v0) : W1 m c (Proc.devRef .tc r) = W0 m c (Proc.devRef .tc r) :=
  Function.update_of_ne (StableHlo.devRef_ne_of_ne h) _ _
theorem W2_of (c : Dev nD) (r : Ref sig .tc) (h : r ∉ hostOps1_W) : W2 m c (Proc.devRef .tc r) = W1 m c (Proc.devRef .tc r) :=
  StableHlo.after_of_writes_sub hostOps1 _ hostOps1_writes h
theorem W3_of (c : Dev nD) (r : Ref sig .tc) (h : r ≠ main_v2) : W3 m c (Proc.devRef .tc r) = W2 m c (Proc.devRef .tc r) :=
  Function.update_of_ne (StableHlo.devRef_ne_of_ne h) _ _
/-- and at the result array the final contents are what the second kernel wrote. -/
theorem W3_at_result (c : Dev nD) : W3 m c (Proc.devRef .tc main_v2) = result m c := Function.update_self _ _ _

/-! ## The second kernel region around its body

Six windows over one grid point, every array a buffer of its own, so every window holds its array at the full share.
The five input windows' staging buffers hold their blocks when the body is called; the body's triple then gives the
output window's buffer at out1_5 of those blocks. -/

section Region1
variable (V : (c : Dev nD) → (b : Ref sig .tc) → Buf (Elt F) ((c : Thread nD τ).loc b))

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

/-- Input window 0's current buffer holds its block at the one point, fetched there or not: the window is uncut and never
    idle, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current buffer holds its block at the one point, fetched there or not: the window is uncut and never
    idle, and the body leaves the block in place. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current buffer holds its block at the one point, fetched there or not: the window is uncut and never
    idle, and the body leaves the block in place. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's current buffer holds its block at the one point, fetched there or not: the window is uncut and never
    idle, and the body leaves the block in place. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4's current buffer holds its block at the one point, fetched there or not: the window is uncut and never
    idle, and the body leaves the block in place. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- What the body is called with at point t: the invariant, the core's dues, each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at the point: the five inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the second kernel, for the proof data at any entry contents. -/
theorem body_obligation1 (c : Dev nD) : BodyObligation (dat1 (F := F) V c) (defs₀ (F := F)) Variants.none () Set.univ := fun t => by
  rw [bigSep_W1, bigSep_W1]
  exact sound_body1 V c t

end Region1

/-! ## The thread state between the items -/

/-- No core owes another anything: no level is assigned. -/
abbrev noLevels : GSem nD τ sig → Finset Unit := fun _ => ∅
abbrev levelZero : GSem nD τ sig → Unit → ℕ := fun _ _ => 0
/-- What rides beside the buffers through every item: the core's generator register at some state and its dues, at
    nothing. -/
abbrev rest (c : Dev nD) : sProp 𝕄 :=
  iprop((∃ r, prngReg c r) ∗ ∃ W, owes (c : Thread nD τ) (0 : CellTallies nD τ sig Unit) W)
/-- The last thread state without the dues: every unscoped buffer at the final contents, the generator register at some
    state. -/
abbrev lastState (c : Dev nD) : sProp 𝕄 :=
  iprop(StableHlo.held (c : Thread nD τ) (Pipeline.ucRefs τ sig) (W3 m c) ∗ ∃ r, prngReg c r)

/-- The final contents read at the TensorCore's references. -/
abbrev V3 : (c : Dev nD) → (b : Ref sig .tc) → Buf (Elt F) ((c : Thread nD τ).loc b) := fun c b => W3 m c b

/-- At the second region's exit each of its arrays holds what the pipeline leaves there: an input window writes nothing
    back, so its array is as entered, and the second kernel does not touch it afterwards; the result array is at
    result by definition. -/
theorem hF1 (c : Dev nD) : ∀ w : Fin 6, (dat1 (V2 m) c).arrAt w cfg1.N = V3 m c (Pipeline.arrRef spec1 w)
  | 0 => ((dat1 (V2 m) c).arrAt_in 0 rfl _).trans <| (A_eq1 (V2 m) c 0).trans (W3_of m c _ (by decide)).symm
  | 1 => ((dat1 (V2 m) c).arrAt_in 1 rfl _).trans <| (A_eq1 (V2 m) c 1).trans (W3_of m c _ (by decide)).symm
  | 2 => ((dat1 (V2 m) c).arrAt_in 2 rfl _).trans <| (A_eq1 (V2 m) c 2).trans (W3_of m c _ (by decide)).symm
  | 3 => ((dat1 (V2 m) c).arrAt_in 3 rfl _).trans <| (A_eq1 (V2 m) c 3).trans (W3_of m c _ (by decide)).symm
  | 4 => ((dat1 (V2 m) c).arrAt_in 4 rfl _).trans <| (A_eq1 (V2 m) c 4).trans (W3_of m c _ (by decide)).symm
  | 5 => (W3_at_result m c).symm
  | ⟨_ + 6, h⟩ => absurd h (Nat.not_lt.2 (Nat.le_add_left _ _))

/-- Off the region's arrays the final contents are the entry contents: the only buffer that changes is the result array,
    which is one of them. -/
theorem hrest1 (c : Dev nD) : ∀ b, b ∉ Finset.univ.image (Pipeline.arrRef spec1) → V3 m c b = V2 m c b :=
  fun b hb => W3_of m c b fun e => hb (Finset.mem_image.mpr ⟨5, Finset.mem_univ _, e.symm⟩)

/-! ## The two kernel regions as segments -/

set_option backward.isDefEq.respectTransparency.types false in
/-- The first kernel region over the thread state: entered from every unscoped buffer at the launch contents, left with
    the feature array at what the write-backs made of it. The image tensor is halved between the two input windows at
    entry and joined again at exit; the generator register goes into the region's invariant and comes back; nothing is
    owed; the kernel has no semaphore of its own. -/
def reg0 : Pipeline.RegionSeg (pcfgs (F := F)) adm (pdats m) () defs₀ Variants.none noLevels levelZero 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ noLevels levelZero 0 fun _ _ => rfl
  pre c := iprop(StableHlo.held (c : Thread nD τ) (Pipeline.ucRefs τ sig) (W0 m c) ∗ rest c)
  post c := iprop(StableHlo.held (c : Thread nD τ) (Pipeline.ucRefs τ sig) (W1 m c) ∗ rest c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit : (StableHlo.held (c : Thread nD τ) (Pipeline.ucRefs τ sig) (W0 m c) : sProp 𝕄)
        ⊢ iprop((pdats m 0 c).arrays ((pdats m 0 c).arrAt · 0) ∗ Pipeline.unscopedRest spec0 c (V0 m c)) := entry0 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V0 m c))
        ⊢ (StableHlo.held (c : Thread nD τ) (Pipeline.ucRefs τ sig) (W1 m c) : sProp 𝕄) := exit0 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel region over the thread state: entered from every unscoped buffer at the contents after the reshape,
    left with the result array at what the one write-back made of it. Every window's array is a buffer of its own, split
    out of the unscoped buffers at entry and put back at the final contents at exit. -/
def reg1 : Pipeline.RegionSeg (pcfgs (F := F)) adm (pdats m) () defs₀ Variants.none noLevels levelZero 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ noLevels levelZero 1 fun _ _ => rfl
  pre c := iprop(StableHlo.held (c : Thread nD τ) (Pipeline.ucRefs τ sig) (W2 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The reshape between the two kernels as a segment: a line of one host operation over the unscoped buffers from the
    contents the first kernel leaves, the rest of the state riding along; it ends at those buffers after the line. -/
abbrev hostSeg1 : Pipeline.HostSeg (Name := ℕ) (U := UR sig nD τ) (pcfgs (F := F)) defs₀ Variants.none noLevels levelZero :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) rest

/-- The program's three items in order. -/
abbrev segs : List (Pipeline.Seg (pcfgs (F := F)) adm (pdats m) () defs₀ Variants.none noLevels levelZero) :=
  [ .region (reg0 m), .host (hostSeg1 m), .region (reg1 m) ]

/-- The program is the run of its items: it is their chain, and the segments' run is that chain by unfolding. -/
theorem main_run (c : Dev nD) : main (F := F) c = Pipeline.Seg.run (segs m) := (main_chain c).trans (by chain_rfl)

set_option backward.isDefEq.respectTransparency.types false in
/-- THE RUN, at any F: the program terminates without a fault and every unscoped buffer ends at W3. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) := by
  exact Pipeline.θ_run_regions_kit (pcfgs (F := F)) adm (pdats m) () cellOf_inj emb₁ defs₀ Variants.none noLevels levelZero m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c)) (Tₙ := lastState m)
    (hch := ⟨fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-! ### The last valuation read back -/

theorem W3_main_arg0 (c : Dev nD) : W3 m c (Proc.devRef .tc main_arg0) = m ((c : Thread nD τ).loc main_arg0) :=
  (W3_of m c main_arg0 (by decide)).trans <| (W2_of m c main_arg0 (by decide)).trans <| (W1_of m c main_arg0 (by decide)).trans rfl
theorem W3_main_arg1 (c : Dev nD) : W3 m c (Proc.devRef .tc main_arg1) = m ((c : Thread nD τ).loc main_arg1) :=
  (W3_of m c main_arg1 (by decide)).trans <| (W2_of m c main_arg1 (by decide)).trans <| (W1_of m c main_arg1 (by decide)).trans rfl
theorem W3_main_arg2 (c : Dev nD) : W3 m c (Proc.devRef .tc main_arg2) = m ((c : Thread nD τ).loc main_arg2) :=
  (W3_of m c main_arg2 (by decide)).trans <| (W2_of m c main_arg2 (by decide)).trans <| (W1_of m c main_arg2 (by decide)).trans rfl
theorem W3_main_arg3 (c : Dev nD) : W3 m c (Proc.devRef .tc main_arg3) = m ((c : Thread nD τ).loc main_arg3) :=
  (W3_of m c main_arg3 (by decide)).trans <| (W2_of m c main_arg3 (by decide)).trans <| (W1_of m c main_arg3 (by decide)).trans rfl
theorem W3_main_arg4 (c : Dev nD) : W3 m c (Proc.devRef .tc main_arg4) = m ((c : Thread nD τ).loc main_arg4) :=
  (W3_of m c main_arg4 (by decide)).trans <| (W2_of m c main_arg4 (by decide)).trans <| (W1_of m c main_arg4 (by decide)).trans rfl
/-- The result array ends at what the second kernel wrote. -/
theorem W3_main_v2 (c : Dev nD) : W3 m c (Proc.devRef .tc main_v2) = result m c := Function.update_self _ _ _

/-! ### What the second kernel finds -/

/-- Its first operand is the reshape of the feature array. -/
theorem V2_main_v1 (c : Dev nD) : V2 m c main_v1 = shapeCast S32x132 (feats3 m c) shapeCasts_S32x1x132_S32x132 := by
  show StableHlo.after hostOps1 (W1 m c) (Proc.devRef .tc main_v1) = _
  unfold hostOps1
  after_results
  -- the feature array is what the first kernel left there
  have h : W1 m c (Proc.devRef .tc main_v0) = feats3 m c := Function.update_self _ _ _
  rw [h]
  rfl
theorem V2_main_arg1 (c : Dev nD) : V2 m c main_arg1 = m ((c : Thread nD τ).loc main_arg1) :=
  (W2_of m c main_arg1 (by decide)).trans <| (W1_of m c main_arg1 (by decide)).trans rfl
theorem V2_main_arg2 (c : Dev nD) : V2 m c main_arg2 = m ((c : Thread nD τ).loc main_arg2) :=
  (W2_of m c main_arg2 (by decide)).trans <| (W1_of m c main_arg2 (by decide)).trans rfl
theorem V2_main_arg3 (c : Dev nD) : V2 m c main_arg3 = m ((c : Thread nD τ).loc main_arg3) :=
  (W2_of m c main_arg3 (by decide)).trans <| (W1_of m c main_arg3 (by decide)).trans rfl
theorem V2_main_arg4 (c : Dev nD) : V2 m c main_arg4 = m ((c : Thread nD τ).loc main_arg4) :=
  (W2_of m c main_arg4 (by decide)).trans <| (W1_of m c main_arg4 (by decide)).trans rfl

end Cert.KernelIdeal.Hand

end
-- ==== Proof.Spec.lean ====
/-
  The mathematics of the two programs, as ONE family of functions of the argument arrays over the extended reals.

  From the image tensor x : [32, 3, 1024, 1024] two channels (1 and 2) each give 66 numbers per image:
  * a 64-bin histogram of the words  trunc(min(63, max(0, floor(x / 4))))  divided by (its total + 1e-8);
  * the unbiased variance of the channel's 2^20 pixels;
  * the mean over the 128 x 128 patches of 8 x 8 pixels of each patch's unbiased variance.
  The 132 numbers of an image (histogram of channel 1, histogram of channel 2, then variance and patch-variance mean of
  channel 1, then of channel 2) go through a dense layer, a clip at zero and a normalisation over the 32 images.

  A variance is written here in the "sum of squares minus square of the sum over n" form (gvK, pvK) and in the
  "sum of squared deviations from the mean" form (gvR, pvR); on finite data the two agree (Proof/SpecAlgebra).
-/
import Idealize.ShloMosaic.PureOps.Ideal
import Idealize.ShloMosaic.Lib.ValueIdx

noncomputable section

namespace Cert.Spec

open Idealize.ShloMosaic Idealize.ShloMosaic.ValueIdx

abbrev SX : Shape := ⟨4, ![32, 3, 1024, 1024]⟩
abbrev SW : Shape := ⟨2, ![132, 256]⟩
abbrev SV : Shape := ⟨1, ![256]⟩
abbrev SF : Shape := ⟨2, ![32, 132]⟩
abbrev SO : Shape := ⟨2, ![32, 256]⟩

/-! ### The literals, as the extended reals their words denote -/

def cQuarter : EReal := Ideal.ofBits .f32 0x3E800000#32
def cEps8 : EReal := Ideal.ofBits .f32 0x322BCC77#32
def cN : EReal := Ideal.ofBits .f32 0x49800000#32
def cNm1 : EReal := Ideal.ofBits .f32 0x497FFFF0#32
def c64 : EReal := Ideal.ofBits .f32 0x42800000#32
def c63 : EReal := Ideal.ofBits .f32 0x427C0000#32
def c16384 : EReal := Ideal.ofBits .f32 0x46800000#32
def c32 : EReal := Ideal.ofBits .f32 0x42000000#32
def cEps5 : EReal := Ideal.ofBits .f32 0x3727C5AC#32

/-! ### Pixels -/

/-- Pixel (r, c) of channel ch of image b. -/
def px (X : SX.Idx → EReal) (b : Fin 32) (ch : Fin 3) (r c : Fin 1024) : EReal := X (ix4 b ch r c)

/-- Row er, column ec of the 8 x 8 patch (pr, pc). -/
def pp (X : SX.Idx → EReal) (b : Fin 32) (ch : Fin 3) (pr pc : Fin 128) (er ec : Fin 8) : EReal :=
  X (ix4 b ch ⟨pr.val * 8 + er.val, by omega⟩ ⟨pc.val * 8 + ec.val, by omega⟩)

/-! ### The histogram -/

/-- The bin word of a pixel value: a quarter of it, rounded down, clipped to [0, 63], converted to a 32-bit integer. -/
def binWord (x : EReal) : BitVec 32 :=
  Ideal.fptosi 32 (min (((63#32 : BitVec 32).toInt : ℝ) : EReal)
    (max (((0#32 : BitVec 32).toInt : ℝ) : EReal) (Ideal.liftRound Int.floor (x * cQuarter))))

/-- 1 when the pixel value falls in bin k, else 0. -/
def ind (x : EReal) (k : Fin 64) : EReal := if binWord x = BitVec.ofNat 32 k.val then 1 else 0

/-- How many pixels of channel ch of image b fall in bin k. -/
def cnt (X : SX.Idx → EReal) (b : Fin 32) (ch : Fin 3) (k : Fin 64) : EReal :=
  ∑ r : Fin 1024, ∑ c : Fin 1024, ind (px X b ch r c) k

/-- The normalised histogram. -/
def hist (X : SX.Idx → EReal) (b : Fin 32) (ch : Fin 3) (k : Fin 64) : EReal :=
  Ideal.div (cnt X b ch k) ((∑ k' : Fin 64, cnt X b ch k') + cEps8)

/-! ### The variance of a channel -/

def S1 (X : SX.Idx → EReal) (b : Fin 32) (ch : Fin 3) : EReal := ∑ r : Fin 1024, ∑ c : Fin 1024, px X b ch r c
def S2 (X : SX.Idx → EReal) (b : Fin 32) (ch : Fin 3) : EReal :=
  ∑ r : Fin 1024, ∑ c : Fin 1024, px X b ch r c * px X b ch r c

/-- Sum of squares minus (square of the sum over n), over n - 1. -/
def gvK (X : SX.Idx → EReal) (b : Fin 32) (ch : Fin 3) : EReal :=
  Ideal.div (S2 X b ch - Ideal.div (S1 X b ch * S1 X b ch) cN) cNm1

/-- Sum of squared deviations from the mean, over n - 1. -/
def gvR (X : SX.Idx → EReal) (b : Fin 32) (ch : Fin 3) : EReal :=
  Ideal.div (∑ r : Fin 1024, ∑ c : Fin 1024,
    (px X b ch r c - Ideal.div (S1 X b ch) cN) * (px X b ch r c - Ideal.div (S1 X b ch) cN)) cNm1

/-! ### The mean patch variance -/

def P1 (X : SX.Idx → EReal) (b : Fin 32) (ch : Fin 3) (pr pc : Fin 128) : EReal :=
  ∑ er : Fin 8, ∑ ec : Fin 8, pp X b ch pr pc er ec
def P2 (X : SX.Idx → EReal) (b : Fin 32) (ch : Fin 3) (pr pc : Fin 128) : EReal :=
  ∑ er : Fin 8, ∑ ec : Fin 8, pp X b ch pr pc er ec * pp X b ch pr pc er ec

def pvK (X : SX.Idx → EReal) (b : Fin 32) (ch : Fin 3) (pr pc : Fin 128) : EReal :=
  Ideal.div (P2 X b ch pr pc - Ideal.div (P1 X b ch pr pc * P1 X b ch pr pc) c64) c63
def pvR (X : SX.Idx → EReal) (b : Fin 32) (ch : Fin 3) (pr pc : Fin 128) : EReal :=
  Ideal.div (∑ er : Fin 8, ∑ ec : Fin 8,
    (pp X b ch pr pc er ec - Ideal.div (P1 X b ch pr pc) c64) * (pp X b ch pr pc er ec - Ideal.div (P1 X b ch pr pc) c64)) c63

def lvK (X : SX.Idx → EReal) (b : Fin 32) (ch : Fin 3) : EReal :=
  Ideal.div (∑ pr : Fin 128, ∑ pc : Fin 128, pvK X b ch pr pc) c16384
def lvR (X : SX.Idx → EReal) (b : Fin 32) (ch : Fin 3) : EReal :=
  Ideal.div (∑ pr : Fin 128, ∑ pc : Fin 128, pvR X b ch pr pc) c16384

/-! ### The 132 features of an image -/

/-- The feature row from given variance functions: 64 + 64 histogram bins, then (variance, patch mean) per channel. -/
def featsOf (gv lv : (SX.Idx → EReal) → Fin 32 → Fin 3 → EReal) (X : SX.Idx → EReal) (b : Fin 32) (j : Fin 132) : EReal :=
  if h : j.val < 64 then hist X b 1 ⟨j.val, h⟩
  else if h2 : j.val < 128 then hist X b 2 ⟨j.val - 64, by omega⟩
  else if j.val = 128 then gv X b 1
  else if j.val = 129 then lv X b 1
  else if j.val = 130 then gv X b 2
  else lv X b 2

def featsK : (SX.Idx → EReal) → Fin 32 → Fin 132 → EReal := featsOf gvK lvK
def featsR : (SX.Idx → EReal) → Fin 32 → Fin 132 → EReal := featsOf gvR lvR

/-! ### Dense layer, clip at zero, normalisation over the 32 images -/

def hRelu (Ft : Fin 32 → Fin 132 → EReal) (W : SW.Idx → EReal) (B1 : SV.Idx → EReal) (i : Fin 32) (j : Fin 256) : EReal :=
  max ((∑ k : Fin 132, Ft i k * W (ix2 k j)) + B1 (ix1 j)) 0

def mu (Ft : Fin 32 → Fin 132 → EReal) (W : SW.Idx → EReal) (B1 : SV.Idx → EReal) (j : Fin 256) : EReal :=
  Ideal.div (∑ i : Fin 32, hRelu Ft W B1 i j) c32

def var (Ft : Fin 32 → Fin 132 → EReal) (W : SW.Idx → EReal) (B1 : SV.Idx → EReal) (j : Fin 256) : EReal :=
  Ideal.div (∑ i : Fin 32, (hRelu Ft W B1 i j - mu Ft W B1 j) * (hRelu Ft W B1 i j - mu Ft W B1 j)) c32

/-- The result at (i, j) from a feature matrix. -/
def tail (Ft : Fin 32 → Fin 132 → EReal) (W : SW.Idx → EReal) (B1 Gm Bt : SV.Idx → EReal) : SO.Idx → EReal := fun y =>
  Ideal.div (Gm (ix1 (y 1)) * (hRelu Ft W B1 (y 0) (y 1) - mu Ft W B1 (y 1))) (Ideal.sqrt (var Ft W B1 (y 1) + cEps5))
    + Bt (ix1 (y 1))

/-- The whole result, with the variances in the first form. -/
def G (X : SX.Idx → EReal) (W : SW.Idx → EReal) (B1 Gm Bt : SV.Idx → EReal) : SO.Idx → EReal := tail (featsK X) W B1 Gm Bt
/-- The whole result, with the variances in the second form. -/
def GR (X : SX.Idx → EReal) (W : SW.Idx → EReal) (B1 Gm Bt : SV.Idx → EReal) : SO.Idx → EReal := tail (featsR X) W B1 Gm Bt

/-- Every entry of the image tensor is a real number. -/
def Finite (X : SX.Idx → EReal) : Prop := ∀ i, ∃ r : ℝ, X i = (r : EReal)

end Cert.Spec

end
-- ==== Proof.KIChunk.lean ====
/-
  One chunk of 16 rows of a channel plane, read over the extended reals: what the chunk adds to each of the four
  running values.

  The bin counts grow, bin by bin, by the number of the chunk's pixels whose bin word is that bin; the sum by the sum of
  the chunk's pixels; the sum of squares by the sum of their squares; and the patch-variance sum by the variances (in
  the "sum of squares minus square of the sum over 64, over 63" form) of the 2 x 128 patches of 8 x 8 pixels the 16
  rows hold.  Each is the body's own arithmetic read index by index: a lane reduction is a finite sum, a reshape
  re-addresses, the comparison with the bin numbers 0..63 followed by the two conversions is the indicator.
-/
import proofs.«111025_j75557064671630_1_alg».proof.Proof.KIBody0
import proofs.«111025_j75557064671630_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx
open Cert.KernelIdeal Cert.KernelIdeal.Gen Cert.KernelIdeal.Hand

/-! Everything in this file's STATEMENTS is FIXED.  x is the plane as the kernel holds it (a [1, 1, 1024, 1024] block);
    X, b, ch say which plane of the image tensor it is. -/

variable (X : Spec.SX.Idx → EReal) (b : Fin 32) (ch : Fin 3) (x : Vec Ideal S1x1x1024x1024 .f32)

/-! ### Lane sums read at coordinates -/

section Sums
variable {A B C D : ℕ}

/-- A sum over the middle axis of a rank-3 array, at (p, q): the sum over the middle coordinate. -/
theorem red3_axis1 (src : FVec Ideal ⟨3, ![A, B, C]⟩ .f32) (h : Shape.Reduces ⟨3, ![A, B, C]⟩ [1] ⟨2, ![A, C]⟩)
    (hφ : FKind.Formats .f32) (hacc : (0x00000000#32 : BitVec 32) = FKind.add.neutral .f32 hφ) (p : Fin A) (q : Fin C) :
    multiReduction (F := Ideal) .add [1] ⟨2, ![A, C]⟩ src 0x00000000#32 h hφ hacc (ix2 p q) = ∑ k : Fin B, src (ix3 p k q) := by
  refine (Ideal.multiReduction_add_single src _ h hφ hacc (ix2 p q)).trans ?_
  refine Finset.sum_congr rfl fun k _ => congrArg src ?_
  funext c
  match c with
  | ⟨0, _⟩ => exact Fin.ext rfl
  | ⟨1, _⟩ => exact Fin.ext rfl
  | ⟨2, _⟩ => exact Fin.ext rfl

/-- A sum over the rows of a matrix, at column q. -/
theorem red2_axis0 (src : FVec Ideal ⟨2, ![A, B]⟩ .f32) (h : Shape.Reduces ⟨2, ![A, B]⟩ [0] ⟨1, ![B]⟩)
    (hφ : FKind.Formats .f32) (hacc : (0x00000000#32 : BitVec 32) = FKind.add.neutral .f32 hφ) (q : Fin B) :
    multiReduction (F := Ideal) .add [0] ⟨1, ![B]⟩ src 0x00000000#32 h hφ hacc (ix1 q) = ∑ k : Fin A, src (ix2 k q) := by
  refine (Ideal.multiReduction_add_single src _ h hφ hacc (ix1 q)).trans ?_
  refine Finset.sum_congr rfl fun k _ => congrArg src ?_
  funext c
  match c with
  | ⟨0, _⟩ => exact Fin.ext rfl
  | ⟨1, _⟩ => exact Fin.ext rfl

/-- A sum over the columns of a matrix, at row p. -/
theorem red2_axis1 (src : FVec Ideal ⟨2, ![A, B]⟩ .f32) (h : Shape.Reduces ⟨2, ![A, B]⟩ [1] ⟨1, ![A]⟩)
    (hφ : FKind.Formats .f32) (hacc : (0x00000000#32 : BitVec 32) = FKind.add.neutral .f32 hφ) (p : Fin A) :
    multiReduction (F := Ideal) .add [1] ⟨1, ![A]⟩ src 0x00000000#32 h hφ hacc (ix1 p) = ∑ k : Fin B, src (ix2 p k) := by
  refine (Ideal.multiReduction_add_single src _ h hφ hacc (ix1 p)).trans ?_
  refine Finset.sum_congr rfl fun k _ => congrArg src ?_
  funext c
  match c with
  | ⟨0, _⟩ => exact Fin.ext rfl
  | ⟨1, _⟩ => exact Fin.ext rfl

/-- A sum over the last axis of a rank-4 array, at (a, b, c). -/
theorem red4_axis3 (src : FVec Ideal ⟨4, ![A, B, C, D]⟩ .f32) (h : Shape.Reduces ⟨4, ![A, B, C, D]⟩ [3] ⟨3, ![A, B, C]⟩)
    (hφ : FKind.Formats .f32) (hacc : (0x00000000#32 : BitVec 32) = FKind.add.neutral .f32 hφ) (a : Fin A) (b : Fin B) (c : Fin C) :
    multiReduction (F := Ideal) .add [3] ⟨3, ![A, B, C]⟩ src 0x00000000#32 h hφ hacc (ix3 a b c) = ∑ k : Fin D, src (ix4 a b c k) := by
  refine (Ideal.multiReduction_add_single src _ h hφ hacc (ix3 a b c)).trans ?_
  refine Finset.sum_congr rfl fun k _ => congrArg src ?_
  funext d
  match d with
  | ⟨0, _⟩ => exact Fin.ext rfl
  | ⟨1, _⟩ => exact Fin.ext rfl
  | ⟨2, _⟩ => exact Fin.ext rfl
  | ⟨3, _⟩ => exact Fin.ext rfl

end Sums

/-! ### Reshapes and broadcasts read at coordinates -/

section Layout
variable {α : Type} {A B : ℕ}

/-- A [1, 1, A, B] block viewed as [A, B] reads (0, 0, p, q) at (p, q). -/
theorem cast_11ab_ab (v : (⟨4, ![1, 1, A, B]⟩ : Shape).Idx → α) (h : (⟨4, ![1, 1, A, B]⟩ : Shape).ShapeCasts ⟨2, ![A, B]⟩)
    (p : Fin A) (q : Fin B) : shapeCast ⟨2, ![A, B]⟩ v h (ix2 p q) = v (ix4 (0 : Fin 1) (0 : Fin 1) p q) :=
  shapeCast_apply v h _ _ (by
    rw [Shape.rowMajor_val_four, Shape.rowMajor_val_two]
    show ((0 * 1 + 0) * A + p.val) * B + q.val = p.val * B + q.val
    simp only [Nat.zero_mul, Nat.zero_add])

/-- An [A, B] array viewed as [A, B, 1] reads (p, q) at (p, q, u). -/
theorem cast_ab_ab1 (v : (⟨2, ![A, B]⟩ : Shape).Idx → α) (h : (⟨2, ![A, B]⟩ : Shape).ShapeCasts ⟨3, ![A, B, 1]⟩)
    (p : Fin A) (q : Fin B) (u : Fin 1) : shapeCast ⟨3, ![A, B, 1]⟩ v h (ix3 p q u) = v (ix2 p q) :=
  shapeCast_apply v h _ _ (by
    have hu : u.val = 0 := by omega
    rw [Shape.rowMajor_val_three, Shape.rowMajor_val_two]
    show p.val * B + q.val = (p.val * B + q.val) * 1 + u.val
    rw [hu, Nat.mul_one, Nat.add_zero])

/-- A vector of length A viewed as a column [A, 1] reads p at (p, u). -/
theorem cast_a_a1 (v : (⟨1, ![A]⟩ : Shape).Idx → α) (h : (⟨1, ![A]⟩ : Shape).ShapeCasts ⟨2, ![A, 1]⟩)
    (p : Fin A) (u : Fin 1) : shapeCast ⟨2, ![A, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Layout

/-- The 16 x 1024 rows viewed as 2 x 8 x 128 x 8: patch row a2, row er inside it, patch column pc, column ec inside it
    is row a2 * 8 + er, column pc * 8 + ec. -/
theorem cast_rows_patches {α : Type} (v : S16x1024.Idx → α) (h : S16x1024.ShapeCasts S2x8x128x8)
    (a2 : Fin 2) (er : Fin 8) (pc : Fin 128) (ec : Fin 8) :
    shapeCast S2x8x128x8 v h (ix4 a2 er pc ec)
      = v (ix2 (⟨a2.val * 8 + er.val, by omega⟩ : Fin 16) (⟨pc.val * 8 + ec.val, by omega⟩ : Fin 1024)) :=
  shapeCast_apply v h _ _ (by
    rw [Shape.rowMajor_val_four, Shape.rowMajor_val_two]
    show (a2.val * 8 + er.val) * 1024 + (pc.val * 8 + ec.val) = ((a2.val * 8 + er.val) * 128 + pc.val) * 8 + ec.val
    omega)

/-- The bin words, one per pixel, copied along a new last axis of 64. -/
theorem bcast_words {α : Type} (v : S16x1024x1.Idx → α) (h : S16x1024x1.Broadcasts S16x1024x64)
    (r : Fin 16) (c : Fin 1024) (j : Fin 64) : broadcastTo S16x1024x64 v h (ix3 r c j) = v (ix3 r c (0 : Fin 1)) := by
  refine broadcastTo_apply v h (ix3 r c j) (ix3 r c (0 : Fin 1)) fun ax => ?_
  match ax with
  | ⟨0, _⟩ => rfl
  | ⟨1, _⟩ => rfl
  | ⟨2, _⟩ => rfl

/-- The bin numbers 0..63, copied over every pixel. -/
theorem bcast_bins {α : Type} (v : S1x1x64.Idx → α) (h : S1x1x64.Broadcasts S16x1024x64)
    (r : Fin 16) (c : Fin 1024) (j : Fin 64) : broadcastTo S16x1024x64 v h (ix3 r c j) = v (ix3 (0 : Fin 1) (0 : Fin 1) j) := by
  refine broadcastTo_apply v h (ix3 r c j) (ix3 (0 : Fin 1) (0 : Fin 1) j) fun ax => ?_
  match ax with
  | ⟨0, _⟩ => rfl
  | ⟨1, _⟩ => rfl
  | ⟨2, _⟩ => rfl

/-- The bin numbers along the last axis: bin j at (0, 0, j). -/
theorem iota_bins (h : S1x1x64.Iotas .tc 32 [2]) (j : Fin 64) :
    iota .tc S1x1x64 32 [2] h (ix3 (0 : Fin 1) (0 : Fin 1) j) = BitVec.ofNat 32 j.val :=
  iota_single_apply .tc S1x1x64 32 2 h _

/-! ### The chunk's load -/

/-- Chunk k's 16 rows are rows 16 k .. 16 k + 15 of the plane. -/
theorem ld_chunk (x : Vec Ideal S1x1x1024x1024 .f32) (k : Fin k0_t1_loop.trips) (hk : k.val < 64) (r : Fin 16) (c : Fin 1024) :
    (View.ld x (rk1 k) : Vec Ideal S1x1x16x1024 .f32) (ix4 (0 : Fin 1) (0 : Fin 1) r c)
      = x (ix4 (0 : Fin 1) (0 : Fin 1) (⟨k.val * 16 + r.val, by omega⟩ : Fin 1024) c) := by
  show x ((rk1 k).idx (ix4 (0 : Fin 1) (0 : Fin 1) r c)) = _
  refine congrArg x (funext fun a => Fin.ext ?_)
  show k0_off1 k a + 1 * ((ix4 (0 : Fin 1) (0 : Fin 1) r c : S1x1x16x1024.Idx) a).val = _
  rw [k0_off1_eq]
  match a with
  | ⟨0, _⟩ => rfl
  | ⟨1, _⟩ => rfl
  | ⟨2, _⟩ => show 16 * k.val + 1 * r.val = k.val * 16 + r.val; omega
  | ⟨3, _⟩ => show 0 + 1 * c.val = c.val; omega

/-! ### The comparison with a bin number, widened and converted -/

/-- A word compared for equality with bin j, the bit widened to 32 bits and converted: 1 when equal, else 0. -/
theorem mask_eq (w : BitVec 32) (j : Fin 64) :
    (FloatOps.sitofp (F := Ideal) .f32 ((IntOp.cmpi .eq w (BitVec.ofNat 32 j.val)).setWidth 32) : EReal)
      = if w = BitVec.ofNat 32 j.val then 1 else 0 := by
  have e1 : ((BitVec.ofBool true).setWidth 32).toInt = 1 := by decide
  have e0 : ((BitVec.ofBool false).setWidth 32).toInt = 0 := by decide
  show ((((BitVec.ofBool (w == BitVec.ofNat 32 j.val)).setWidth 32).toInt : ℝ) : EReal) = _
  by_cases h : w = BitVec.ofNat 32 j.val
  · rw [if_pos h, beq_iff_eq.2 h, e1]; simp
  · rw [if_neg h, beq_eq_false_iff_ne.2 h, e0]; simp

/-! ### The chunk's rows as a matrix -/

/-- The loaded block viewed as 16 x 1024. -/
theorem pay2_apply (v : Vec Ideal S1x1x16x1024 .f32) (r : Fin 16) (c : Fin 1024) :
    k0_pay2 v (ix2 r c) = v (ix4 (0 : Fin 1) (0 : Fin 1) r c) := by
  unfold k0_pay2
  exact cast_11ab_ab v _ r c

/-! ### The bin counts -/

/-- The chunk adds to bin j the number of its pixels whose bin word is j. -/
theorem pay3_apply (arg5 : FVec Ideal S1x64 .f32) (v : Vec Ideal S1x1x16x1024 .f32) (j : Fin 64) :
    k0_pay3 arg5 v (ix2 (0 : Fin 1) j)
      = arg5 (ix2 (0 : Fin 1) j) + ∑ r : Fin 16, ∑ c : Fin 1024, Spec.ind (k0_pay2 v (ix2 r c)) j := by
  unfold k0_pay3
  dsimp only
  rw [addf_apply]
  refine congrArg (arg5 (ix2 (0 : Fin 1) j) + ·) ?_
  refine (shapeCast_a_1a_apply _ _ (0 : Fin 1) j).trans ?_
  refine (red2_axis0 _ _ _ _ j).trans ?_
  refine Finset.sum_congr rfl fun r _ => ?_
  refine (red3_axis1 _ _ _ _ r j).trans ?_
  refine Finset.sum_congr rfl fun c _ => ?_
  rw [sitofp_apply, extui_apply]
  show FloatOps.sitofp FTy.f32 ((IntOp.cmpi .eq (broadcastTo S16x1024x64 _ _ (ix3 r c j))
    (broadcastTo S16x1024x64 _ _ (ix3 r c j))).setWidth 32) = _
  rw [bcast_words, bcast_bins, iota_bins, cast_ab_ab1, mask_eq]
  rfl

/-! ### The sum and the sum of squares -/

/-- The chunk adds the sum of its pixels, columns inside rows. -/
theorem pay4_apply (arg6 : FVec Ideal S1x1 .f32) (v : Vec Ideal S1x1x16x1024 .f32) :
    k0_pay4 arg6 v (ix2 (0 : Fin 1) (0 : Fin 1))
      = arg6 (ix2 (0 : Fin 1) (0 : Fin 1)) + ∑ r : Fin 16, ∑ c : Fin 1024, k0_pay2 v (ix2 r c) := by
  unfold k0_pay4
  dsimp only
  rw [addf_apply]
  refine congrArg (arg6 (ix2 (0 : Fin 1) (0 : Fin 1)) + ·) ?_
  refine (shapeCast_a_1a_apply _ _ (0 : Fin 1) (0 : Fin 1)).trans ?_
  refine (red2_axis0 _ _ _ _ (0 : Fin 1)).trans ?_
  refine Finset.sum_congr rfl fun r _ => ?_
  refine (cast_a_a1 _ _ r (0 : Fin 1)).trans ?_
  exact red2_axis1 _ _ _ _ r

/-- The chunk adds the sum of its pixels' squares, columns inside rows. -/
theorem pay5_apply (arg7 : FVec Ideal S1x1 .f32) (v : Vec Ideal S1x1x16x1024 .f32) :
    k0_pay5 arg7 v (ix2 (0 : Fin 1) (0 : Fin 1))
      = arg7 (ix2 (0 : Fin 1) (0 : Fin 1)) + ∑ r : Fin 16, ∑ c : Fin 1024, k0_pay2 v (ix2 r c) * k0_pay2 v (ix2 r c) := by
  unfold k0_pay5
  dsimp only
  rw [addf_apply]
  refine congrArg (arg7 (ix2 (0 : Fin 1) (0 : Fin 1)) + ·) ?_
  refine (shapeCast_a_1a_apply _ _ (0 : Fin 1) (0 : Fin 1)).trans ?_
  refine (red2_axis0 _ _ _ _ (0 : Fin 1)).trans ?_
  refine Finset.sum_congr rfl fun r _ => ?_
  refine (cast_a_a1 _ _ r (0 : Fin 1)).trans ?_
  refine (red2_axis1 _ _ _ _ r).trans ?_
  exact Finset.sum_congr rfl fun c _ => mulf_apply _ _ _

/-! ### The patches -/

/-- The chunk's rows viewed as patches. -/
theorem pay6_apply (v : Vec Ideal S1x1x16x1024 .f32) (a2 : Fin 2) (er : Fin 8) (pc : Fin 128) (ec : Fin 8) :
    k0_pay6 v (ix4 a2 er pc ec)
      = k0_pay2 v (ix2 (⟨a2.val * 8 + er.val, by omega⟩ : Fin 16) (⟨pc.val * 8 + ec.val, by omega⟩ : Fin 1024)) := by
  unfold k0_pay6
  exact cast_rows_patches _ _ a2 er pc ec

/-- A patch's sum: over its rows, over its columns. -/
theorem pay7_apply (v : Vec Ideal S1x1x16x1024 .f32) (a2 : Fin 2) (pc : Fin 128) :
    k0_pay7 v (ix2 a2 pc) = ∑ er : Fin 8, ∑ ec : Fin 8, k0_pay6 v (ix4 a2 er pc ec) := by
  unfold k0_pay7
  dsimp only
  refine (red3_axis1 _ _ _ _ a2 pc).trans ?_
  exact Finset.sum_congr rfl fun er _ => red4_axis3 _ _ _ _ a2 er pc

/-- One row of a patch: the sum of its squares. -/
theorem pay8_apply (v : Vec Ideal S1x1x16x1024 .f32) (a2 : Fin 2) (er : Fin 8) (pc : Fin 128) :
    k0_pay8 v (ix3 a2 er pc) = ∑ ec : Fin 8, k0_pay6 v (ix4 a2 er pc ec) * k0_pay6 v (ix4 a2 er pc ec) := by
  unfold k0_pay8
  dsimp only
  refine (red4_axis3 _ _ _ _ a2 er pc).trans ?_
  exact Finset.sum_congr rfl fun ec _ => mulf_apply _ _ _

/-- From the patch sums and the per-row sums of squares: the chunk adds, patch by patch, (sum of squares minus square
    of the sum over 64) over 63. -/
theorem pay20_apply (arg8 : FVec Ideal S1x1 .f32) (v83 : FVec Ideal S2x128 .f32) (v85 : FVec Ideal S2x8x128 .f32) :
    k0_pay20 arg8 v83 v85 (ix2 (0 : Fin 1) (0 : Fin 1))
      = arg8 (ix2 (0 : Fin 1) (0 : Fin 1)) + ∑ a2 : Fin 2, ∑ pc : Fin 128,
          Ideal.div ((∑ er : Fin 8, v85 (ix3 a2 er pc)) - Ideal.div (v83 (ix2 a2 pc) * v83 (ix2 a2 pc)) Spec.c64) Spec.c63 := by
  unfold k0_pay20
  dsimp only
  rw [addf_apply]
  refine congrArg (arg8 (ix2 (0 : Fin 1) (0 : Fin 1)) + ·) ?_
  refine (shapeCast_a_1a_apply _ _ (0 : Fin 1) (0 : Fin 1)).trans ?_
  refine (red2_axis0 _ _ _ _ (0 : Fin 1)).trans ?_
  refine Finset.sum_congr rfl fun a2 _ => ?_
  refine (cast_a_a1 _ _ a2 (0 : Fin 1)).trans ?_
  refine (red2_axis1 _ _ _ _ a2).trans ?_
  refine Finset.sum_congr rfl fun pc _ => ?_
  rw [divf_apply, subf_apply, divf_apply, mulf_apply, broadcast_apply, broadcast_apply]
  exact congrArg (fun t => Ideal.div (t - _) _) (red3_axis1 _ _ _ _ a2 pc)

/-! ### A chunk's entries in the specification's terms -/

/-- Entry (r, c) of chunk k is pixel (16 k + r, c). -/
theorem chunk_px (hx : ∀ r c : Fin 1024, x (ix4 0 0 r c) = Spec.px X b ch r c) (k : Fin k0_t1_loop.trips) (hk : k.val < 64)
    (r : Fin 16) (c : Fin 1024) :
    k0_pay2 (F := Ideal) (View.ld x (rk1 k)) (ix2 r c) = Spec.px X b ch ⟨k.val * 16 + r.val, by omega⟩ c := by
  rw [pay2_apply, ld_chunk x k hk, hx]

/-- Entry (a2, er, pc, ec) of chunk k's patches is entry (er, ec) of patch (2 k + a2, pc). -/
theorem chunk_pp (hx : ∀ r c : Fin 1024, x (ix4 0 0 r c) = Spec.px X b ch r c) (k : Fin k0_t1_loop.trips) (hk : k.val < 64)
    (a2 : Fin 2) (er : Fin 8) (pc : Fin 128) (ec : Fin 8) :
    k0_pay6 (F := Ideal) (View.ld x (rk1 k)) (ix4 a2 er pc ec) = Spec.pp X b ch ⟨k.val * 2 + a2.val, by omega⟩ pc er ec := by
  rw [pay6_apply, chunk_px X b ch x hx k hk]
  unfold Spec.pp Spec.px
  have e : (⟨k.val * 16 + (a2.val * 8 + er.val), by omega⟩ : Fin 1024) = ⟨(k.val * 2 + a2.val) * 8 + er.val, by omega⟩ :=
    Fin.ext (by show k.val * 16 + (a2.val * 8 + er.val) = (k.val * 2 + a2.val) * 8 + er.val; omega)
  exact congrArg (fun r => X (ix4 b ch r _)) e

/-- Bin counts after chunk k. -/
theorem trip1_cnt (hx : ∀ r c : Fin 1024, x (ix4 0 0 r c) = Spec.px X b ch r c) (k : Fin k0_t1_loop.trips) (hk : k.val < 64) (a : Acc Ideal) (j : Fin 64) :
    (trip1 (F := Ideal) x k a).1 (ix2 0 j)
      = a.1 (ix2 0 j) + ∑ r : Fin 16, ∑ c : Fin 1024, Spec.ind (Spec.px X b ch ⟨k.val * 16 + r.val, by omega⟩ c) j := by
  show k0_pay3 (F := Ideal) a.1 (View.ld x (rk1 k)) (ix2 (0 : Fin 1) j) = _
  rw [pay3_apply]
  refine congrArg (a.1 (ix2 (0 : Fin 1) j) + ·) ?_
  refine Finset.sum_congr rfl fun r _ => Finset.sum_congr rfl fun c _ => ?_
  rw [chunk_px X b ch x hx k hk]

/-- Sum after chunk k. -/
theorem trip1_sum (hx : ∀ r c : Fin 1024, x (ix4 0 0 r c) = Spec.px X b ch r c) (k : Fin k0_t1_loop.trips) (hk : k.val < 64) (a : Acc Ideal) :
    (trip1 (F := Ideal) x k a).2.1 (ix2 0 0)
      = a.2.1 (ix2 0 0) + ∑ r : Fin 16, ∑ c : Fin 1024, Spec.px X b ch ⟨k.val * 16 + r.val, by omega⟩ c := by
  show k0_pay4 (F := Ideal) a.2.1 (View.ld x (rk1 k)) (ix2 (0 : Fin 1) (0 : Fin 1)) = _
  rw [pay4_apply]
  refine congrArg (a.2.1 (ix2 (0 : Fin 1) (0 : Fin 1)) + ·) ?_
  refine Finset.sum_congr rfl fun r _ => Finset.sum_congr rfl fun c _ => ?_
  rw [chunk_px X b ch x hx k hk]

/-- Sum of squares after chunk k. -/
theorem trip1_sumsq (hx : ∀ r c : Fin 1024, x (ix4 0 0 r c) = Spec.px X b ch r c) (k : Fin k0_t1_loop.trips) (hk : k.val < 64) (a : Acc Ideal) :
    (trip1 (F := Ideal) x k a).2.2.1 (ix2 0 0)
      = a.2.2.1 (ix2 0 0) + ∑ r : Fin 16, ∑ c : Fin 1024,
          Spec.px X b ch ⟨k.val * 16 + r.val, by omega⟩ c * Spec.px X b ch ⟨k.val * 16 + r.val, by omega⟩ c := by
  show k0_pay5 (F := Ideal) a.2.2.1 (View.ld x (rk1 k)) (ix2 (0 : Fin 1) (0 : Fin 1)) = _
  rw [pay5_apply]
  refine congrArg (a.2.2.1 (ix2 (0 : Fin 1) (0 : Fin 1)) + ·) ?_
  refine Finset.sum_congr rfl fun r _ => Finset.sum_congr rfl fun c _ => ?_
  rw [chunk_px X b ch x hx k hk]

/-- Patch-variance sum after chunk k: the chunk holds patch rows 2k and 2k + 1. -/
theorem trip1_pv (hx : ∀ r c : Fin 1024, x (ix4 0 0 r c) = Spec.px X b ch r c) (k : Fin k0_t1_loop.trips) (hk : k.val < 64) (a : Acc Ideal) :
    (trip1 (F := Ideal) x k a).2.2.2 (ix2 0 0)
      = a.2.2.2 (ix2 0 0) + ∑ a2 : Fin 2, ∑ pc : Fin 128, Spec.pvK X b ch ⟨k.val * 2 + a2.val, by omega⟩ pc := by
  show k0_pay20 (F := Ideal) a.2.2.2 (k0_pay7 (View.ld x (rk1 k))) (k0_pay8 (View.ld x (rk1 k))) (ix2 (0 : Fin 1) (0 : Fin 1)) = _
  rw [pay20_apply]
  refine congrArg (a.2.2.2 (ix2 (0 : Fin 1) (0 : Fin 1)) + ·) ?_
  refine Finset.sum_congr rfl fun a2 _ => Finset.sum_congr rfl fun pc _ => ?_
  unfold Spec.pvK Spec.P1 Spec.P2
  rw [pay7_apply]
  simp only [pay8_apply, chunk_pp X b ch x hx k hk]

/-- The second plane's chunk is the same arithmetic. -/
theorem trip2_eq_trip1 (k : Fin k0_t2_loop.trips) (a : Acc Ideal) : trip2 (F := Ideal) x k a = trip1 (F := Ideal) x k a := by
  rfl

end Cert.KernelIdeal.Val

end
-- ==== Proof.KIFeat.lean ====
/-
  The first kernel's feature row over the extended reals.

  Folding the 64 chunks: before chunk k the running values are the counts, the sum, the sum of squares and the
  patch-variance sum of the first 16k rows, so after the last chunk they are those of the whole plane (a sum over
  1024 rows is the sum over 64 chunks of the sums over their 16 rows; over 128 patch rows, over 64 chunks of 2).
  The row is then: each count over (the total count + 1e-8), twice 64 of them; and per plane the variance in the
  "sum of squares minus square of the sum over n" form and the patch-variance sum over 16384.
-/
import proofs.«111025_j75557064671630_1_alg».proof.Proof.KIChunk

set_option maxRecDepth 16384

noncomputable section

namespace Cert.KernelIdeal.Val

open Idealize.ShloMosaic Idealize.ShloMosaic.ValueIdx
open Cert.KernelIdeal Cert.KernelIdeal.Gen Cert.KernelIdeal.Hand

namespace Feat

/-- The loop over the chunks of a plane runs from 0 up to 64 in steps of 1: 64 trips. -/
theorem trips1 : k0_t1_loop.trips = 64 := by decide

/-- A sum over m * n indices is the sum over m chunks of the sums over their n members. -/
theorem sum_fin_mul {M : Type} [AddCommMonoid M] (m n : ℕ) (f : Fin (m * n) → M) :
    ∑ r : Fin (m * n), f r
      = ∑ t : Fin m, ∑ q : Fin n, f ⟨t.val * n + q.val, by
          calc t.val * n + q.val < t.val * n + n := Nat.add_lt_add_left q.isLt _
            _ = (t.val + 1) * n := (Nat.succ_mul _ _).symm
            _ ≤ m * n := Nat.mul_le_mul_right _ t.isLt⟩ := by
  rw [← (finProdFinEquiv (m := m) (n := n)).sum_comp f, Fintype.sum_prod_type]
  refine Finset.sum_congr rfl fun t _ => Finset.sum_congr rfl fun q _ => congrArg f (Fin.ext ?_)
  show q.val + n * t.val = t.val * n + q.val
  rw [Nat.mul_comm, Nat.add_comm]

/-- 1024 rows are 64 chunks of 16 rows. -/
theorem sum_rows (f : Fin 1024 → EReal) :
    ∑ r : Fin 1024, f r = ∑ t : Fin 64, ∑ q : Fin 16, f ⟨t.val * 16 + q.val, by omega⟩ :=
  sum_fin_mul 64 16 f

/-- 128 patch rows are 64 chunks of 2 patch rows. -/
theorem sum_prows (f : Fin 128 → EReal) :
    ∑ r : Fin 128, f r = ∑ t : Fin 64, ∑ q : Fin 2, f ⟨t.val * 2 + q.val, by omega⟩ :=
  sum_fin_mul 64 2 f

/-- A running value that starts at zero and grows by g k at step k is, after n steps, the sum of the g k. -/
theorem fold_eq_sum : ∀ (n : ℕ) (A : ℕ → EReal) (g : Fin n → EReal), A 0 = 0 →
    (∀ k : Fin n, A (k.val + 1) = A k.val + g k) → A n = ∑ t : Fin n, g t
  | 0, A, g, h0, _ => by rw [h0]; exact (Finset.sum_empty).symm
  | n + 1, A, g, h0, hs => by
    rw [Fin.sum_univ_castSucc, ← fold_eq_sum n A (fun t => g t.castSucc) h0 (fun k => hs k.castSucc)]
    exact hs (Fin.last n)

/-! ### The closing arithmetic, read at an index -/

/-- Each count over (the total count plus the small constant). -/
theorem pay21_apply (v : FVec Ideal S1x64 .f32) (j : Fin 64) :
    k0_pay21 (F := Ideal) v (ix2 0 j)
      = Ideal.div (v (ix2 0 j)) ((∑ k : Fin 64, v (ix2 0 k)) + Spec.cEps8) := by
  unfold k0_pay21
  refine (divf_apply _ _ _).trans (congrArg (Ideal.div _) ?_)
  refine (broadcastTo_apply _ broadcasts_S1x1_S1x64 (ix2 0 j) (ix2 0 0) (fun a => ?_)).trans ?_
  · match a with
    | ⟨0, _⟩ => rfl
    | ⟨1, _⟩ => rfl
  refine (addf_apply _ _ _).trans ?_
  refine congrArg₂ (· + ·) ?_ rfl
  refine (shapeCast_a_1a_apply _ shapeCasts_S1_S1x1 0 0).trans ?_
  refine (Ideal.multiReduction_add_single v 0x00000000#32 reduces_S1x64_S1 _ _ (ix1 0)).trans ?_
  refine Finset.sum_congr rfl fun k _ => congrArg v (funext fun a => ?_)
  match a with
  | ⟨0, _⟩ => exact Fin.ext rfl
  | ⟨1, _⟩ => exact Fin.ext rfl

/-- The second plane's histogram is normalised by the same arithmetic. -/
theorem pay29_apply (v : FVec Ideal S1x64 .f32) (j : Fin 64) :
    k0_pay29 (F := Ideal) v (ix2 0 j)
      = Ideal.div (v (ix2 0 j)) ((∑ k : Fin 64, v (ix2 0 k)) + Spec.cEps8) := pay21_apply v j

/-- The variance from the sum and the sum of squares: the sum of squares less (the square of the sum over n), over n - 1. -/
theorem pay22_apply (s1 s2 : FVec Ideal S1x1 .f32) :
    k0_pay22 (F := Ideal) s1 s2 (ix2 0 0)
      = Ideal.div (s2 (ix2 0 0) - Ideal.div (s1 (ix2 0 0) * s1 (ix2 0 0)) Spec.cN) Spec.cNm1 := rfl

/-- The patch-variance sum over the number of patches. -/
theorem pay23_apply (v : FVec Ideal S1x1 .f32) :
    k0_pay23 (F := Ideal) v (ix2 0 0) = Ideal.div (v (ix2 0 0)) Spec.c16384 := rfl

/-- The second plane's square of the sum over n. -/
theorem pay30_apply (s1 : FVec Ideal S1x1 .f32) :
    k0_pay30 (F := Ideal) s1 (ix2 0 0) = Ideal.div (s1 (ix2 0 0) * s1 (ix2 0 0)) Spec.cN := rfl

/-- The six pieces of the row, in order. -/
abbrev rowPieces (p0 p1 : FVec Ideal S1x64 .f32) (p2 p3 p4 p5 : FVec Ideal S1x1 .f32) :
    List ((s : Shape) × (s.Idx → EReal)) :=
  [⟨S1x64, p0⟩, ⟨S1x64, p1⟩, ⟨S1x1, p2⟩, ⟨S1x1, p3⟩, ⟨S1x1, p4⟩, ⟨S1x1, p5⟩]

/-- Six pieces of widths 64, 64, 1, 1, 1, 1 joined along the row: the coordinate on the joined axis picks the piece
    whose span holds it, and the place inside that piece is the coordinate less the widths before it. -/
theorem row_apply (p0 p1 : FVec Ideal S1x64 .f32) (p2 p3 p4 p5 : FVec Ideal S1x1 .f32) (j : Fin 132) :
    concatenate S1x132 1 (rowPieces p0 p1 p2 p3 p4 p5) concatenates_S1x64_S1x64_S1x1_S1x1_S1x1_S1x1_S1x132_d1 (ix2 0 j)
      = if h : j.val < 64 then p0 (ix2 0 ⟨j.val, h⟩)
        else if h2 : j.val < 128 then p1 (ix2 0 ⟨j.val - 64, by omega⟩)
        else if j.val = 128 then p2 (ix2 0 0)
        else if j.val = 129 then p3 (ix2 0 0)
        else if j.val = 130 then p4 (ix2 0 0)
        else p5 (ix2 0 0) := by
  have hj := j.isLt
  by_cases h : j.val < 64
  · rw [dif_pos h]
    refine concatenate_apply_piece (t := S1x132) 1 (rowPieces p0 p1 p2 p3 p4 p5) concatenates_S1x64_S1x64_S1x1_S1x1_S1x1_S1x1_S1x132_d1
      (ix2 0 j) 0 (by show 0 < 6; omega) S1x64 p0 rfl rfl 0 rfl (ix2 0 ⟨j.val, h⟩) (fun b hb => ?_) ?_
    · match b with
      | ⟨0, _⟩ => rfl
      | ⟨1, _⟩ => exact absurd rfl hb
    · show 0 + j.val = j.val
      omega
  rw [dif_neg h]
  by_cases h2 : j.val < 128
  · rw [dif_pos h2]
    refine concatenate_apply_piece (t := S1x132) 1 (rowPieces p0 p1 p2 p3 p4 p5) concatenates_S1x64_S1x64_S1x1_S1x1_S1x1_S1x1_S1x132_d1
      (ix2 0 j) 1 (by show 1 < 6; omega) S1x64 p1 rfl rfl 64 rfl (ix2 0 ⟨j.val - 64, by omega⟩) (fun b hb => ?_) ?_
    · match b with
      | ⟨0, _⟩ => rfl
      | ⟨1, _⟩ => exact absurd rfl hb
    · show 64 + (j.val - 64) = j.val
      omega
  rw [dif_neg h2]
  by_cases h3 : j.val = 128
  · rw [if_pos h3]
    refine concatenate_apply_piece (t := S1x132) 1 (rowPieces p0 p1 p2 p3 p4 p5) concatenates_S1x64_S1x64_S1x1_S1x1_S1x1_S1x1_S1x132_d1
      (ix2 0 j) 2 (by show 2 < 6; omega) S1x1 p2 rfl rfl 128 rfl (ix2 0 0) (fun b hb => ?_) ?_
    · match b with
      | ⟨0, _⟩ => rfl
      | ⟨1, _⟩ => exact absurd rfl hb
    · show 128 + 0 = j.val
      omega
  rw [if_neg h3]
  by_cases h4 : j.val = 129
  · rw [if_pos h4]
    refine concatenate_apply_piece (t := S1x132) 1 (rowPieces p0 p1 p2 p3 p4 p5) concatenates_S1x64_S1x64_S1x1_S1x1_S1x1_S1x1_S1x132_d1
      (ix2 0 j) 3 (by show 3 < 6; omega) S1x1 p3 rfl rfl 129 rfl (ix2 0 0) (fun b hb => ?_) ?_
    · match b with
      | ⟨0, _⟩ => rfl
      | ⟨1, _⟩ => exact absurd rfl hb
    · show 129 + 0 = j.val
      omega
  rw [if_neg h4]
  by_cases h5 : j.val = 130
  · rw [if_pos h5]
    refine concatenate_apply_piece (t := S1x132) 1 (rowPieces p0 p1 p2 p3 p4 p5) concatenates_S1x64_S1x64_S1x1_S1x1_S1x1_S1x1_S1x132_d1
      (ix2 0 j) 4 (by show 4 < 6; omega) S1x1 p4 rfl rfl 130 rfl (ix2 0 0) (fun b hb => ?_) ?_
    · match b with
      | ⟨0, _⟩ => rfl
      | ⟨1, _⟩ => exact absurd rfl hb
    · show 130 + 0 = j.val
      omega
  · rw [if_neg h5]
    refine concatenate_apply_piece (t := S1x132) 1 (rowPieces p0 p1 p2 p3 p4 p5) concatenates_S1x64_S1x64_S1x1_S1x1_S1x1_S1x1_S1x132_d1
      (ix2 0 j) 5 (by show 5 < 6; omega) S1x1 p5 rfl rfl 131 rfl (ix2 0 0) (fun b hb => ?_) ?_
    · match b with
      | ⟨0, _⟩ => rfl
      | ⟨1, _⟩ => exact absurd rfl hb
    · show 131 + 0 = j.val
      omega

/-- The stored row at an index: the first plane's 64 histogram bins, the second plane's, then per plane the variance and
    the patch-variance mean (the second plane's two are finished here: a difference over n - 1, and a quotient by 16384). -/
theorem pay1_apply (v11 v31 : FVec Ideal S1x64 .f32) (v17 v19 v25_2 v25_3 v34 : FVec Ideal S1x1 .f32) (j : Fin 132) :
    k0_pay1 (F := Ideal) v11 v17 v19 v25_2 v25_3 v31 v34 (ix3 0 0 j)
      = if h : j.val < 64 then v11 (ix2 0 ⟨j.val, h⟩)
        else if h2 : j.val < 128 then v31 (ix2 0 ⟨j.val - 64, by omega⟩)
        else if j.val = 128 then v17 (ix2 0 0)
        else if j.val = 129 then v19 (ix2 0 0)
        else if j.val = 130 then Ideal.div (v25_2 (ix2 0 0) - v34 (ix2 0 0)) Spec.cNm1
        else Ideal.div (v25_3 (ix2 0 0)) Spec.c16384 := by
  unfold k0_pay1
  refine (shapeCast_ab_1ab_apply _ shapeCasts_S1x132_S1x1x132 0 0 j).trans ?_
  exact row_apply v11 v31 v17 v19 _ _ j

/-! ### The fold over the 64 chunks -/

/-- A sequence of running values that starts from the zero quadruple and takes in one chunk of the plane per step. -/
def Folds (x : Vec Ideal S1x1x1024x1024 .f32) (A : ℕ → Acc Ideal) : Prop :=
  A 0 = init1 (F := Ideal) ∧ ∀ k : Fin k0_t1_loop.trips, A (k.val + 1) = trip1 (F := Ideal) x k (A k.val)

/-- The first plane's recursion is such a sequence. -/
theorem folds_acc1 (x : Vec Ideal S1x1x1024x1024 .f32) : Folds x (acc1 (F := Ideal) x (init1 (F := Ideal))) :=
  ⟨rfl, fun k => acc1_succ x _ k⟩

/-- The second plane's recursion is the first plane's: the same start, and chunk by chunk the same arithmetic. -/
theorem folds_acc2 (x : Vec Ideal S1x1x1024x1024 .f32) : Folds x (acc2 (F := Ideal) x (init2 (F := Ideal))) :=
  ⟨rfl, fun k => (acc2_succ x _ k).trans (trip2_eq_trip1 x k _)⟩

section Fold

variable (X : Spec.SX.Idx → EReal) (b : Fin 32) (ch : Fin 3) (x : Vec Ideal S1x1x1024x1024 .f32)
  (hx : ∀ r c : Fin 1024, x (ix4 0 0 r c) = Spec.px X b ch r c) (A : ℕ → Acc Ideal) (hA : Folds x A)

include hx hA

/-- After the last chunk the bin counts are those of the whole plane. -/
theorem fold_cnt (j : Fin 64) : (A 64).1 (ix2 0 j) = Spec.cnt X b ch j := by
  have h := fold_eq_sum 64 (fun k => (A k).1 (ix2 0 j))
    (fun t => ∑ r : Fin 16, ∑ c : Fin 1024, Spec.ind (Spec.px X b ch ⟨t.val * 16 + r.val, by omega⟩ c) j)
    (by
      show (A 0).1 (ix2 0 j) = 0
      rw [hA.1]
      exact Ideal.ofBits_zero_f32)
    (fun k => by
      have hk : k.val < k0_t1_loop.trips := Nat.lt_of_lt_of_eq k.isLt trips1.symm
      exact (congrArg (fun a : Acc Ideal => a.1 (ix2 0 j)) (hA.2 ⟨k.val, hk⟩)).trans
        (trip1_cnt X b ch x hx ⟨k.val, hk⟩ k.isLt (A k.val) j))
  exact h.trans (sum_rows fun r => ∑ c : Fin 1024, Spec.ind (Spec.px X b ch r c) j).symm

/-- After the last chunk the sum is that of the whole plane. -/
theorem fold_sum : (A 64).2.1 (ix2 0 0) = Spec.S1 X b ch := by
  have h := fold_eq_sum 64 (fun k => (A k).2.1 (ix2 0 0))
    (fun t => ∑ r : Fin 16, ∑ c : Fin 1024, Spec.px X b ch ⟨t.val * 16 + r.val, by omega⟩ c)
    (by
      show (A 0).2.1 (ix2 0 0) = 0
      rw [hA.1]
      exact Ideal.ofBits_zero_f32)
    (fun k => by
      have hk : k.val < k0_t1_loop.trips := Nat.lt_of_lt_of_eq k.isLt trips1.symm
      exact (congrArg (fun a : Acc Ideal => a.2.1 (ix2 0 0)) (hA.2 ⟨k.val, hk⟩)).trans
        (trip1_sum X b ch x hx ⟨k.val, hk⟩ k.isLt (A k.val)))
  exact h.trans (sum_rows fun r => ∑ c : Fin 1024, Spec.px X b ch r c).symm

/-- After the last chunk the sum of squares is that of the whole plane. -/
theorem fold_sumsq : (A 64).2.2.1 (ix2 0 0) = Spec.S2 X b ch := by
  have h := fold_eq_sum 64 (fun k => (A k).2.2.1 (ix2 0 0))
    (fun t => ∑ r : Fin 16, ∑ c : Fin 1024,
      Spec.px X b ch ⟨t.val * 16 + r.val, by omega⟩ c * Spec.px X b ch ⟨t.val * 16 + r.val, by omega⟩ c)
    (by
      show (A 0).2.2.1 (ix2 0 0) = 0
      rw [hA.1]
      exact Ideal.ofBits_zero_f32)
    (fun k => by
      have hk : k.val < k0_t1_loop.trips := Nat.lt_of_lt_of_eq k.isLt trips1.symm
      exact (congrArg (fun a : Acc Ideal => a.2.2.1 (ix2 0 0)) (hA.2 ⟨k.val, hk⟩)).trans
        (trip1_sumsq X b ch x hx ⟨k.val, hk⟩ k.isLt (A k.val)))
  exact h.trans (sum_rows fun r => ∑ c : Fin 1024, Spec.px X b ch r c * Spec.px X b ch r c).symm

/-- After the last chunk the patch-variance sum runs over all 128 patch rows. -/
theorem fold_pv : (A 64).2.2.2 (ix2 0 0) = ∑ pr : Fin 128, ∑ pc : Fin 128, Spec.pvK X b ch pr pc := by
  have h := fold_eq_sum 64 (fun k => (A k).2.2.2 (ix2 0 0))
    (fun t => ∑ a2 : Fin 2, ∑ pc : Fin 128, Spec.pvK X b ch ⟨t.val * 2 + a2.val, by omega⟩ pc)
    (by
      show (A 0).2.2.2 (ix2 0 0) = 0
      rw [hA.1]
      exact Ideal.ofBits_zero_f32)
    (fun k => by
      have hk : k.val < k0_t1_loop.trips := Nat.lt_of_lt_of_eq k.isLt trips1.symm
      exact (congrArg (fun a : Acc Ideal => a.2.2.2 (ix2 0 0)) (hA.2 ⟨k.val, hk⟩)).trans
        (trip1_pv X b ch x hx ⟨k.val, hk⟩ k.isLt (A k.val)))
  exact h.trans (sum_prows fun pr => ∑ pc : Fin 128, Spec.pvK X b ch pr pc).symm

end Fold

end Feat

/-! Everything in this file's STATEMENTS is FIXED. -/

/-- The feature row of image b from its two planes. -/
theorem feat0_eq (X : Spec.SX.Idx → EReal) (b : Fin 32) (x0 x1 : Vec Ideal S1x1x1024x1024 .f32)
    (h0 : ∀ r c : Fin 1024, x0 (ix4 0 0 r c) = Spec.px X b 1 r c)
    (h1 : ∀ r c : Fin 1024, x1 (ix4 0 0 r c) = Spec.px X b 2 r c) (j : Fin 132) :
    feat0 (F := Ideal) x0 x1 (ix3 0 0 j) = Spec.featsK X b j := by
  have hA := Feat.folds_acc1 x0
  have hB := Feat.folds_acc2 x1
  have hfeat : feat0 (F := Ideal) x0 x1
      = k0_pay1 (F := Ideal) (k0_pay21 (acc1 x0 init1 64).1)
          (k0_pay22 (acc1 x0 init1 64).2.1 (acc1 x0 init1 64).2.2.1) (k0_pay23 (acc1 x0 init1 64).2.2.2)
          (acc2 x1 init2 64).2.2.1 (acc2 x1 init2 64).2.2.2
          (k0_pay29 (acc2 x1 init2 64).1) (k0_pay30 (acc2 x1 init2 64).2.1) := by
    unfold feat0
    rw [Feat.trips1]
  rw [hfeat, Feat.pay1_apply]
  unfold Spec.featsK Spec.featsOf
  by_cases c1 : j.val < 64
  · rw [dif_pos c1, dif_pos c1, Feat.pay21_apply]
    exact congrArg₂ Ideal.div (Feat.fold_cnt X b 1 x0 h0 _ hA _)
      (congrArg (· + Spec.cEps8) (Finset.sum_congr rfl fun k _ => Feat.fold_cnt X b 1 x0 h0 _ hA k))
  rw [dif_neg c1, dif_neg c1]
  by_cases c2 : j.val < 128
  · rw [dif_pos c2, dif_pos c2, Feat.pay29_apply]
    exact congrArg₂ Ideal.div (Feat.fold_cnt X b 2 x1 h1 _ hB _)
      (congrArg (· + Spec.cEps8) (Finset.sum_congr rfl fun k _ => Feat.fold_cnt X b 2 x1 h1 _ hB k))
  rw [dif_neg c2, dif_neg c2]
  by_cases c3 : j.val = 128
  · rw [if_pos c3, if_pos c3, Feat.pay22_apply, Feat.fold_sum X b 1 x0 h0 _ hA, Feat.fold_sumsq X b 1 x0 h0 _ hA]
    rfl
  rw [if_neg c3, if_neg c3]
  by_cases c4 : j.val = 129
  · rw [if_pos c4, if_pos c4, Feat.pay23_apply, Feat.fold_pv X b 1 x0 h0 _ hA]
    rfl
  rw [if_neg c4, if_neg c4]
  by_cases c5 : j.val = 130
  · rw [if_pos c5, if_pos c5, Feat.pay30_apply, Feat.fold_sum X b 2 x1 h1 _ hB, Feat.fold_sumsq X b 2 x1 h1 _ hB]
    rfl
  rw [if_neg c5, if_neg c5, Feat.fold_pv X b 2 x1 h1 _ hB]
  rfl

end Cert.KernelIdeal.Val

end
-- ==== Proof.KIValue1.lean ====
/-
  The second kernel's output block over the extended reals: index by index it is the dense layer of the feature
  matrix, clipped at zero, normalised over the 32 rows.  The matrix product into a zero accumulator is the plain sum
  over the 132 contracted entries; each reduction over the rows is a finite sum; the reshapes and broadcasts of the
  three vectors re-address them by column.
-/
import proofs.«111025_j75557064671630_1_alg».proof.Proof.KIBody1
import proofs.«111025_j75557064671630_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx
open Cert.KernelIdeal Cert.KernelIdeal.Gen Cert.KernelIdeal.Hand

namespace K1

/-! ### Whole blocks at offset zero -/

/-- The offsets of a whole rank-one block are all zero. -/
theorem off1 : (![0] : Fin 1 → Nat) = fun _ => 0 := funext fun a => by fin_cases a; rfl

/-- The offsets of a whole rank-two block are all zero. -/
theorem off2 : (![0, 0] : Fin 2 → Nat) = fun _ => 0 := funext fun a => by fin_cases a <;> rfl

/-! ### A vector as one row, and one row over the 32 rows -/

/-- A 256-vector viewed as a 1 x 256 row keeps its entries by column. -/
theorem row_apply (v : FVec Ideal S256 .f32) (u : Fin 1) (j : Fin 256) :
    shapeCast S1x256 v shapeCasts_S256_S1x256 (ix2 u j) = v (ix1 j) :=
  shapeCast_a_1a_apply v shapeCasts_S256_S1x256 u j

/-- A 1 x 256 row repeated over 32 rows reads, in every row, the row's entry of that column. -/
theorem rows_apply (w : FVec Ideal S1x256 .f32) (i : Fin 32) (j : Fin 256) :
    broadcastTo S32x256 w broadcasts_S1x256_S32x256 (ix2 i j) = w (ix2 (0 : Fin 1) j) :=
  broadcastTo_1b_ab_apply w broadcasts_S1x256_S32x256 i j

/-- The square root of a block is taken entry by entry. -/
theorem sqrt_apply {s : Shape} {φ : FTy} (a : FVec Ideal s φ) (y : s.Idx) :
    Idealize.ShloMosaic.sqrt a y = Ideal.sqrt (a y) := rfl

/-! ### The matrix product into a zero accumulator

The product contracts the second axis of the left factor with the first axis of the right one. At an output index and
a contraction position, the left factor is read at (output row, position) and the right factor at (position, output
column): one statement per axis of each factor. -/

/-- The left factor's row is the output's row. -/
theorem lhs_dense_0 (y : S32x256.Idx) (q : dot_S32x132_S132x256_S32x256_1_0_0_1_n_n.contr.Idx) :
    (dot_S32x132_S132x256_S32x256_1_0_0_1_n_n.lhsIdx y q 0).val = (y 0).val := by
  unfold DotDims.lhsIdx
  rw [dif_neg (show ¬(0 : Fin S32x132.rank) ∈ dot_S32x132_S132x256_S32x256_1_0_0_1_n_n.lhsBatch by decide),
    dif_pos (show (0 : Fin S32x132.rank) ∈ dot_S32x132_S132x256_S32x256_1_0_0_1_n_n.lhsNonContracting by decide)]
  rfl

/-- The left factor's column is the contraction position. -/
theorem lhs_dense_1 (y : S32x256.Idx) (q : dot_S32x132_S132x256_S32x256_1_0_0_1_n_n.contr.Idx) :
    (dot_S32x132_S132x256_S32x256_1_0_0_1_n_n.lhsIdx y q 1).val = (q ⟨0, by decide⟩).val :=
  dot_S32x132_S132x256_S32x256_1_0_0_1_n_n.lhsIdx_val_of_single rfl y q

/-- The right factor's row is the contraction position. -/
theorem rhs_dense_0 (y : S32x256.Idx) (q : dot_S32x132_S132x256_S32x256_1_0_0_1_n_n.contr.Idx) :
    (dot_S32x132_S132x256_S32x256_1_0_0_1_n_n.rhsIdx y q 0).val = (q ⟨0, by decide⟩).val :=
  dot_S32x132_S132x256_S32x256_1_0_0_1_n_n.rhsIdx_val_of_single rfl y q

/-- The right factor's column is the output's column. -/
theorem rhs_dense_1 (y : S32x256.Idx) (q : dot_S32x132_S132x256_S32x256_1_0_0_1_n_n.contr.Idx) :
    (dot_S32x132_S132x256_S32x256_1_0_0_1_n_n.rhsIdx y q 1).val = (y 1).val := by
  unfold DotDims.rhsIdx
  rw [dif_neg (show ¬(1 : Fin S132x256.rank) ∈ dot_S32x132_S132x256_S32x256_1_0_0_1_n_n.rhsBatch by decide),
    dif_pos (show (1 : Fin S132x256.rank) ∈ dot_S32x132_S132x256_S32x256_1_0_0_1_n_n.rhsNonContracting by decide)]
  rfl

/-- Entry (i, j) of the product of a 32 x 132 and a 132 x 256 matrix, accumulated from zero, is the sum over the 132
    contracted positions of the products of row i of the first with column j of the second. -/
theorem dense_apply (a : FVec Ideal S32x132 .f32) (w : FVec Ideal S132x256 .f32) (i : Fin 32) (j : Fin 256) :
    matmul dot_S32x132_S132x256_S32x256_1_0_0_1_n_n (some .fp32) a w (constant (F := Ideal) S32x256 .f32 0x00000000#32) (ix2 i j)
      = ∑ k : Fin 132, a (ix2 i k) * w (ix2 k j) := by
  simp only [matmul]
  rw [Ideal.matmul_constant_zero_apply,
    ← Equiv.sum_comp (contrEquiv1 dot_S32x132_S132x256_S32x256_1_0_0_1_n_n 132 rfl rfl).symm]
  refine Finset.sum_congr rfl fun k _ => ?_
  have hk := contrEquiv1_symm_val dot_S32x132_S132x256_S32x256_1_0_0_1_n_n 132 rfl rfl k
  have el : dot_S32x132_S132x256_S32x256_1_0_0_1_n_n.lhsIdx (ix2 i j)
      ((contrEquiv1 dot_S32x132_S132x256_S32x256_1_0_0_1_n_n 132 rfl rfl).symm k) = ix2 i k :=
    funext fun ax => Fin.ext (by
      match ax with
      | ⟨0, _⟩ => exact lhs_dense_0 _ _
      | ⟨1, _⟩ => exact (lhs_dense_1 _ _).trans hk)
  have er : dot_S32x132_S132x256_S32x256_1_0_0_1_n_n.rhsIdx (ix2 i j)
      ((contrEquiv1 dot_S32x132_S132x256_S32x256_1_0_0_1_n_n 132 rfl rfl).symm k) = ix2 k j :=
    funext fun ax => Fin.ext (by
      match ax with
      | ⟨0, _⟩ => exact (rhs_dense_0 _ _).trans hk
      | ⟨1, _⟩ => exact rhs_dense_1 _ _)
  rw [el, er]

/-! ### The sum over the 32 rows -/

/-- The reduction of a 32 x 256 block over its rows, accumulated from zero, is at column j the sum of that column. -/
theorem colsum_apply (h : FVec Ideal S32x256 .f32) (hφ : FKind.Formats .f32)
    (hacc : (0x00000000#32 : BitVec 32) = 0x00000000#32) (j : Fin 256) :
    multiReduction (F := Ideal) .add (no_index [0]) S256 h 0x00000000#32 reduces_S32x256_S256 hφ hacc (ix1 j)
      = ∑ i : Fin 32, h (ix2 i j) := by
  refine (Ideal.multiReduction_add_single h 0x00000000#32 reduces_S32x256_S256 hφ hacc (ix1 j)).trans ?_
  refine Finset.sum_congr rfl fun i _ => congrArg h (funext fun ax => Fin.ext ?_)
  match ax with
  | ⟨0, _⟩ => rfl
  | ⟨1, _⟩ => rfl

end K1

/-! Everything in this file's STATEMENTS is FIXED. -/

/-- The stored block is the specification's tail of the five input blocks. -/
theorem out1_5_eq (x0 : Vec Ideal S32x132 .f32) (x1 : Vec Ideal S132x256 .f32) (x2 x3 x4 : Vec Ideal S256 .f32) :
    out1_5 (F := Ideal) x0 x1 x2 x3 x4 = Spec.tail (fun b j => x0 (ix2 b j)) x1 x2 x3 x4 := by
  funext y
  obtain ⟨i, j, rfl⟩ : ∃ (i : Fin 32) (j : Fin 256), y = ix2 i j := ⟨y 0, y 1, eq_ix2 y⟩
  -- the one stored piece is the whole block at offset zero, and so is every load: the block is the payload of the inputs
  unfold out1_5
  rw [View.canon_unit_zero K1.off2]
  simp only [View.ld_unit_zero (S := S32x132) K1.off2, View.ld_unit_zero (S := S132x256) K1.off2,
    View.ld_unit_zero (S := S256) K1.off1]
  -- the payload at (i, j): entrywise operations commute with reading an entry; the product is a sum over the 132
  -- contracted positions, each reduction a sum over the 32 rows, each vector is read at column j
  unfold k1_pay1
  simp only [addf_apply, subf_apply, mulf_apply, divf_apply, maximumf_apply, broadcast_apply, K1.sqrt_apply,
    K1.rows_apply, K1.row_apply, shapeCast_self, K1.dense_apply, K1.colsum_apply]
  -- the clip's lower bound is the real number zero; what remains is the specification's tail, term for term
  simp only [Ideal.ofBits_def, Ideal.ofBits_zero_f32]
  unfold Spec.tail Spec.var Spec.mu Spec.hRelu Spec.c32 Spec.cEps5
  rfl

end Cert.KernelIdeal.Val

end
-- ==== Proof.KIArr.lean ====
/-
  From blocks to arrays, over the extended reals: what the two kernels leave in their output arrays, as functions of
  the program's arguments.

  The first kernel's grid point t writes back block t of its [32, 1, 132] output: the feature row of image t, computed
  from blocks (t, 1) and (t, 2) of the image tensor; the 32 blocks cover the array, so the array is the feature matrix.
  The reshape between the kernels re-addresses it as [32, 132].  The second kernel has one point and whole-array
  blocks: its output array is the specification's tail of the feature matrix and the four small arguments.
-/
import proofs.«111025_j75557064671630_1_alg».proof.Proof.KIRun
import proofs.«111025_j75557064671630_1_alg».proof.Proof.KIFeat
import proofs.«111025_j75557064671630_1_alg».proof.Proof.KIValue1

set_option maxRecDepth 16384

noncomputable section

namespace Cert.KernelIdeal.Val

open Idealize.ShloMosaic Idealize.ShloMosaic.ValueIdx Idealize.ShloMosaic.TcCoe Idealize.SL.Sem
open Cert.KernelIdeal Cert.KernelIdeal.Gen Cert.KernelIdeal.Hand

/-! Everything in this file's STATEMENTS is FIXED. -/

variable (m : (ℓ : Loc nD τ sig) → Buf (Elt Ideal) ℓ)

/-! ## The first kernel: 32 points, point t owning row t of the output -/

/-- Three zero offsets, as the constant function. -/
theorem arr_zero3 : (![0, 0, 0] : Fin 3 → Nat) = fun _ => 0 := funext fun a => by fin_cases a <;> rfl

/-- The three index maps at every point of the grid: the planes' windows sit at (t, 1, 0, 0) and (t, 2, 0, 0), the
    output's at (t, 0, 0). -/
theorem arr_idx0 : ∀ t : Fin cfg0.N,
      win0_0.index t (0 : Fin 4) = t.val ∧ win0_0.index t (1 : Fin 4) = 1 ∧ win0_0.index t (2 : Fin 4) = 0 ∧ win0_0.index t (3 : Fin 4) = 0
    ∧ win0_1.index t (0 : Fin 4) = t.val ∧ win0_1.index t (1 : Fin 4) = 2 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

section Planes
variable (V : (c : Dev nD) → (b : Ref sig .tc) → Buf (Elt Ideal) ((c : Thread nD τ).loc b))

/-- The first window's block at point t is plane 1 of image t: on each axis an element of the block sits in the array
    at block index times block extent plus its own coordinate. -/
theorem arr_plane1 (c : Dev nD) (t : Fin cfg0.N) (y : S1x1x1024x1024.Idx) (k : S32x3x1024x1024.Idx)
    (h0 : (k 0).val = t.val) (h1 : (k 1).val = 1) (h2 : (k 2).val = (y 2).val) (h3 : (k 3).val = (y 3).val) :
    (iblk0 V c 0 t : Vec Ideal S1x1x1024x1024 .f32) y = (V c main_arg0 : S32x3x1024x1024.Idx → Elt Ideal .f32) k := by
  obtain ⟨e0, e1, e2, e3, -⟩ := arr_idx0 t
  unfold iblk0
  rw [View.read_apply]
  show V c main_arg0 _ = V c main_arg0 _
  refine congrArg (V c main_arg0) ?_
  funext a
  apply Fin.ext
  have y0 : (y 0).val < 1 := (y 0).isLt
  have y1 : (y 1).val < 1 := (y 1).isLt
  match a with
  | ⟨0, _⟩ => show win0_0.index t (0 : Fin 4) * 1 + 1 * (y 0).val = (k 0).val; omega
  | ⟨1, _⟩ => show win0_0.index t (1 : Fin 4) * 1 + 1 * (y 1).val = (k 1).val; omega
  | ⟨2, _⟩ => show win0_0.index t (2 : Fin 4) * 1024 + 1 * (y 2).val = (k 2).val; omega
  | ⟨3, _⟩ => show win0_0.index t (3 : Fin 4) * 1024 + 1 * (y 3).val = (k 3).val; omega

/-- The second window's block at point t is plane 2 of image t. -/
theorem arr_plane2 (c : Dev nD) (t : Fin cfg0.N) (y : S1x1x1024x1024.Idx) (k : S32x3x1024x1024.Idx)
    (h0 : (k 0).val = t.val) (h1 : (k 1).val = 2) (h2 : (k 2).val = (y 2).val) (h3 : (k 3).val = (y 3).val) :
    (iblk0 V c 1 t : Vec Ideal S1x1x1024x1024 .f32) y = (V c main_arg0 : S32x3x1024x1024.Idx → Elt Ideal .f32) k := by
  obtain ⟨-, -, -, -, e0, e1, e2, e3, -⟩ := arr_idx0 t
  unfold iblk0
  rw [View.read_apply]
  show V c main_arg0 _ = V c main_arg0 _
  refine congrArg (V c main_arg0) ?_
  funext a
  apply Fin.ext
  have y0 : (y 0).val < 1 := (y 0).isLt
  have y1 : (y 1).val < 1 := (y 1).isLt
  match a with
  | ⟨0, _⟩ => show win0_1.index t (0 : Fin 4) * 1 + 1 * (y 0).val = (k 0).val; omega
  | ⟨1, _⟩ => show win0_1.index t (1 : Fin 4) * 1 + 1 * (y 1).val = (k 1).val; omega
  | ⟨2, _⟩ => show win0_1.index t (2 : Fin 4) * 1024 + 1 * (y 2).val = (k 2).val; omega
  | ⟨3, _⟩ => show win0_1.index t (3 : Fin 4) * 1024 + 1 * (y 3).val = (k 3).val; omega

end Planes

/-- Block t of a function of the output array's index, read at an index of the block, is the function at row t. -/
theorem arr_row_read (t : Fin cfg0.N) (G : S32x1x132.Idx → Elt Ideal .f32) (y : S1x1x132.Idx) (k : S32x1x132.Idx)
    (h0 : (k 0).val = t.val) (h1 : (k 1).val = 0) (h2 : (k 2).val = (y 2).val) :
    (((cfg0.win 2).blk t).view.read (Elt Ideal) G : Vec Ideal S1x1x132 .f32) y = G k := by
  obtain ⟨-, -, -, -, -, -, -, -, e0, e1, e2⟩ := arr_idx0 t
  rw [View.read_apply]
  show G _ = G _
  refine congrArg G ?_
  funext a
  apply Fin.ext
  have y0 : (y 0).val < 1 := (y 0).isLt
  have y1 : (y 1).val < 1 := (y 1).isLt
  match a with
  | ⟨0, _⟩ => show win0_2.index t (0 : Fin 3) * 1 + 1 * (y 0).val = (k 0).val; omega
  | ⟨1, _⟩ => show win0_2.index t (1 : Fin 3) * 1 + 1 * (y 1).val = (k 1).val; omega
  | ⟨2, _⟩ => show win0_2.index t (2 : Fin 3) * 132 + 1 * (y 2).val = (k 2).val; omega

/-- What point t writes back is row t of the feature matrix: the body's one store fills the whole block with the
    feature row of its two planes, and those are planes 1 and 2 of image t. -/
theorem arr_flushed0 (c : Dev nD) (t : Fin cfg0.N) :
    (dat0 (V0 m) c).flushed 2 t = ((cfg0.win 2).blk t).view.read (Elt Ideal)
      (fun i : S32x1x132.Idx => Spec.featsK (m ((c : Thread nD τ).loc main_arg0)) (i 0) (i 2)) := by
  have ht : t.val < 32 := lt_of_lt_of_eq t.isLt N_0
  show (cfg0.win 2).cut (grid0.coords t) ((dat0 (V0 m) c).after 2 t) = _
  rw [after0_2]
  unfold out0_2
  rw [View.canon_unit_zero arr_zero3]
  funext j
  obtain ⟨a, b, q, rfl⟩ : ∃ (a b : Fin 1) (q : Fin 132), j = ix3 a b q :=
    ⟨j 0, j 1, j 2, eq_ix3 (n0 := 1) (n1 := 1) (n2 := 132) j⟩
  obtain rfl : a = 0 := Subsingleton.elim _ _
  obtain rfl : b = 0 := Subsingleton.elim _ _
  rw [arr_row_read t _ (ix3 0 0 q) (ix3 (⟨t.val, ht⟩ : Fin 32) (0 : Fin 1) q) rfl rfl rfl]
  show feat0 (F := Ideal) (iblk0 (V0 m) c 0 t) (iblk0 (V0 m) c 1 t) (ix3 0 0 q)
    = Spec.featsK (m ((c : Thread nD τ).loc main_arg0)) ⟨t.val, ht⟩ q
  refine feat0_eq (m ((c : Thread nD τ).loc main_arg0)) ⟨t.val, ht⟩ _ _ (fun r s => ?_) (fun r s => ?_) q
  · exact arr_plane1 (V0 m) c t (ix4 0 0 r s) (ix4 (⟨t.val, ht⟩ : Fin 32) (1 : Fin 3) r s) rfl rfl rfl rfl
  · exact arr_plane2 (V0 m) c t (ix4 0 0 r s) (ix4 (⟨t.val, ht⟩ : Fin 32) (2 : Fin 3) r s) rfl rfl rfl rfl

/-- An index of the output array lies in point t's block iff every coordinate lies in the block's range on its axis. -/
theorem arr_mem_row (t : Fin cfg0.N) (i : S32x1x132.Idx) :
    i ∈ ((cfg0.win 2).blk t).view.set ↔ ∀ a : Fin 3, win0_2.index t a * S1x1x132.size a ≤ (i a).val
      ∧ (i a).val < win0_2.index t a * S1x1x132.size a + S1x1x132.size a := by
  show i ∈ ((View.whole main_v0).slice (win0_2.rect t)).set ↔ _
  rw [View.set_slice_whole, Rect.mem_set_unit]
  exact Iff.rfl

/-- Row r of the output array is written back by point r: the 32 blocks cover the array. -/
theorem arr_rows_cover (i : S32x1x132.Idx) :
    ∃ t : Fin cfg0.N, (cfg0.win 2).flush t = true ∧ i ∈ ((cfg0.win 2).blk t).view.set := by
  have i0 : (i 0).val < 32 := (i 0).isLt
  have i1 : (i 1).val < 1 := (i 1).isLt
  have i2 : (i 2).val < 132 := (i 2).isLt
  have hN : cfg0.N = 32 := N_0
  let t : Fin cfg0.N := ⟨(i 0).val, by rw [hN]; exact i0⟩
  obtain ⟨-, -, -, -, -, -, -, -, e0, e1, e2⟩ := arr_idx0 t
  have ht : t.val = (i 0).val := rfl
  refine ⟨t, flush0_2 t, ?_⟩
  rw [arr_mem_row]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 132 ≤ (i 2).val ∧ (i 2).val < win0_2.index t (2 : Fin 3) * 132 + 132; omega

/-- The first kernel's output array is the feature matrix of the image tensor. -/
theorem feats3_eq (c : Dev nD) :
    feats3 (F := Ideal) m c = fun i : S32x1x132.Idx => Spec.featsK (m ((c : Thread nD τ).loc main_arg0)) (i 0) (i 2) :=
  (dat0 (V0 m) c).arrAt_eq_of_cover 2 _ (fun t _ => arr_flushed0 m c t) arr_rows_cover

/-! ## The second kernel: one point, every block its whole array -/

/-- The six index maps at the one point: every block index is zero on every axis. -/
theorem arr_idx1 : ∀ t : Fin cfg1.N,
      win1_0.index t (0 : Fin 2) = 0 ∧ win1_0.index t (1 : Fin 2) = 0
    ∧ win1_1.index t (0 : Fin 2) = 0 ∧ win1_1.index t (1 : Fin 2) = 0
    ∧ win1_2.index t (0 : Fin 1) = 0 ∧ win1_3.index t (0 : Fin 1) = 0 ∧ win1_4.index t (0 : Fin 1) = 0
    ∧ win1_5.index t (0 : Fin 2) = 0 ∧ win1_5.index t (1 : Fin 2) = 0 :=
  (by decide +kernel : ∀ t : Fin grid1.N, _)

section Whole
variable (V : (c : Dev nD) → (b : Ref sig .tc) → Buf (Elt Ideal) ((c : Thread nD τ).loc b))

/-- A block at index zero whose extent is the array's is the array: the reshaped feature matrix, -/
theorem arr_whole1_0 (c : Dev nD) (t : Fin cfg1.N) : (iblk1 V c 0 t : Vec Ideal S32x132 .f32) = V c main_v1 := by
  obtain ⟨e0, e1, -⟩ := arr_idx1 t
  funext y
  unfold iblk1
  rw [View.read_apply]
  show V c main_v1 _ = V c main_v1 y
  refine congrArg (V c main_v1) ?_
  funext a
  apply Fin.ext
  match a with
  | ⟨0, _⟩ => show win1_0.index t (0 : Fin 2) * 32 + 1 * (y 0).val = (y 0).val; omega
  | ⟨1, _⟩ => show win1_0.index t (1 : Fin 2) * 132 + 1 * (y 1).val = (y 1).val; omega

/-- the weight matrix, -/
theorem arr_whole1_1 (c : Dev nD) (t : Fin cfg1.N) : (iblk1 V c 1 t : Vec Ideal S132x256 .f32) = V c main_arg1 := by
  obtain ⟨-, -, e0, e1, -⟩ := arr_idx1 t
  funext y
  unfold iblk1
  rw [View.read_apply]
  show V c main_arg1 _ = V c main_arg1 y
  refine congrArg (V c main_arg1) ?_
  funext a
  apply Fin.ext
  match a with
  | ⟨0, _⟩ => show win1_1.index t (0 : Fin 2) * 132 + 1 * (y 0).val = (y 0).val; omega
  | ⟨1, _⟩ => show win1_1.index t (1 : Fin 2) * 256 + 1 * (y 1).val = (y 1).val; omega

/-- and the three vectors of 256. -/
theorem arr_whole1_2 (c : Dev nD) (t : Fin cfg1.N) : (iblk1 V c 2 t : Vec Ideal S256 .f32) = V c main_arg2 := by
  obtain ⟨-, -, -, -, e0, -⟩ := arr_idx1 t
  funext y
  unfold iblk1
  rw [View.read_apply]
  show V c main_arg2 _ = V c main_arg2 y
  refine congrArg (V c main_arg2) ?_
  funext a
  apply Fin.ext
  match a with
  | ⟨0, _⟩ => show win1_2.index t (0 : Fin 1) * 256 + 1 * (y 0).val = (y 0).val; omega

theorem arr_whole1_3 (c : Dev nD) (t : Fin cfg1.N) : (iblk1 V c 3 t : Vec Ideal S256 .f32) = V c main_arg3 := by
  obtain ⟨-, -, -, -, -, e0, -⟩ := arr_idx1 t
  funext y
  unfold iblk1
  rw [View.read_apply]
  show V c main_arg3 _ = V c main_arg3 y
  refine congrArg (V c main_arg3) ?_
  funext a
  apply Fin.ext
  match a with
  | ⟨0, _⟩ => show win1_3.index t (0 : Fin 1) * 256 + 1 * (y 0).val = (y 0).val; omega

theorem arr_whole1_4 (c : Dev nD) (t : Fin cfg1.N) : (iblk1 V c 4 t : Vec Ideal S256 .f32) = V c main_arg4 := by
  obtain ⟨-, -, -, -, -, -, e0, -⟩ := arr_idx1 t
  funext y
  unfold iblk1
  rw [View.read_apply]
  show V c main_arg4 _ = V c main_arg4 y
  refine congrArg (V c main_arg4) ?_
  funext a
  apply Fin.ext
  match a with
  | ⟨0, _⟩ => show win1_4.index t (0 : Fin 1) * 256 + 1 * (y 0).val = (y 0).val; omega

end Whole

/-- The output window's block is the whole result array: a function of the array's index read through it is itself. -/
theorem arr_whole1_out (t : Fin cfg1.N) (G : S32x256.Idx → Elt Ideal .f32) :
    (((cfg1.win 5).blk t).view.read (Elt Ideal) G : Vec Ideal S32x256 .f32) = G := by
  obtain ⟨-, -, -, -, -, -, -, e0, e1⟩ := arr_idx1 t
  funext y
  rw [View.read_apply]
  show G _ = G y
  refine congrArg G ?_
  funext a
  apply Fin.ext
  match a with
  | ⟨0, _⟩ => show win1_5.index t (0 : Fin 2) * 32 + 1 * (y 0).val = (y 0).val; omega
  | ⟨1, _⟩ => show win1_5.index t (1 : Fin 2) * 256 + 1 * (y 1).val = (y 1).val; omega

/-- The reshape [32, 1, 132] → [32, 132] keeps row-major positions, and (b, 0, j) and (b, j) are both at 132 b + j: the
    reshaped feature array at (b, j) is feature j of image b. -/
theorem arr_reshape_feats (X : Spec.SX.Idx → EReal) (b : Fin 32) (j : Fin 132) :
    shapeCast S32x132 (fun i : S32x1x132.Idx => Spec.featsK X (i 0) (i 2)) shapeCasts_S32x1x132_S32x132 (ix2 b j)
      = Spec.featsK X b j := by
  refine (shapeCast_apply _ shapeCasts_S32x1x132_S32x132 (ix2 b j) (ix3 b (0 : Fin 1) j) ?_).trans rfl
  rw [Shape.rowMajor_val_three, Shape.rowMajor_val_two]
  show (b.val * 1 + 0) * 132 + j.val = b.val * 132 + j.val
  omega

/-- What the second kernel's body leaves in the output buffer: its five blocks are the five arrays it finds, the first
    of them the reshaped feature matrix, so the stored block is the specification's tail of the feature matrix. -/
theorem arr_after1 (c : Dev nD) (t : Fin cfg1.N) :
    (dat1 (V2 m) c).after 5 t = Spec.G (m ((c : Thread nD τ).loc main_arg0)) (m ((c : Thread nD τ).loc main_arg1))
      (m ((c : Thread nD τ).loc main_arg2)) (m ((c : Thread nD τ).loc main_arg3)) (m ((c : Thread nD τ).loc main_arg4)) := by
  rw [after1_5, arr_whole1_0 (V2 m) c t, arr_whole1_1 (V2 m) c t, arr_whole1_2 (V2 m) c t, arr_whole1_3 (V2 m) c t,
    arr_whole1_4 (V2 m) c t, out1_5_eq, V2_main_v1, V2_main_arg1, V2_main_arg2, V2_main_arg3, V2_main_arg4, feats3_eq]
  unfold Spec.G
  refine congrArg (fun Ft => Spec.tail Ft _ _ _ _) ?_
  funext b j
  exact arr_reshape_feats _ b j

/-- What the one point writes back is the (whole-array) block of the specification's result. -/
theorem arr_flushed1 (c : Dev nD) (t : Fin cfg1.N) :
    (dat1 (V2 m) c).flushed 5 t = ((cfg1.win 5).blk t).view.read (Elt Ideal)
      (Spec.G (m ((c : Thread nD τ).loc main_arg0)) (m ((c : Thread nD τ).loc main_arg1))
        (m ((c : Thread nD τ).loc main_arg2)) (m ((c : Thread nD τ).loc main_arg3)) (m ((c : Thread nD τ).loc main_arg4))) := by
  show (cfg1.win 5).cut (grid1.coords t) ((dat1 (V2 m) c).after 5 t) = _
  rw [arr_after1, arr_whole1_out]
  rfl

/-- An index of the result array lies in the one point's block iff every coordinate lies in the block's range. -/
theorem arr_mem_out (t : Fin cfg1.N) (i : S32x256.Idx) :
    i ∈ ((cfg1.win 5).blk t).view.set ↔ ∀ a : Fin 2, win1_5.index t a * S32x256.size a ≤ (i a).val
      ∧ (i a).val < win1_5.index t a * S32x256.size a + S32x256.size a := by
  show i ∈ ((View.whole main_v2).slice (win1_5.rect t)).set ↔ _
  rw [View.set_slice_whole, Rect.mem_set_unit]
  exact Iff.rfl

/-- The one point's block covers the result array. -/
theorem arr_out_cover (i : S32x256.Idx) :
    ∃ t : Fin cfg1.N, (cfg1.win 5).flush t = true ∧ i ∈ ((cfg1.win 5).blk t).view.set := by
  have i0 : (i 0).val < 32 := (i 0).isLt
  have i1 : (i 1).val < 256 := (i 1).isLt
  obtain ⟨-, -, -, -, -, -, -, e0, e1⟩ := arr_idx1 t1_0
  refine ⟨t1_0, flush1_5 t1_0, ?_⟩
  rw [arr_mem_out]
  intro a
  match a with
  | ⟨0, _⟩ => show win1_5.index t1_0 (0 : Fin 2) * 32 ≤ (i 0).val ∧ (i 0).val < win1_5.index t1_0 (0 : Fin 2) * 32 + 32; omega
  | ⟨1, _⟩ => show win1_5.index t1_0 (1 : Fin 2) * 256 ≤ (i 1).val ∧ (i 1).val < win1_5.index t1_0 (1 : Fin 2) * 256 + 256; omega

/-- The second kernel's output array is the specification's result of the five arguments. -/
theorem result_eq (c : Dev nD) :
    result (F := Ideal) m c = Spec.G (m ((c : Thread nD τ).loc main_arg0)) (m ((c : Thread nD τ).loc main_arg1))
      (m ((c : Thread nD τ).loc main_arg2)) (m ((c : Thread nD τ).loc main_arg3)) (m ((c : Thread nD τ).loc main_arg4)) :=
  (dat1 (V2 m) c).arrAt_eq_of_cover 5 _ (fun t _ => arr_flushed1 m c t) arr_out_cover

end Cert.KernelIdeal.Val

end
-- ==== Proof.RefRun.lean ====
/-
  The reference program's run and its result read one operation at a time: this module only gathers the two
  generated readings so that the modules that compare them with the specification share one import.
-/
import proofs.«111025_j75557064671630_1_alg».proof.Proof.Gen.ReferenceIdeal.Run
import proofs.«111025_j75557064671630_1_alg».proof.Proof.Gen.ReferenceIdeal.Read
-- ==== Proof.RefScatter.lean ====
/-
  The reference's histogram is a scatter-add of ones; two facts about it that need no reading of the program.

  A scatter-add into a one-axis array of 2048 entries, from an index array with ONE index component per update and a
  one-axis array of updates, adds at entry i the updates whose index word, read as a signed integer, is i (an update
  whose word falls outside the array is dropped): over the extended reals the order of the additions is immaterial, so
  the entry is the starting value plus a finite sum over the matching update positions.

  The bin word of any extended real lies in [0, 63]: the value is clipped to [0, 63] before it is converted, an
  infinity included, and the conversion of a real in that range is its integer part.
-/
import proofs.«111025_j75557064671630_1_alg».proof.Proof.Gen.ReferenceIdeal
import proofs.«111025_j75557064671630_1_alg».proof.Proof.Spec
import Idealize.ShloMosaic.Lib.ValueIdx
import Idealize.ShloMosaic.PureOps.Ideal.Laws

noncomputable section

namespace Cert.ReferenceIdeal.RefVal

open Idealize.ShloMosaic Idealize.ShloMosaic.ValueIdx
open Cert.ReferenceIdeal Cert.ReferenceIdeal.Gen

/-! Everything in this file's STATEMENTS is FIXED. -/

/-! ### The bin word

An extended real between 0 and 63 is a real number r in that range; its conversion keeps the integer part of r, which
is again between 0 and 63, the clamp to the 32-bit range and the reduction to a 32-bit word both leaving such an
integer alone. -/

/-- Converting an extended real between 0 and 63 gives a word whose signed reading is between 0 and 63. -/
private theorem fptosi_clip_range (y : EReal) (h0 : (0 : EReal) ≤ y) (h63 : y ≤ ((63 : ℝ) : EReal)) :
    0 ≤ (Ideal.fptosi 32 y).toInt ∧ (Ideal.fptosi 32 y).toInt ≤ 63 := by
  induction y using EReal.rec with
  | bot => exact absurd h0 (by simp)
  | top => exact absurd h63 (by simp)
  | coe r =>
    have hr0 : (0 : ℝ) ≤ r := by exact_mod_cast h0
    have hr63 : r ≤ 63 := by exact_mod_cast h63
    have hk0 : 0 ≤ ⌊r⌋ := Int.floor_nonneg.2 hr0
    have hk63 : ⌊r⌋ ≤ 63 := by
      have : ((⌊r⌋ : ℤ) : ℝ) ≤ 63 := (Int.floor_le r).trans hr63
      exact_mod_cast this
    rw [Ideal.fptosi, Ideal.toIntClamped_coe, if_pos hr0, BitVec.toInt_ofInt]
    generalize ⌊r⌋ = k at hk0 hk63
    have e : ((2 ^ (32 - 1) : ℕ) : ℤ) = 2147483648 := by norm_num
    -- the clamp to the signed 32-bit range does nothing to an integer from 0 to 63 …
    have hc : max (-((2 ^ (32 - 1) : ℕ) : ℤ)) (min (((2 ^ (32 - 1) : ℕ) : ℤ) - 1) k) = k := by
      rw [e]; omega
    -- … and neither does the balanced remainder modulo 2 ^ 32
    have hb : k.bmod (2 ^ 32) = k := by
      rw [Int.bmod_def]; omega
    rw [hc, hb]
    exact ⟨hk0, hk63⟩

/-- The bin word is a number from 0 to 63, whatever the extended real. -/
theorem binWord_range (x : EReal) : 0 ≤ (Spec.binWord x).toInt ∧ (Spec.binWord x).toInt ≤ 63 := by
  have e63 : (((63#32 : BitVec 32).toInt : ℝ) : EReal) = ((63 : ℝ) : EReal) := by
    have : (63#32 : BitVec 32).toInt = 63 := by decide
    rw [this]; norm_num
  have e0 : (((0#32 : BitVec 32).toInt : ℝ) : EReal) = (0 : EReal) := by
    have : (0#32 : BitVec 32).toInt = 0 := by decide
    rw [this]; norm_num
  unfold Spec.binWord
  rw [e63, e0]
  -- min 63 (max 0 z) lies between 0 and 63 for every z, an infinity included
  refine fptosi_clip_range _ (le_min ?_ (le_max_left _ _)) (min_le_left _ _)
  exact_mod_cast (by norm_num : (0 : ℝ) ≤ 63)

/-! ### The scatter-add

The operand has one axis, which the scatter inserts (no update axis is a window axis) and which the single index
component addresses. So for the update at position u the window starts at the signed reading of the index word at
(u, 0), its window coordinate is 0, and the update lands at entry i exactly when that reading is i. -/

local notation "dS" => scatter_S2048_S33554432x1_S33554432_n_0_0_1

/-- An update index has one axis, so its coordinate on any axis is its coordinate on axis 0. -/
private theorem val_at (j : S33554432.Idx) (q : Fin S33554432.rank) : (j q).val = (j 0).val := by
  obtain rfl : q = 0 := Subsingleton.elim _ _
  rfl

/-- Where update j reads its index component: row (j 0) of the index array, column 0. On the index array's axis 0 it
    is j's one coordinate; axis 1 is the index vector's axis, of extent 1. -/
private theorem siIdx_eq (j : S33554432.Idx) (c : Fin (dS).scatterDimsToOperandDims.length) :
    (dS).siIdx j c = ix2 (n0 := 33554432) (n1 := 1) (j 0) 0 := by
  funext b
  match b with
  | ⟨0, hb0⟩ =>
    unfold ScatterDims.siIdx
    split
    · rename_i hb; exact absurd hb (by decide : ¬ (0 : ℕ) = 1)
    · unfold ScatterDims.siCoord
      apply Fin.ext
      show (j _).val = (j 0).val
      exact val_at j _
  | ⟨1, hb1⟩ =>
    exact Subsingleton.elim (α := Fin 1) _ _

/-- The window of update j starts, on the operand's one axis, at the signed reading of its index word. -/
private theorem start_eq (j : S33554432.Idx) (idx : IVec S33554432x1 32) (a : Fin S2048.rank) :
    (dS).start j idx a = (idx (ix2 (j 0) 0)).toInt := by
  have ha : a ∈ (dS).scatterDimsToOperandDims := by
    rw [Subsingleton.elim a 0]; exact List.mem_singleton.2 rfl
  unfold ScatterDims.start
  rw [dif_pos ha, siIdx_eq]

/-- No update axis is a window axis, so no operand axis is kept and every window coordinate is 0. -/
private theorem window_eq (j : S33554432.Idx) (a : Fin S2048.rank) : (dS).window j a = 0 := by
  have hk : (dS).sKept = [] := List.eq_nil_of_length_eq_zero (dS).window_length.symm
  unfold ScatterDims.window
  rw [dif_neg (by rw [hk]; exact List.not_mem_nil)]

/-- Update j lands at entry i exactly when its index word, read signed, is i: a reading outside [0, 2048) lands
    nowhere, one inside lands at itself. -/
private theorem resultIdx_iff (j : S33554432.Idx) (idx : IVec S33554432x1 32) (i : Fin 2048) :
    (dS).resultIdx? j idx = some (ix1 i) ↔ (idx (ix2 (j 0) 0)).toInt = (i.val : Int) := by
  unfold ScatterDims.resultIdx?
  simp only [start_eq, window_eq, Nat.cast_zero, add_zero]
  have hi := i.isLt
  constructor
  · intro h
    split at h
    · rename_i hh
      have h1 := congrFun (Option.some.inj h) 0
      have h2 : ((idx (ix2 (j 0) 0)).toInt).toNat = i.val := congrArg Fin.val h1
      have h0 := (hh 0).1
      omega
    · exact absurd h (by simp)
  · intro h
    have hh : ∀ (a : Fin 1), 0 ≤ (idx (ix2 (j 0) 0)).toInt ∧ (idx (ix2 (j 0) 0)).toInt < ((![2048] a : ℕ) : ℤ) := by
      intro a
      obtain rfl : a = 0 := Subsingleton.elim _ _
      refine ⟨by omega, ?_⟩
      show (idx (ix2 (j 0) 0)).toInt < ((2048 : ℕ) : ℤ)
      omega
    rw [dif_pos hh]
    congr 1
    funext a
    obtain rfl : a = 0 := Subsingleton.elim _ _
    apply Fin.ext
    show ((idx (ix2 (j 0) 0)).toInt).toNat = i.val
    omega

/-- A one-axis index of 33554432 entries is its one coordinate. -/
private def updEquiv : S33554432.Idx ≃ Fin 33554432 where
  toFun j := j 0
  invFun u := ix1 u
  left_inv j := (eq_ix1 j).symm
  right_inv _ := rfl

/-- The scatter-add read at entry i: the starting value plus the updates whose index word is i. -/
theorem scatterAdd_apply (x : FVec Ideal S2048 .f32) (idx : IVec S33554432x1 32) (upd : FVec Ideal S33554432 .f32) (i : Fin 2048) :
    Host.scatterAdd (F := Ideal) scatter_S2048_S33554432x1_S33554432_n_0_0_1 x idx upd (ix1 i)
      = x (ix1 i) + ∑ u ∈ Finset.univ.filter (fun u : Fin 33554432 => (idx (ix2 u 0)).toInt = (i.val : Int)), upd (ix1 u) := by
  -- over the extended reals the entry is the starting value plus the sum of the updates that land on it
  unfold Host.scatterAdd
  rw [Ideal.hostScatterAdd_def]
  unfold Ideal.hostScatterAdd
  refine congrArg (fun s => x (ix1 i) + s) ?_
  -- each filtered sum is the full sum of "the update if it lands, else 0"; the two agree term by term along the
  -- bijection between update indices and their one coordinate
  rw [Finset.sum_filter, Finset.sum_filter]
  refine Fintype.sum_equiv updEquiv _ _ (fun j => ?_)
  show (if (dS).resultIdx? j idx = some (ix1 i) then upd j else 0)
    = (if (idx (ix2 (j 0) 0)).toInt = (i.val : Int) then upd (ix1 (j 0)) else 0)
  exact if_congr (resultIdx_iff j idx i) (congrArg upd (eq_ix1 j)) rfl

end Cert.ReferenceIdeal.RefVal

end
-- ==== Proof.RefHist.lean ====
/-
  The reference's two histograms are the specification's.

  The reference flattens a channel to [32, 2^20], turns each pixel into its bin word, adds 64 times the image number,
  flattens again, and scatter-adds a one per pixel into 2048 zeros; reshaped to [32, 64] that is the count of the
  pixels of image b in bin k: a pixel of image b' lands on entry 64 b' + (its bin word), and since a bin word is
  between 0 and 63 it lands on 64 b + k exactly when b' = b and its bin word is k.  The count over (the sum of the 64
  counts + 1e-8) is the normalised histogram.
-/
import proofs.«111025_j75557064671630_1_alg».proof.Proof.RefRun
import proofs.«111025_j75557064671630_1_alg».proof.Proof.RefScatter

set_option maxRecDepth 16384

noncomputable section

namespace Cert.ReferenceIdeal.RefVal

open Idealize.ShloMosaic Idealize.ShloMosaic.ValueIdx Idealize.ShloMosaic.TcCoe Idealize.SL.Sem
open Cert.ReferenceIdeal Cert.ReferenceIdeal.Gen Cert.ReferenceIdeal.Read

/-! Everything in this file's STATEMENTS is FIXED. -/

set_option quotPrecheck false in
/-- The image tensor as the reference's stages take it. -/
local notation "TX" => (⟨S32x3x1024x1024, .f32⟩ : BufTy).Contents (Elt Ideal)

namespace Hist

/-! ### Words

A bin word is a number from 0 to 63 and an image number is below 32, so "bin word + 64 * image number" stays far below
2 ^ 31: read as signed integers the 32-bit sum and product are the integers' sum and product. -/

/-- A number below 64 as a 32-bit word reads back as itself. -/
theorem toInt_ofNat_small (k : ℕ) (hk : k < 64) : (BitVec.ofNat 32 k).toInt = (k : ℤ) := by
  rw [BitVec.toInt_eq_toNat_cond, BitVec.toNat_ofNat]
  split_ifs <;> omega

/-- A word from 0 to 63 plus 64 times a number below 32 does not wrap. -/
theorem toInt_add_mul64 (w : BitVec 32) (hw0 : 0 ≤ w.toInt) (hw63 : w.toInt ≤ 63) (n : ℕ) (hn : n < 32) :
    (IntOp.addi w (IntOp.muli (BitVec.ofNat 32 n) 64#32)).toInt = w.toInt + 64 * (n : ℤ) := by
  unfold IntOp.addi IntOp.muli
  have hlt := w.isLt
  rw [BitVec.toInt_eq_toNat_cond] at hw0 hw63 ⊢
  rw [BitVec.toInt_eq_toNat_cond w]
  simp only [BitVec.toNat_add, BitVec.toNat_mul, BitVec.toNat_ofNat]
  split_ifs at hw0 hw63 ⊢ <;> omega

/-! ### The flat pixel position -/

/-- Position (a * 1024 + r) * 1024 + c of a flattened channel is pixel (r, c) of image a, and every position below
    2 ^ 25 is of this form once. -/
def flatEquiv : Fin 32 × Fin 1024 × Fin 1024 ≃ Fin 33554432 where
  toFun p := ⟨(p.1.val * 1024 + p.2.1.val) * 1024 + p.2.2.val, by
    have := p.1.isLt; have := p.2.1.isLt; have := p.2.2.isLt; omega⟩
  invFun u := (⟨u.val / 1048576, by have := u.isLt; omega⟩, ⟨u.val % 1048576 / 1024, by omega⟩, ⟨u.val % 1024, by omega⟩)
  left_inv p := by
    obtain ⟨a, r, c⟩ := p
    have := a.isLt; have := r.isLt; have := c.isLt
    refine Prod.ext (Fin.ext ?_) (Prod.ext (Fin.ext ?_) (Fin.ext ?_)) <;> simp only [] <;> omega
  right_inv u := by
    apply Fin.ext
    simp only []
    omega

/-- A sum over the flat positions is the triple sum over image, row and column. -/
theorem sum_flat {M : Type*} [AddCommMonoid M] (f : Fin 33554432 → M) :
    ∑ u, f u = ∑ a : Fin 32, ∑ r : Fin 1024, ∑ c : Fin 1024, f (flatEquiv (a, r, c)) := by
  rw [← Equiv.sum_comp flatEquiv f, Fintype.sum_prod_type]
  refine Finset.sum_congr rfl fun a _ => ?_
  rw [Fintype.sum_prod_type]

/-! ### Counting -/

/-- The word 0x3F800000 denotes 1: sign +, exponent field 127 (the bias), fraction 0. -/
theorem ofBits_one : Ideal.ofBits .f32 0x3F800000#32 = 1 := by
  simp [Ideal.ofBits, Ideal.ieee, -EReal.coe_mul]
  norm_num

/-- Index words made of a word from 0 to 63 per pixel plus 64 times the image number: the positions whose index word
    is 64 b + k are the pixels of image b whose word is k. A pixel of another image a lands between 64 a and 64 a + 63,
    never on 64 b + k; a pixel of image b lands on 64 b + (its word). -/
theorem count_words (idx : IVec S33554432x1 32) (w : Fin 32 → Fin 1024 → Fin 1024 → BitVec 32)
    (hw : ∀ a r c, 0 ≤ (w a r c).toInt ∧ (w a r c).toInt ≤ 63)
    (hidx : ∀ a r c, idx (ix2 (flatEquiv (a, r, c)) 0) = IntOp.addi (w a r c) (IntOp.muli (BitVec.ofNat 32 a.val) 64#32))
    (b : Fin 32) (k : Fin 64) :
    ∑ u ∈ Finset.univ.filter (fun u : Fin 33554432 => (idx (ix2 u 0)).toInt = ((b.val * 64 + k.val : ℕ) : ℤ)), (1 : EReal)
      = ∑ r : Fin 1024, ∑ c : Fin 1024, if w b r c = BitVec.ofNat 32 k.val then 1 else 0 := by
  have hk := k.isLt
  rw [Finset.sum_filter, sum_flat, Finset.sum_eq_single b]
  · refine Finset.sum_congr rfl fun r _ => Finset.sum_congr rfl fun c _ => if_congr ?_ rfl rfl
    rw [hidx, toInt_add_mul64 _ (hw b r c).1 (hw b r c).2 _ b.isLt]
    have h := hw b r c
    constructor
    · intro e
      apply BitVec.eq_of_toInt_eq
      rw [toInt_ofNat_small _ hk]
      push_cast at e
      omega
    · intro e
      rw [e, toInt_ofNat_small _ hk]
      push_cast
      omega
  · intro a _ hab
    refine Finset.sum_eq_zero fun r _ => Finset.sum_eq_zero fun c _ => if_neg ?_
    rw [hidx, toInt_add_mul64 _ (hw a r c).1 (hw a r c).2 _ a.isLt]
    have h := hw a r c
    have hne : a.val ≠ b.val := fun e => hab (Fin.ext e)
    push_cast
    omega
  · intro h
    exact absurd (Finset.mem_univ b) h

/-- A scatter-add of ones into zeros along such index words counts, at entry 64 b + k, the pixels of image b whose
    word is k. -/
theorem count_scatter (x : FVec Ideal S2048 .f32) (idx : IVec S33554432x1 32) (upd : FVec Ideal S33554432 .f32)
    (hx : ∀ i, x i = 0) (hupd : ∀ u, upd u = 1) (w : Fin 32 → Fin 1024 → Fin 1024 → BitVec 32)
    (hw : ∀ a r c, 0 ≤ (w a r c).toInt ∧ (w a r c).toInt ≤ 63)
    (hidx : ∀ a r c, idx (ix2 (flatEquiv (a, r, c)) 0) = IntOp.addi (w a r c) (IntOp.muli (BitVec.ofNat 32 a.val) 64#32))
    (b : Fin 32) (k : Fin 64) (h : b.val * 64 + k.val < 2048) :
    Host.scatterAdd (F := Ideal) scatter_S2048_S33554432x1_S33554432_n_0_0_1 x idx upd (ix1 (⟨b.val * 64 + k.val, h⟩ : Fin 2048))
      = ∑ r : Fin 1024, ∑ c : Fin 1024, if w b r c = BitVec.ofNat 32 k.val then 1 else 0 := by
  rw [scatterAdd_apply, hx, zero_add]
  simp only [hupd]
  exact count_words idx w hw hidx b k

/-! ### The layout steps on coordinates, channel 1 -/

/-- Position u of the index column is position u of the flat words. -/
theorem idx19_eq (u : Fin 33554432) : idx_main_v19 (ix2 u 0) = ix1 u := by
  funext d; match d with | ⟨0, _⟩ => rfl

/-- Flat position (a * 1024 + r) * 1024 + c is position r * 1024 + c of image a. -/
theorem idx16_eq (a : Fin 32) (r c : Fin 1024) :
    idx_main_v16 (ix1 (flatEquiv (a, r, c)))
      = ix2 a (⟨r.val * 1024 + c.val, by have := r.isLt; have := c.isLt; omega⟩ : Fin 1048576) := by
  have := a.isLt; have := r.isLt; have := c.isLt
  funext d
  match d with
  | ⟨0, _⟩ => exact Fin.ext (by show ((a.val * 1024 + r.val) * 1024 + c.val) / 1048576 = a.val; omega)
  | ⟨1, _⟩ => exact Fin.ext (by show ((a.val * 1024 + r.val) * 1024 + c.val) % 1048576 = r.val * 1024 + c.val; omega)

/-- Position r * 1024 + c of image a is its pixel (r, c). -/
theorem idx4_eq (a : Fin 32) (r c : Fin 1024) (h : r.val * 1024 + c.val < 1048576) :
    idx_main_v4 (ix2 a (⟨r.val * 1024 + c.val, h⟩ : Fin 1048576)) = ix3 a r c := by
  have := a.isLt; have := r.isLt; have := c.isLt
  funext d
  match d with
  | ⟨0, _⟩ => exact Fin.ext (by show (a.val * 1048576 + (r.val * 1024 + c.val)) / 1048576 = a.val; omega)
  | ⟨1, _⟩ => exact Fin.ext (by show (a.val * 1048576 + (r.val * 1024 + c.val)) / 1024 % 1024 = r.val; omega)
  | ⟨2, _⟩ => exact Fin.ext (by show (a.val * 1048576 + (r.val * 1024 + c.val)) % 1024 = c.val; omega)

/-- Putting back the channel axis of extent one keeps image, row and column. -/
theorem idx1_eq (a : Fin 32) (r c : Fin 1024) : idx_main_v1 (ix3 a r c) = ix4 a (0 : Fin 1) r c := by
  have := a.isLt; have := r.isLt; have := c.isLt
  funext d
  match d with
  | ⟨0, _⟩ => exact Fin.ext (by show ((a.val * 1024 + r.val) * 1024 + c.val) / 1048576 = a.val; omega)
  | ⟨1, _⟩ => rfl
  | ⟨2, _⟩ => exact Fin.ext (by show ((a.val * 1024 + r.val) * 1024 + c.val) / 1024 % 1024 = r.val; omega)
  | ⟨3, _⟩ => exact Fin.ext (by show ((a.val * 1024 + r.val) * 1024 + c.val) % 1024 = c.val; omega)

/-- The slice that keeps channel 1. -/
theorem idx0_eq (a : Fin 32) (r c : Fin 1024) : idx_main_v0 (ix4 a (0 : Fin 1) r c) = ix4 a (1 : Fin 3) r c := by
  funext d
  match d with
  | ⟨0, _⟩ => rfl
  | ⟨1, _⟩ => rfl
  | ⟨2, _⟩ => rfl
  | ⟨3, _⟩ => rfl

/-- The image number is broadcast along the pixels … -/
theorem idx14_eq (a : Fin 32) (q : Fin 1048576) : idx_main_v14 (ix2 a q) = ix2 a (0 : Fin 1) := by
  funext d
  match d with
  | ⟨0, _⟩ => rfl
  | ⟨1, _⟩ => rfl

/-- … from the column of the 32 image numbers. -/
theorem idx11_eq (a : Fin 32) : idx_main_v11 (ix2 a (0 : Fin 1)) = ix1 a := by
  funext d; match d with | ⟨0, _⟩ => rfl

/-- Entry (b, k) of the reshaped scatter result is entry 64 b + k of the scatter result. -/
theorem idx21_eq (b : Fin 32) (k : Fin 64) :
    idx_main_v21 (ix2 b k) = ix1 (⟨b.val * 64 + k.val, by have := b.isLt; have := k.isLt; omega⟩ : Fin 2048) := by
  funext d; match d with | ⟨0, _⟩ => rfl

/-- The row sum, its broadcast and the broadcast of the sum plus 1e-8 all read row b. -/
theorem idx22_eq (b : Fin 32) (k k' : Fin 64) : idx_main_v22 (idx_main_v23 (idx_main_v26 (ix2 b k))) k' = ix2 b k' := by
  funext d
  match d with
  | ⟨0, _⟩ => rfl
  | ⟨1, _⟩ => rfl

/-! ### The layout steps on coordinates, channel 2

The second channel goes through the same layout steps, written again under other names: each of its index functions
is the first channel's, except the slice, which keeps channel 2. -/

theorem idx43_eq (u : Fin 33554432) : idx_main_v43 (ix2 u 0) = ix1 u := idx19_eq u

theorem idx40_eq (a : Fin 32) (r c : Fin 1024) :
    idx_main_v40 (ix1 (flatEquiv (a, r, c)))
      = ix2 a (⟨r.val * 1024 + c.val, by have := r.isLt; have := c.isLt; omega⟩ : Fin 1048576) := idx16_eq a r c

theorem idx28_eq (a : Fin 32) (r c : Fin 1024) (h : r.val * 1024 + c.val < 1048576) :
    idx_main_v28 (ix2 a (⟨r.val * 1024 + c.val, h⟩ : Fin 1048576)) = ix3 a r c := idx4_eq a r c h

theorem idx3_eq (a : Fin 32) (r c : Fin 1024) : idx_main_v3 (ix3 a r c) = ix4 a (0 : Fin 1) r c := idx1_eq a r c

/-- The slice that keeps channel 2. -/
theorem idx2_eq (a : Fin 32) (r c : Fin 1024) : idx_main_v2 (ix4 a (0 : Fin 1) r c) = ix4 a (2 : Fin 3) r c := by
  funext d
  match d with
  | ⟨0, _⟩ => rfl
  | ⟨1, _⟩ => rfl
  | ⟨2, _⟩ => rfl
  | ⟨3, _⟩ => rfl

theorem idx38_eq (a : Fin 32) (q : Fin 1048576) : idx_main_v38 (ix2 a q) = ix2 a (0 : Fin 1) := idx14_eq a q

theorem idx35_eq (a : Fin 32) : idx_main_v35 (ix2 a (0 : Fin 1)) = ix1 a := idx11_eq a

theorem idx45_eq (b : Fin 32) (k : Fin 64) :
    idx_main_v45 (ix2 b k) = ix1 (⟨b.val * 64 + k.val, by have := b.isLt; have := k.isLt; omega⟩ : Fin 2048) := idx21_eq b k

theorem idx46_eq (b : Fin 32) (k k' : Fin 64) : idx_main_v46 (idx_main_v47 (idx_main_v50 (ix2 b k))) k' = ix2 b k' :=
  idx22_eq b k k'

/-! ### The index word at a flat position

Read back through the stages, the index word of pixel (r, c) of image a is the pixel's bin word (a quarter of the
value, rounded down, clipped to [0, 63], converted) plus the image number times 64. -/

theorem word_cb (X : TX) (a : Fin 32) (r c : Fin 1024) :
    val_main_v19 (F := Ideal) X (ix2 (flatEquiv (a, r, c)) 0)
      = IntOp.addi (Spec.binWord (X (ix4 a 1 r c))) (IntOp.muli (BitVec.ofNat 32 a.val) 64#32) := by
  rw [val_main_v19_apply, val_main_v16_apply, val_main_v15_apply, val_main_v9_apply, val_main_v8_apply,
    val_main_call0_v4_apply, val_main_call0_v3_apply, val_main_c_0_apply, val_main_call0_v2_apply,
    val_main_call0_v1_apply, val_main_call0_v0_apply, val_main_c_apply, val_main_v7_apply, val_main_v6_apply,
    val_main_v4_apply, val_main_v1_apply, val_main_v0_apply, val_main_v5_apply, val_main_cst_apply,
    val_main_v14_apply, val_main_v13_apply, val_main_v11_apply, val_main_v10_apply, val_main_v12_apply,
    val_main_c_1_apply]
  simp only [idx19_eq, idx16_eq, idx4_eq, idx1_eq, idx0_eq, idx14_eq, idx11_eq]
  have e : ((a.val * 1024 + r.val) * 1024 + c.val) / 1048576 = a.val := by
    have := r.isLt; have := c.isLt; omega
  show IntOp.addi (Spec.binWord (X (ix4 a 1 r c)))
      (IntOp.muli (BitVec.ofNat 32 (((a.val * 1024 + r.val) * 1024 + c.val) / 1048576)) 64#32) = _
  rw [e]

theorem word_cr (X : TX) (a : Fin 32) (r c : Fin 1024) :
    val_main_v43 (F := Ideal) X (ix2 (flatEquiv (a, r, c)) 0)
      = IntOp.addi (Spec.binWord (X (ix4 a 2 r c))) (IntOp.muli (BitVec.ofNat 32 a.val) 64#32) := by
  rw [val_main_v43_apply, val_main_v40_apply, val_main_v39_apply, val_main_v33_apply, val_main_v32_apply,
    val_main_call1_v4_apply, val_main_call1_v3_apply, val_main_c_8_apply, val_main_call1_v2_apply,
    val_main_call1_v1_apply, val_main_call1_v0_apply, val_main_c_7_apply, val_main_v31_apply, val_main_v30_apply,
    val_main_v28_apply, val_main_v3_apply, val_main_v2_apply, val_main_v29_apply, val_main_cst_6_apply,
    val_main_v38_apply, val_main_v37_apply, val_main_v35_apply, val_main_v34_apply, val_main_v36_apply,
    val_main_c_9_apply]
  simp only [idx43_eq, idx40_eq, idx28_eq, idx3_eq, idx2_eq, idx38_eq, idx35_eq]
  have e : ((a.val * 1024 + r.val) * 1024 + c.val) / 1048576 = a.val := by
    have := r.isLt; have := c.isLt; omega
  show IntOp.addi (Spec.binWord (X (ix4 a 2 r c)))
      (IntOp.muli (BitVec.ofNat 32 (((a.val * 1024 + r.val) * 1024 + c.val) / 1048576)) 64#32) = _
  rw [e]

/-! ### The counts -/

/-- Entry (b, k) of channel 1's reshaped scatter result is the number of pixels of image b in bin k. -/
theorem cnt_cb (X : TX) (b : Fin 32) (k : Fin 64) : val_main_v21 (F := Ideal) X (ix2 b k) = Spec.cnt X b 1 k := by
  rw [val_main_v21_apply, idx21_eq]
  unfold val_main_v20
  refine (count_scatter _ _ _
    (fun i => by rw [val_main_v18_apply, val_main_cst_3_apply, Ideal.ofBits_def, Ideal.ofBits_zero_f32])
    (fun u => by rw [val_main_v17_apply, val_main_cst_2_apply, Ideal.ofBits_def, ofBits_one])
    (fun a r c => Spec.binWord (X (ix4 a 1 r c))) (fun a r c => binWord_range _) (word_cb X) b k _).trans ?_
  unfold Spec.cnt Spec.ind Spec.px
  rfl

/-- Entry (b, k) of channel 2's reshaped scatter result is the number of pixels of image b in bin k. -/
theorem cnt_cr (X : TX) (b : Fin 32) (k : Fin 64) : val_main_v45 (F := Ideal) X (ix2 b k) = Spec.cnt X b 2 k := by
  rw [val_main_v45_apply, idx45_eq]
  unfold val_main_v44
  refine (count_scatter _ _ _
    (fun i => by rw [val_main_v42_apply, val_main_cst_11_apply, Ideal.ofBits_def, Ideal.ofBits_zero_f32])
    (fun u => by rw [val_main_v41_apply, val_main_cst_10_apply, Ideal.ofBits_def, ofBits_one])
    (fun a r c => Spec.binWord (X (ix4 a 2 r c))) (fun a r c => binWord_range _) (word_cr X) b k _).trans ?_
  unfold Spec.cnt Spec.ind Spec.px
  rfl

end Hist

open Hist

/-- Channel 1's histogram. -/
theorem hist_cb (X : TX) (b : Fin 32) (k : Fin 64) : val_main_v27 (F := Ideal) X (ix2 b k) = Spec.hist X b 1 k := by
  -- the count at (b, k) over (the zero word + the sum over k' of the counts at (b, k')) + the word of 1e-8
  rw [val_main_v27_apply, val_main_v26_apply, val_main_v25_apply, val_main_v23_apply, val_main_v22_apply,
    val_main_v24_apply, val_main_cst_5_apply, val_main_cst_4_apply]
  simp only [idx22_eq, cnt_cb, Ideal.hostDivf_def, Ideal.addf_def, Ideal.ofBits_def, Ideal.ofBits_zero_f32, zero_add]
  unfold Spec.hist Spec.cEps8
  rfl

/-- Channel 2's histogram. -/
theorem hist_cr (X : TX) (b : Fin 32) (k : Fin 64) : val_main_v51 (F := Ideal) X (ix2 b k) = Spec.hist X b 2 k := by
  rw [val_main_v51_apply, val_main_v50_apply, val_main_v49_apply, val_main_v47_apply, val_main_v46_apply,
    val_main_v48_apply, val_main_cst_13_apply, val_main_cst_12_apply]
  simp only [idx46_eq, cnt_cr, Ideal.hostDivf_def, Ideal.addf_def, Ideal.ofBits_def, Ideal.ofBits_zero_f32, zero_add]
  unfold Spec.hist Spec.cEps8
  rfl

end Cert.ReferenceIdeal.RefVal

end
-- ==== Proof.RefGv.lean ====
/-
  The reference's channel variances are the specification's, in the "squared deviations from the mean" form: the
  channel flattened to [32, 2^20], its row sum over 2^20 as the mean, the squared deviations summed and divided by
  2^20 - 1.  A sum over the flat pixel index is the double sum over rows and columns.
-/
import proofs.«111025_j75557064671630_1_alg».proof.Proof.RefRun
import proofs.«111025_j75557064671630_1_alg».proof.Proof.Spec
import Mathlib.Logic.Equiv.Fin.Basic
import Mathlib.Data.Fintype.BigOperators
import Mathlib.Algebra.BigOperators.Fin

set_option maxRecDepth 16384

noncomputable section

namespace Cert.ReferenceIdeal.RefVal

open Idealize.ShloMosaic Idealize.ShloMosaic.ValueIdx Idealize.ShloMosaic.TcCoe Idealize.SL.Sem
open Cert.ReferenceIdeal Cert.ReferenceIdeal.Gen Cert.ReferenceIdeal.Read

/-! Everything in this file's STATEMENTS is FIXED. -/

set_option quotPrecheck false in
/-- The image tensor as the reference's stages take it. -/
local notation "TX" => (⟨S32x3x1024x1024, .f32⟩ : BufTy).Contents (Elt Ideal)

/-! ### A sum over the flat pixel index is the double sum over rows and columns -/

/-- A sum over Fin (m * n) of a function of (p / n, p % n) is the double sum: p ↦ (p / n, p % n) is a bijection
    onto the pairs. -/
theorem sum_divMod {M : Type*} [AddCommMonoid M] (m n : ℕ) (hn : 0 < n) (f : Fin m → Fin n → M) :
    ∑ p : Fin (m * n), f ⟨p.val / n, (Nat.div_lt_iff_lt_mul hn).2 p.isLt⟩ ⟨p.val % n, Nat.mod_lt _ hn⟩
      = ∑ r : Fin m, ∑ c : Fin n, f r c := by
  rw [← Fintype.sum_prod_type']
  exact Fintype.sum_equiv finProdFinEquiv.symm _ _ (fun p => rfl)

/-- The case of 1024 rows of 1024 columns. -/
theorem sum_flat_pixels {M : Type*} [AddCommMonoid M] (f : Fin 1024 → Fin 1024 → M) :
    ∑ p : Fin 1048576, f ⟨p.val / 1024, by omega⟩ ⟨p.val % 1024, by omega⟩ = ∑ r : Fin 1024, ∑ c : Fin 1024, f r c :=
  sum_divMod 1024 1024 (by decide) f

/-! ### Channel 1 -/

/-- The slice at channel 1 reads channel 1: its index (b, 0, r, c) is (b, 1, r, c) of the image tensor. -/
theorem idx_slice_cb (b : Fin 32) (r c : Fin 1024) :
    idx_main_v0 (ix4 b (0 : Fin 1) r c) = ix4 b (1 : Fin 3) r c :=
  funext fun a => Fin.ext (by match a with | ⟨0, _⟩ => rfl | ⟨1, _⟩ => rfl | ⟨2, _⟩ => rfl | ⟨3, _⟩ => rfl)

/-- Dropping the unit axis: (b, r, c) of [32, 1024, 1024] is (b, 0, r, c) of [32, 1, 1024, 1024]. -/
theorem idx_drop_cb (b : Fin 32) (r c : Fin 1024) :
    idx_main_v1 (ix3 b r c) = ix4 b (0 : Fin 1) r c :=
  funext fun a => Fin.ext (by
    have hb : b.val < 32 := b.isLt
    have hr : r.val < 1024 := r.isLt
    have hc : c.val < 1024 := c.isLt
    match a with
    | ⟨0, _⟩ => show ((b.val * 1024 + r.val) * 1024 + c.val) / 1048576 = b.val; omega
    | ⟨1, _⟩ => rfl
    | ⟨2, _⟩ => show ((b.val * 1024 + r.val) * 1024 + c.val) / 1024 % 1024 = r.val; omega
    | ⟨3, _⟩ => show ((b.val * 1024 + r.val) * 1024 + c.val) % 1024 = c.val; omega)

/-- Flattening rows and columns: the flat pixel p of [32, 2^20] is pixel (p / 1024, p % 1024) of [32, 1024, 1024]. -/
theorem idx_flat_cb (b : Fin 32) (p : Fin 1048576) :
    idx_main_v52 (ix2 b p) = ix3 b (⟨p.val / 1024, by omega⟩ : Fin 1024) (⟨p.val % 1024, by omega⟩ : Fin 1024) :=
  funext fun a => Fin.ext (by
    have hb : b.val < 32 := b.isLt
    have hp : p.val < 1048576 := p.isLt
    match a with
    | ⟨0, _⟩ => show (b.val * 1048576 + p.val) / 1048576 = b.val; omega
    | ⟨1, _⟩ => show (b.val * 1048576 + p.val) / 1024 % 1024 = p.val / 1024; omega
    | ⟨2, _⟩ => show (b.val * 1048576 + p.val) % 1024 = p.val % 1024; omega)

/-- The flattened channel at (b, p) is the pixel (p / 1024, p % 1024) of channel 1 of image b. -/
theorem pix_cb (X : TX) (b : Fin 32) (p : Fin 1048576) :
    val_main_v52 (F := Ideal) X (ix2 b p)
      = Spec.px X b 1 (⟨p.val / 1024, by omega⟩ : Fin 1024) (⟨p.val % 1024, by omega⟩ : Fin 1024) := by
  rw [val_main_v52_apply, idx_flat_cb, val_main_v1_apply, idx_drop_cb, val_main_v0_apply, idx_slice_cb]
  unfold Spec.px
  with_reducible rfl

/-- The row sum of the flattened channel is the specification's sum of the channel's pixels. -/
theorem sum_cb (X : TX) (b : Fin 32) :
    ∑ k : Fin 1048576, val_main_v52 (F := Ideal) X (ix2 b k) = Spec.S1 X b 1 := by
  simp only [pix_cb]
  exact sum_flat_pixels (fun r c => Spec.px X b 1 r c)

/-- The index the row sum reads, seen from any entry (b, k) of the broadcast mean: (b, k'). -/
theorem idx_row_cb (b : Fin 32) (k k' : Fin 1048576) :
    idx_main_v53 (idx_main_v54 (idx_main_v57 (ix2 b k))) k' = ix2 b k' :=
  funext fun a => Fin.ext (by match a with | ⟨0, _⟩ => rfl | ⟨1, _⟩ => rfl)

/-- The index the sum of squared deviations reads: (b, k). -/
theorem idx_sq_cb (b : Fin 32) (k : Fin 1048576) : idx_main_v60 (ix1 b) k = ix2 b k :=
  funext fun a => Fin.ext (by match a with | ⟨0, _⟩ => rfl | ⟨1, _⟩ => rfl)

/-- The broadcast mean at any entry of row b is the channel's sum over 2^20. -/
theorem mean_cb (X : TX) (b : Fin 32) (k : Fin 1048576) :
    val_main_v57 (F := Ideal) X (ix2 b k) = Ideal.div (Spec.S1 X b 1) Spec.cN := by
  rw [val_main_v57_apply, val_main_v56_apply, val_main_v54_apply, val_main_v53_apply, val_main_v55_apply,
    val_main_cst_15_apply, val_main_cst_14_apply]
  simp only [idx_row_cb, sum_cb, Ideal.hostDivf_def, Ideal.ofBits_def, Ideal.ofBits_zero_f32, zero_add]
  unfold Spec.cN
  with_reducible rfl

/-- Channel 1's variance. -/
theorem gv_cb (X : TX) (b : Fin 32) : val_main_v62 (F := Ideal) X (ix1 b) = Spec.gvR X b 1 := by
  rw [val_main_v62_apply, val_main_v60_apply, val_main_v61_apply, val_main_cst_17_apply, val_main_cst_16_apply]
  simp only [idx_sq_cb, val_main_v59_apply, val_main_v58_apply, mean_cb, pix_cb, Ideal.mulf_def, Ideal.subf_def,
    Ideal.hostDivf_def, Ideal.ofBits_def, Ideal.ofBits_zero_f32, zero_add]
  unfold Spec.gvR Spec.cNm1
  rw [← sum_flat_pixels (fun r c => (Spec.px X b 1 r c - Ideal.div (Spec.S1 X b 1) Spec.cN)
    * (Spec.px X b 1 r c - Ideal.div (Spec.S1 X b 1) Spec.cN))]

/-! ### Channel 2 -/

/-- The slice at channel 2 reads channel 2: its index (b, 0, r, c) is (b, 2, r, c) of the image tensor. -/
theorem idx_slice_cr (b : Fin 32) (r c : Fin 1024) :
    idx_main_v2 (ix4 b (0 : Fin 1) r c) = ix4 b (2 : Fin 3) r c :=
  funext fun a => Fin.ext (by match a with | ⟨0, _⟩ => rfl | ⟨1, _⟩ => rfl | ⟨2, _⟩ => rfl | ⟨3, _⟩ => rfl)

/-- Dropping the unit axis: (b, r, c) of [32, 1024, 1024] is (b, 0, r, c) of [32, 1, 1024, 1024]. -/
theorem idx_drop_cr (b : Fin 32) (r c : Fin 1024) :
    idx_main_v3 (ix3 b r c) = ix4 b (0 : Fin 1) r c :=
  funext fun a => Fin.ext (by
    have hb : b.val < 32 := b.isLt
    have hr : r.val < 1024 := r.isLt
    have hc : c.val < 1024 := c.isLt
    match a with
    | ⟨0, _⟩ => show ((b.val * 1024 + r.val) * 1024 + c.val) / 1048576 = b.val; omega
    | ⟨1, _⟩ => rfl
    | ⟨2, _⟩ => show ((b.val * 1024 + r.val) * 1024 + c.val) / 1024 % 1024 = r.val; omega
    | ⟨3, _⟩ => show ((b.val * 1024 + r.val) * 1024 + c.val) % 1024 = c.val; omega)

/-- Flattening rows and columns: the flat pixel p of [32, 2^20] is pixel (p / 1024, p % 1024) of [32, 1024, 1024]. -/
theorem idx_flat_cr (b : Fin 32) (p : Fin 1048576) :
    idx_main_v79 (ix2 b p) = ix3 b (⟨p.val / 1024, by omega⟩ : Fin 1024) (⟨p.val % 1024, by omega⟩ : Fin 1024) :=
  funext fun a => Fin.ext (by
    have hb : b.val < 32 := b.isLt
    have hp : p.val < 1048576 := p.isLt
    match a with
    | ⟨0, _⟩ => show (b.val * 1048576 + p.val) / 1048576 = b.val; omega
    | ⟨1, _⟩ => show (b.val * 1048576 + p.val) / 1024 % 1024 = p.val / 1024; omega
    | ⟨2, _⟩ => show (b.val * 1048576 + p.val) % 1024 = p.val % 1024; omega)

/-- The flattened channel at (b, p) is the pixel (p / 1024, p % 1024) of channel 2 of image b. -/
theorem pix_cr (X : TX) (b : Fin 32) (p : Fin 1048576) :
    val_main_v79 (F := Ideal) X (ix2 b p)
      = Spec.px X b 2 (⟨p.val / 1024, by omega⟩ : Fin 1024) (⟨p.val % 1024, by omega⟩ : Fin 1024) := by
  rw [val_main_v79_apply, idx_flat_cr, val_main_v3_apply, idx_drop_cr, val_main_v2_apply, idx_slice_cr]
  unfold Spec.px
  with_reducible rfl

/-- The row sum of the flattened channel is the specification's sum of the channel's pixels. -/
theorem sum_cr (X : TX) (b : Fin 32) :
    ∑ k : Fin 1048576, val_main_v79 (F := Ideal) X (ix2 b k) = Spec.S1 X b 2 := by
  simp only [pix_cr]
  exact sum_flat_pixels (fun r c => Spec.px X b 2 r c)

/-- The index the row sum reads, seen from any entry (b, k) of the broadcast mean: (b, k'). -/
theorem idx_row_cr (b : Fin 32) (k k' : Fin 1048576) :
    idx_main_v80 (idx_main_v81 (idx_main_v84 (ix2 b k))) k' = ix2 b k' :=
  funext fun a => Fin.ext (by match a with | ⟨0, _⟩ => rfl | ⟨1, _⟩ => rfl)

/-- The index the sum of squared deviations reads: (b, k). -/
theorem idx_sq_cr (b : Fin 32) (k : Fin 1048576) : idx_main_v87 (ix1 b) k = ix2 b k :=
  funext fun a => Fin.ext (by match a with | ⟨0, _⟩ => rfl | ⟨1, _⟩ => rfl)

/-- The broadcast mean at any entry of row b is the channel's sum over 2^20. -/
theorem mean_cr (X : TX) (b : Fin 32) (k : Fin 1048576) :
    val_main_v84 (F := Ideal) X (ix2 b k) = Ideal.div (Spec.S1 X b 2) Spec.cN := by
  rw [val_main_v84_apply, val_main_v83_apply, val_main_v81_apply, val_main_v80_apply, val_main_v82_apply,
    val_main_cst_25_apply, val_main_cst_24_apply]
  simp only [idx_row_cr, sum_cr, Ideal.hostDivf_def, Ideal.ofBits_def, Ideal.ofBits_zero_f32, zero_add]
  unfold Spec.cN
  with_reducible rfl

/-- Channel 2's variance. -/
theorem gv_cr (X : TX) (b : Fin 32) : val_main_v89 (F := Ideal) X (ix1 b) = Spec.gvR X b 2 := by
  rw [val_main_v89_apply, val_main_v87_apply, val_main_v88_apply, val_main_cst_27_apply, val_main_cst_26_apply]
  simp only [idx_sq_cr, val_main_v86_apply, val_main_v85_apply, mean_cr, pix_cr, Ideal.mulf_def, Ideal.subf_def,
    Ideal.hostDivf_def, Ideal.ofBits_def, Ideal.ofBits_zero_f32, zero_add]
  unfold Spec.gvR Spec.cNm1
  rw [← sum_flat_pixels (fun r c => (Spec.px X b 2 r c - Ideal.div (Spec.S1 X b 2) Spec.cN)
    * (Spec.px X b 2 r c - Ideal.div (Spec.S1 X b 2) Spec.cN))]

end Cert.ReferenceIdeal.RefVal

end
-- ==== Proof.RefLv.lean ====
/-
  The reference's mean patch variances are the specification's, in the "squared deviations from the mean" form: the
  channel reshaped to [32, 128, 8, 128, 8], transposed to [32, 128, 128, 8, 8] and flattened to [32, 16384, 64] lists,
  per image, the 128 x 128 patches with their 8 x 8 pixels; a patch's variance is its squared deviations from its mean
  over 63, and the mean of the 16384 variances follows.  A sum over the 64 entries of a patch is the double sum over its
  rows and columns; over the 16384 patches, over patch rows and patch columns.
-/
import proofs.«111025_j75557064671630_1_alg».proof.Proof.RefRun
import proofs.«111025_j75557064671630_1_alg».proof.Proof.Spec
import Mathlib.Logic.Equiv.Fin.Basic
import Mathlib.Data.Fintype.BigOperators

set_option maxRecDepth 16384

noncomputable section

namespace Cert.ReferenceIdeal.RefVal

open Idealize.ShloMosaic Idealize.ShloMosaic.ValueIdx Idealize.ShloMosaic.TcCoe Idealize.SL.Sem
open Cert.ReferenceIdeal Cert.ReferenceIdeal.Gen Cert.ReferenceIdeal.Read

/-! Everything in this file's STATEMENTS is FIXED. -/

set_option quotPrecheck false in
/-- The image tensor as the reference's stages take it. -/
local notation "TX" => (⟨S32x3x1024x1024, .f32⟩ : BufTy).Contents (Elt Ideal)

namespace Lv

/-! ## Sums over a flattened pair of axes -/

/-- A sum over m * n indices, the summand read at the quotient and the remainder by n, is the double sum. -/
theorem sum_div_mod {M : Type*} [AddCommMonoid M] (m n : ℕ) (f : Fin m → Fin n → M) :
    ∑ e : Fin (m * n), f e.divNat e.modNat = ∑ a : Fin m, ∑ b : Fin n, f a b := by
  rw [← Fintype.sum_prod_type' f]
  exact Fintype.sum_equiv finProdFinEquiv.symm _ _ (fun _ => rfl)

/-- Patch q of the 16384 is patch (q / 128, q % 128); entry e of the 64 is pixel (e / 8, e % 8). -/
abbrev qr (q : Fin 16384) : Fin 128 := ⟨q.val / 128, by omega⟩
abbrev qc (q : Fin 16384) : Fin 128 := ⟨q.val % 128, by omega⟩
abbrev er (e : Fin 64) : Fin 8 := ⟨e.val / 8, by omega⟩
abbrev ec (e : Fin 64) : Fin 8 := ⟨e.val % 8, by omega⟩

/-- Over the 64 entries of a patch: rows, then columns. -/
theorem sum_entries {M : Type*} [AddCommMonoid M] (f : Fin 8 → Fin 8 → M) :
    ∑ e : Fin 64, f (er e) (ec e) = ∑ a : Fin 8, ∑ c : Fin 8, f a c :=
  sum_div_mod 8 8 f

/-- Over the 16384 patches: patch rows, then patch columns. -/
theorem sum_patches {M : Type*} [AddCommMonoid M] (g : Fin 128 → Fin 128 → M) :
    ∑ q : Fin 16384, g (qr q) (qc q) = ∑ pr : Fin 128, ∑ pc : Fin 128, g pr pc :=
  sum_div_mod 128 128 g

/-! ## The layout stages, index by index -/

/-- The flattened patch list read back: entry e of patch q of image b sits at (b, q / 128, q % 128, e / 8, e % 8). -/
theorem idx65_ix3 (b : Fin 32) (q : Fin 16384) (e : Fin 64) :
    idx_main_v65 (ix3 b q e) = ix5 b (qr q) (qc q) (er e) (ec e) := by
  have hb := b.isLt; have hq := q.isLt; have he := e.isLt
  funext a; apply Fin.ext
  match a with
  | ⟨0, _⟩ => show ((b.val * 16384 + q.val) * 64 + e.val) / 1048576 = b.val; omega
  | ⟨1, _⟩ => show ((b.val * 16384 + q.val) * 64 + e.val) / 8192 % 128 = q.val / 128; omega
  | ⟨2, _⟩ => show ((b.val * 16384 + q.val) * 64 + e.val) / 64 % 128 = q.val % 128; omega
  | ⟨3, _⟩ => show ((b.val * 16384 + q.val) * 64 + e.val) / 8 % 8 = e.val / 8; omega
  | ⟨4, _⟩ => show ((b.val * 16384 + q.val) * 64 + e.val) % 8 = e.val % 8; omega

/-- The transposition swaps the row within the patch and the patch column. -/
theorem idx64_ix5 (b : Fin 32) (pr pc : Fin 128) (r c : Fin 8) :
    idx_main_v64 (ix5 b pr pc r c) = ix5 b pr r pc c := by
  funext a; apply Fin.ext
  match a with
  | ⟨0, _⟩ => rfl
  | ⟨1, _⟩ => rfl
  | ⟨2, _⟩ => rfl
  | ⟨3, _⟩ => rfl
  | ⟨4, _⟩ => rfl

/-- A row is (patch row, row within), a column (patch column, column within). -/
theorem idx63_ix5 (b : Fin 32) (pr pc : Fin 128) (r c : Fin 8) :
    idx_main_v63 (ix5 b pr r pc c)
      = ix3 b (⟨pr.val * 8 + r.val, by omega⟩ : Fin 1024) (⟨pc.val * 8 + c.val, by omega⟩ : Fin 1024) := by
  have hb := b.isLt; have hpr := pr.isLt; have hpc := pc.isLt; have hr := r.isLt; have hc := c.isLt
  funext a; apply Fin.ext
  match a with
  | ⟨0, _⟩ => show ((((b.val * 128 + pr.val) * 8 + r.val) * 128 + pc.val) * 8 + c.val) / 1048576 = b.val; omega
  | ⟨1, _⟩ => show ((((b.val * 128 + pr.val) * 8 + r.val) * 128 + pc.val) * 8 + c.val) / 1024 % 1024 = pr.val * 8 + r.val; omega
  | ⟨2, _⟩ => show ((((b.val * 128 + pr.val) * 8 + r.val) * 128 + pc.val) * 8 + c.val) % 1024 = pc.val * 8 + c.val; omega

/-- Dropping the channel axis of extent one. -/
theorem idx1_ix3 (b : Fin 32) (r c : Fin 1024) : idx_main_v1 (ix3 b r c) = ix4 b (0 : Fin 1) r c := by
  have hb := b.isLt; have hr := r.isLt; have hc := c.isLt
  funext a; apply Fin.ext
  match a with
  | ⟨0, _⟩ => show ((b.val * 1024 + r.val) * 1024 + c.val) / 1048576 = b.val; omega
  | ⟨1, _⟩ => rfl
  | ⟨2, _⟩ => show ((b.val * 1024 + r.val) * 1024 + c.val) / 1024 % 1024 = r.val; omega
  | ⟨3, _⟩ => show ((b.val * 1024 + r.val) * 1024 + c.val) % 1024 = c.val; omega

/-- The slice is channel 1. -/
theorem idx0_ix4 (b : Fin 32) (r c : Fin 1024) : idx_main_v0 (ix4 b (0 : Fin 1) r c) = ix4 b (1 : Fin 3) r c := by
  funext a; apply Fin.ext
  match a with
  | ⟨0, _⟩ => rfl
  | ⟨1, _⟩ => rfl
  | ⟨2, _⟩ => rfl
  | ⟨3, _⟩ => rfl

/-- Entry e of patch q of image b in channel 1's patch list is that pixel of that patch. -/
theorem v65_ix3 (X : TX) (b : Fin 32) (q : Fin 16384) (e : Fin 64) :
    val_main_v65 (F := Ideal) X (ix3 b q e) = Spec.pp X b 1 (qr q) (qc q) (er e) (ec e) := by
  rw [val_main_v65_apply, idx65_ix3, val_main_v64_apply, idx64_ix5, val_main_v63_apply, idx63_ix5,
    val_main_v1_apply, idx1_ix3, val_main_v0_apply, idx0_ix4]
  rfl

/-! ## The reductions' and broadcasts' indices -/

theorem idx66_ix2 (b : Fin 32) (q : Fin 16384) (e : Fin 64) : idx_main_v66 (ix2 b q) e = ix3 b q e := by
  funext a; match a with | ⟨0, _⟩ => rfl | ⟨1, _⟩ => rfl | ⟨2, _⟩ => rfl
theorem idx67_ix3 (b : Fin 32) (q : Fin 16384) : idx_main_v67 (ix3 b q (0 : Fin 1)) = ix2 b q := by
  funext a; match a with | ⟨0, _⟩ => rfl | ⟨1, _⟩ => rfl
theorem idx70_ix3 (b : Fin 32) (q : Fin 16384) (e : Fin 64) : idx_main_v70 (ix3 b q e) = ix3 b q (0 : Fin 1) := by
  funext a; match a with | ⟨0, _⟩ => rfl | ⟨1, _⟩ => rfl | ⟨2, _⟩ => rfl
theorem idx73_ix2 (b : Fin 32) (q : Fin 16384) (e : Fin 64) : idx_main_v73 (ix2 b q) e = ix3 b q e := by
  funext a; match a with | ⟨0, _⟩ => rfl | ⟨1, _⟩ => rfl | ⟨2, _⟩ => rfl
theorem idx76_ix1 (b : Fin 32) (q : Fin 16384) : idx_main_v76 (ix1 b) q = ix2 b q := by
  funext a; match a with | ⟨0, _⟩ => rfl | ⟨1, _⟩ => rfl

/-! ## Channel 1, stage by stage -/

/-- The first reduction is the patch's sum. -/
theorem v66_ix2 (X : TX) (b : Fin 32) (q : Fin 16384) :
    val_main_v66 (F := Ideal) X (ix2 b q) = Spec.P1 X b 1 (qr q) (qc q) := by
  rw [val_main_v66_apply, val_main_cst_18_apply]
  simp only [Ideal.ofBits_def]
  rw [Ideal.ofBits_zero_f32, zero_add]
  unfold Spec.P1
  rw [← sum_entries (fun a c => Spec.pp X b 1 (qr q) (qc q) a c)]
  exact Finset.sum_congr rfl fun e _ => by rw [idx66_ix2, v65_ix3]

/-- The patch's mean, kept along an axis of extent one. -/
theorem v69_ix3 (X : TX) (b : Fin 32) (q : Fin 16384) :
    val_main_v69 (F := Ideal) X (ix3 b q (0 : Fin 1)) = Ideal.div (Spec.P1 X b 1 (qr q) (qc q)) Spec.c64 := by
  rw [val_main_v69_apply, val_main_v67_apply, idx67_ix3, v66_ix2, val_main_v68_apply, val_main_cst_19_apply]
  simp only [Ideal.hostDivf_def, Ideal.ofBits_def]
  unfold Spec.c64
  rfl

/-- A pixel's deviation from its patch's mean. -/
theorem v71_ix3 (X : TX) (b : Fin 32) (q : Fin 16384) (e : Fin 64) :
    val_main_v71 (F := Ideal) X (ix3 b q e)
      = Spec.pp X b 1 (qr q) (qc q) (er e) (ec e) - Ideal.div (Spec.P1 X b 1 (qr q) (qc q)) Spec.c64 := by
  rw [val_main_v71_apply, v65_ix3, val_main_v70_apply, idx70_ix3, v69_ix3]
  rfl

/-- The patch's variance: its squared deviations summed, over 63. -/
theorem v75_ix2 (X : TX) (b : Fin 32) (q : Fin 16384) :
    val_main_v75 (F := Ideal) X (ix2 b q) = Spec.pvR X b 1 (qr q) (qc q) := by
  rw [val_main_v75_apply, val_main_v73_apply, val_main_cst_20_apply, val_main_v74_apply, val_main_cst_21_apply]
  simp only [Ideal.hostDivf_def, Ideal.ofBits_def]
  rw [Ideal.ofBits_zero_f32, zero_add]
  unfold Spec.pvR Spec.c63
  rw [← sum_entries (fun a c =>
    (Spec.pp X b 1 (qr q) (qc q) a c - Ideal.div (Spec.P1 X b 1 (qr q) (qc q)) Spec.c64)
      * (Spec.pp X b 1 (qr q) (qc q) a c - Ideal.div (Spec.P1 X b 1 (qr q) (qc q)) Spec.c64))]
  refine congrArg (fun s => Ideal.div s (Ideal.ofBits .f32 0x427C0000#32)) (Finset.sum_congr rfl fun e _ => ?_)
  rw [idx73_ix2, val_main_v72_apply, v71_ix3]
  rfl

/-! ## Channel 2: the same stages on the other slice

The layout maps and the reductions' indices are those of channel 1 under other names; only the slice differs. -/

/-- The slice is channel 2. -/
theorem idx2_ix4 (b : Fin 32) (r c : Fin 1024) : idx_main_v2 (ix4 b (0 : Fin 1) r c) = ix4 b (2 : Fin 3) r c := by
  funext a; apply Fin.ext
  match a with
  | ⟨0, _⟩ => rfl
  | ⟨1, _⟩ => rfl
  | ⟨2, _⟩ => rfl
  | ⟨3, _⟩ => rfl

theorem idx3_ix3 (b : Fin 32) (r c : Fin 1024) : idx_main_v3 (ix3 b r c) = ix4 b (0 : Fin 1) r c := idx1_ix3 b r c
theorem idx90_ix5 (b : Fin 32) (pr pc : Fin 128) (r c : Fin 8) :
    idx_main_v90 (ix5 b pr r pc c)
      = ix3 b (⟨pr.val * 8 + r.val, by omega⟩ : Fin 1024) (⟨pc.val * 8 + c.val, by omega⟩ : Fin 1024) :=
  idx63_ix5 b pr pc r c
theorem idx91_ix5 (b : Fin 32) (pr pc : Fin 128) (r c : Fin 8) :
    idx_main_v91 (ix5 b pr pc r c) = ix5 b pr r pc c := idx64_ix5 b pr pc r c
theorem idx92_ix3 (b : Fin 32) (q : Fin 16384) (e : Fin 64) :
    idx_main_v92 (ix3 b q e) = ix5 b (qr q) (qc q) (er e) (ec e) := idx65_ix3 b q e
theorem idx93_ix2 (b : Fin 32) (q : Fin 16384) (e : Fin 64) : idx_main_v93 (ix2 b q) e = ix3 b q e := idx66_ix2 b q e
theorem idx94_ix3 (b : Fin 32) (q : Fin 16384) : idx_main_v94 (ix3 b q (0 : Fin 1)) = ix2 b q := idx67_ix3 b q
theorem idx97_ix3 (b : Fin 32) (q : Fin 16384) (e : Fin 64) : idx_main_v97 (ix3 b q e) = ix3 b q (0 : Fin 1) :=
  idx70_ix3 b q e
theorem idx100_ix2 (b : Fin 32) (q : Fin 16384) (e : Fin 64) : idx_main_v100 (ix2 b q) e = ix3 b q e := idx73_ix2 b q e
theorem idx103_ix1 (b : Fin 32) (q : Fin 16384) : idx_main_v103 (ix1 b) q = ix2 b q := idx76_ix1 b q

/-- Entry e of patch q of image b in channel 2's patch list is that pixel of that patch. -/
theorem v92_ix3 (X : TX) (b : Fin 32) (q : Fin 16384) (e : Fin 64) :
    val_main_v92 (F := Ideal) X (ix3 b q e) = Spec.pp X b 2 (qr q) (qc q) (er e) (ec e) := by
  rw [val_main_v92_apply, idx92_ix3, val_main_v91_apply, idx91_ix5, val_main_v90_apply, idx90_ix5,
    val_main_v3_apply, idx3_ix3, val_main_v2_apply, idx2_ix4]
  rfl

/-- The patch's sum. -/
theorem v93_ix2 (X : TX) (b : Fin 32) (q : Fin 16384) :
    val_main_v93 (F := Ideal) X (ix2 b q) = Spec.P1 X b 2 (qr q) (qc q) := by
  rw [val_main_v93_apply, val_main_cst_28_apply]
  simp only [Ideal.ofBits_def]
  rw [Ideal.ofBits_zero_f32, zero_add]
  unfold Spec.P1
  rw [← sum_entries (fun a c => Spec.pp X b 2 (qr q) (qc q) a c)]
  exact Finset.sum_congr rfl fun e _ => by rw [idx93_ix2, v92_ix3]

/-- The patch's mean. -/
theorem v96_ix3 (X : TX) (b : Fin 32) (q : Fin 16384) :
    val_main_v96 (F := Ideal) X (ix3 b q (0 : Fin 1)) = Ideal.div (Spec.P1 X b 2 (qr q) (qc q)) Spec.c64 := by
  rw [val_main_v96_apply, val_main_v94_apply, idx94_ix3, v93_ix2, val_main_v95_apply, val_main_cst_29_apply]
  simp only [Ideal.hostDivf_def, Ideal.ofBits_def]
  unfold Spec.c64
  rfl

/-- A pixel's deviation from its patch's mean. -/
theorem v98_ix3 (X : TX) (b : Fin 32) (q : Fin 16384) (e : Fin 64) :
    val_main_v98 (F := Ideal) X (ix3 b q e)
      = Spec.pp X b 2 (qr q) (qc q) (er e) (ec e) - Ideal.div (Spec.P1 X b 2 (qr q) (qc q)) Spec.c64 := by
  rw [val_main_v98_apply, v92_ix3, val_main_v97_apply, idx97_ix3, v96_ix3]
  rfl

/-- The patch's variance. -/
theorem v102_ix2 (X : TX) (b : Fin 32) (q : Fin 16384) :
    val_main_v102 (F := Ideal) X (ix2 b q) = Spec.pvR X b 2 (qr q) (qc q) := by
  rw [val_main_v102_apply, val_main_v100_apply, val_main_cst_30_apply, val_main_v101_apply, val_main_cst_31_apply]
  simp only [Ideal.hostDivf_def, Ideal.ofBits_def]
  rw [Ideal.ofBits_zero_f32, zero_add]
  unfold Spec.pvR Spec.c63
  rw [← sum_entries (fun a c =>
    (Spec.pp X b 2 (qr q) (qc q) a c - Ideal.div (Spec.P1 X b 2 (qr q) (qc q)) Spec.c64)
      * (Spec.pp X b 2 (qr q) (qc q) a c - Ideal.div (Spec.P1 X b 2 (qr q) (qc q)) Spec.c64))]
  refine congrArg (fun s => Ideal.div s (Ideal.ofBits .f32 0x427C0000#32)) (Finset.sum_congr rfl fun e _ => ?_)
  rw [idx100_ix2, val_main_v99_apply, v98_ix3]
  rfl

end Lv

open Lv

/-- Channel 1's mean patch variance. -/
theorem lv_cb (X : TX) (b : Fin 32) : val_main_v78 (F := Ideal) X (ix1 b) = Spec.lvR X b 1 := by
  rw [val_main_v78_apply, val_main_v76_apply, val_main_cst_22_apply, val_main_v77_apply, val_main_cst_23_apply]
  simp only [Ideal.hostDivf_def, Ideal.ofBits_def]
  rw [Ideal.ofBits_zero_f32, zero_add]
  unfold Spec.lvR Spec.c16384
  rw [← sum_patches (fun pr pc => Spec.pvR X b 1 pr pc)]
  refine congrArg (fun s => Ideal.div s (Ideal.ofBits .f32 0x46800000#32)) (Finset.sum_congr rfl fun q _ => ?_)
  rw [idx76_ix1, v75_ix2]

/-- Channel 2's mean patch variance. -/
theorem lv_cr (X : TX) (b : Fin 32) : val_main_v105 (F := Ideal) X (ix1 b) = Spec.lvR X b 2 := by
  rw [val_main_v105_apply, val_main_v103_apply, val_main_cst_32_apply, val_main_v104_apply, val_main_cst_33_apply]
  simp only [Ideal.hostDivf_def, Ideal.ofBits_def]
  rw [Ideal.ofBits_zero_f32, zero_add]
  unfold Spec.lvR Spec.c16384
  rw [← sum_patches (fun pr pc => Spec.pvR X b 2 pr pc)]
  refine congrArg (fun s => Ideal.div s (Ideal.ofBits .f32 0x46800000#32)) (Finset.sum_congr rfl fun q _ => ?_)
  rw [idx103_ix1, v102_ix2]

end Cert.ReferenceIdeal.RefVal

end
-- ==== Proof.RefFeats.lean ====
/-
  The reference's feature matrix is the specification's: the two histograms side by side, then the four variance
  numbers; a concatenation along the columns picks its piece by the column number.
-/
import proofs.«111025_j75557064671630_1_alg».proof.Proof.RefHist
import proofs.«111025_j75557064671630_1_alg».proof.Proof.RefGv
import proofs.«111025_j75557064671630_1_alg».proof.Proof.RefLv

set_option maxRecDepth 16384

noncomputable section

namespace Cert.ReferenceIdeal.RefVal

open Idealize.ShloMosaic Idealize.ShloMosaic.ValueIdx Idealize.ShloMosaic.TcCoe Idealize.SL.Sem
open Cert.ReferenceIdeal Cert.ReferenceIdeal.Gen Cert.ReferenceIdeal.Read

/-! Everything in this file's STATEMENTS is FIXED. -/

set_option quotPrecheck false in
/-- The image tensor as the reference's stages take it. -/
local notation "TX" => (⟨S32x3x1024x1024, .f32⟩ : BufTy).Contents (Elt Ideal)

/-! ### A concatenation along the columns, read at a column

The piece is the one whose span of columns holds the column; inside it the column is counted from the piece's first. -/

section Cat
variable {α : Type}

theorem cat3_0 (h : Shape.Concatenates [S32x64, S32x64, S32x4] S32x132 1) (y0 y1 : S32x64.Idx → α) (y2 : S32x4.Idx → α)
    (b : Fin 32) (j : Fin 132) (hj : j.val < 64) :
    concatenate S32x132 1 [⟨S32x64, y0⟩, ⟨S32x64, y1⟩, ⟨S32x4, y2⟩] h (ix2 b j) = y0 (ix2 b ⟨j.val, hj⟩) :=
  concatenate_apply_piece (t := S32x132) 1 [⟨S32x64, y0⟩, ⟨S32x64, y1⟩, ⟨S32x4, y2⟩] h (ix2 b j) 0 (by show 0 < 3; omega) S32x64 y0 rfl rfl 0 rfl (ix2 b ⟨j.val, hj⟩)
    (fun a ha => match a, ha with | ⟨0, _⟩, _ => rfl | ⟨1, _⟩, ha => absurd (Fin.ext rfl) ha) (by show 0 + j.val = j.val; omega)

theorem cat3_1 (h : Shape.Concatenates [S32x64, S32x64, S32x4] S32x132 1) (y0 y1 : S32x64.Idx → α) (y2 : S32x4.Idx → α)
    (b : Fin 32) (j : Fin 132) (h0 : ¬ j.val < 64) (h1 : j.val < 128) :
    concatenate S32x132 1 [⟨S32x64, y0⟩, ⟨S32x64, y1⟩, ⟨S32x4, y2⟩] h (ix2 b j) = y1 (ix2 b ⟨j.val - 64, by omega⟩) :=
  concatenate_apply_piece (t := S32x132) 1 [⟨S32x64, y0⟩, ⟨S32x64, y1⟩, ⟨S32x4, y2⟩] h (ix2 b j) 1 (by show 1 < 3; omega) S32x64 y1 rfl rfl 64 rfl (ix2 b ⟨j.val - 64, by omega⟩)
    (fun a ha => match a, ha with | ⟨0, _⟩, _ => rfl | ⟨1, _⟩, ha => absurd (Fin.ext rfl) ha) (by show 64 + (j.val - 64) = j.val; omega)

theorem cat3_2 (h : Shape.Concatenates [S32x64, S32x64, S32x4] S32x132 1) (y0 y1 : S32x64.Idx → α) (y2 : S32x4.Idx → α)
    (b : Fin 32) (j : Fin 132) (h1 : ¬ j.val < 128) :
    concatenate S32x132 1 [⟨S32x64, y0⟩, ⟨S32x64, y1⟩, ⟨S32x4, y2⟩] h (ix2 b j) = y2 (ix2 b ⟨j.val - 128, by omega⟩) :=
  concatenate_apply_piece (t := S32x132) 1 [⟨S32x64, y0⟩, ⟨S32x64, y1⟩, ⟨S32x4, y2⟩] h (ix2 b j) 2 (by show 2 < 3; omega) S32x4 y2 rfl rfl 128 rfl (ix2 b ⟨j.val - 128, by omega⟩)
    (fun a ha => match a, ha with | ⟨0, _⟩, _ => rfl | ⟨1, _⟩, ha => absurd (Fin.ext rfl) ha) (by show 128 + (j.val - 128) = j.val; have := j.isLt; omega)

theorem cat4_0 (h : Shape.Concatenates [S32x1, S32x1, S32x1, S32x1] S32x4 1) (z0 z1 z2 z3 : S32x1.Idx → α)
    (b : Fin 32) (j : Fin 4) (hj : j.val = 0) :
    concatenate S32x4 1 [⟨S32x1, z0⟩, ⟨S32x1, z1⟩, ⟨S32x1, z2⟩, ⟨S32x1, z3⟩] h (ix2 b j) = z0 (ix2 b 0) :=
  concatenate_apply_piece (t := S32x4) 1 [⟨S32x1, z0⟩, ⟨S32x1, z1⟩, ⟨S32x1, z2⟩, ⟨S32x1, z3⟩] h (ix2 b j) 0 (by show 0 < 4; omega) S32x1 z0 rfl rfl 0 rfl (ix2 b 0)
    (fun a ha => match a, ha with | ⟨0, _⟩, _ => rfl | ⟨1, _⟩, ha => absurd (Fin.ext rfl) ha) (by show 0 + 0 = j.val; omega)
theorem cat4_1 (h : Shape.Concatenates [S32x1, S32x1, S32x1, S32x1] S32x4 1) (z0 z1 z2 z3 : S32x1.Idx → α)
    (b : Fin 32) (j : Fin 4) (hj : j.val = 1) :
    concatenate S32x4 1 [⟨S32x1, z0⟩, ⟨S32x1, z1⟩, ⟨S32x1, z2⟩, ⟨S32x1, z3⟩] h (ix2 b j) = z1 (ix2 b 0) :=
  concatenate_apply_piece (t := S32x4) 1 [⟨S32x1, z0⟩, ⟨S32x1, z1⟩, ⟨S32x1, z2⟩, ⟨S32x1, z3⟩] h (ix2 b j) 1 (by show 1 < 4; omega) S32x1 z1 rfl rfl 1 rfl (ix2 b 0)
    (fun a ha => match a, ha with | ⟨0, _⟩, _ => rfl | ⟨1, _⟩, ha => absurd (Fin.ext rfl) ha) (by show 1 + 0 = j.val; omega)
theorem cat4_2 (h : Shape.Concatenates [S32x1, S32x1, S32x1, S32x1] S32x4 1) (z0 z1 z2 z3 : S32x1.Idx → α)
    (b : Fin 32) (j : Fin 4) (hj : j.val = 2) :
    concatenate S32x4 1 [⟨S32x1, z0⟩, ⟨S32x1, z1⟩, ⟨S32x1, z2⟩, ⟨S32x1, z3⟩] h (ix2 b j) = z2 (ix2 b 0) :=
  concatenate_apply_piece (t := S32x4) 1 [⟨S32x1, z0⟩, ⟨S32x1, z1⟩, ⟨S32x1, z2⟩, ⟨S32x1, z3⟩] h (ix2 b j) 2 (by show 2 < 4; omega) S32x1 z2 rfl rfl 2 rfl (ix2 b 0)
    (fun a ha => match a, ha with | ⟨0, _⟩, _ => rfl | ⟨1, _⟩, ha => absurd (Fin.ext rfl) ha) (by show 2 + 0 = j.val; omega)
theorem cat4_3 (h : Shape.Concatenates [S32x1, S32x1, S32x1, S32x1] S32x4 1) (z0 z1 z2 z3 : S32x1.Idx → α)
    (b : Fin 32) (j : Fin 4) (hj : j.val = 3) :
    concatenate S32x4 1 [⟨S32x1, z0⟩, ⟨S32x1, z1⟩, ⟨S32x1, z2⟩, ⟨S32x1, z3⟩] h (ix2 b j) = z3 (ix2 b 0) :=
  concatenate_apply_piece (t := S32x4) 1 [⟨S32x1, z0⟩, ⟨S32x1, z1⟩, ⟨S32x1, z2⟩, ⟨S32x1, z3⟩] h (ix2 b j) 3 (by show 3 < 4; omega) S32x1 z3 rfl rfl 3 rfl (ix2 b 0)
    (fun a ha => match a, ha with | ⟨0, _⟩, _ => rfl | ⟨1, _⟩, ha => absurd (Fin.ext rfl) ha) (by show 3 + 0 = j.val; omega)

end Cat

/-! ### The four variance columns are rank-1 arrays broadcast to one column each: row b of the column is entry b -/

theorem idx106 (b : Fin 32) : idx_main_v106 (ix2 b (0 : Fin 1)) = ix1 b := funext fun a => match a with | ⟨0, _⟩ => rfl
theorem idx107 (b : Fin 32) : idx_main_v107 (ix2 b (0 : Fin 1)) = ix1 b := funext fun a => match a with | ⟨0, _⟩ => rfl
theorem idx108 (b : Fin 32) : idx_main_v108 (ix2 b (0 : Fin 1)) = ix1 b := funext fun a => match a with | ⟨0, _⟩ => rfl
theorem idx109 (b : Fin 32) : idx_main_v109 (ix2 b (0 : Fin 1)) = ix1 b := funext fun a => match a with | ⟨0, _⟩ => rfl

/-- The feature matrix, entry by entry. -/
theorem feats_eq (X : TX) (b : Fin 32) (j : Fin 132) : val_main_v111 (F := Ideal) X (ix2 b j) = Spec.featsR X b j := by
  unfold val_main_v111 Spec.featsR Spec.featsOf
  by_cases h0 : j.val < 64
  · -- a column of the first histogram
    rw [cat3_0 _ _ _ _ b j h0, dif_pos h0]
    exact hist_cb X b ⟨j.val, h0⟩
  · rw [dif_neg h0]
    by_cases h1 : j.val < 128
    · -- a column of the second histogram
      rw [cat3_1 _ _ _ _ b j h0 h1, dif_pos h1]
      exact hist_cr X b ⟨j.val - 64, by omega⟩
    · -- one of the four variance columns
      rw [cat3_2 _ _ _ _ b j h1, dif_neg h1]
      unfold val_main_v110
      have hj : j.val < 132 := j.isLt
      by_cases h128 : j.val = 128
      · rw [if_pos h128, cat4_0 _ _ _ _ _ b _ (by show j.val - 128 = 0; omega), val_main_v106_apply, idx106, gv_cb]
      · rw [if_neg h128]
        by_cases h129 : j.val = 129
        · rw [if_pos h129, cat4_1 _ _ _ _ _ b _ (by show j.val - 128 = 1; omega), val_main_v107_apply, idx107, lv_cb]
        · rw [if_neg h129]
          by_cases h130 : j.val = 130
          · rw [if_pos h130, cat4_2 _ _ _ _ _ b _ (by show j.val - 128 = 2; omega), val_main_v108_apply, idx108, gv_cr]
          · rw [if_neg h130, cat4_3 _ _ _ _ _ b _ (by show j.val - 128 = 3; omega), val_main_v109_apply, idx109, lv_cr]

end Cert.ReferenceIdeal.RefVal

end
-- ==== Proof.RefTail.lean ====
/-
  The reference's last stages, from the feature matrix on, are the specification's tail: the matrix product with the
  weights is the sum over the 132 columns, the bias is added by column, the clip at zero is the maximum with zero, the
  mean and the mean squared deviation over the 32 rows are sums over 32, and the last line scales, divides by the square
  root and shifts by column.
-/
import proofs.«111025_j75557064671630_1_alg».proof.Proof.RefRun
import proofs.«111025_j75557064671630_1_alg».proof.Proof.Spec

set_option maxRecDepth 16384

noncomputable section

namespace Cert.ReferenceIdeal.RefVal

open Idealize.ShloMosaic Idealize.ShloMosaic.ValueIdx Idealize.ShloMosaic.TcCoe Idealize.SL.Sem
open Cert.ReferenceIdeal Cert.ReferenceIdeal.Gen Cert.ReferenceIdeal.Read

/-! Everything in this file's STATEMENTS is FIXED. -/

set_option quotPrecheck false in
/-- The image tensor as the reference's stages take it. -/
local notation "TX" => (⟨S32x3x1024x1024, .f32⟩ : BufTy).Contents (Elt Ideal)

set_option quotPrecheck false in
/-- The weight matrix. -/
local notation "TW" => (⟨S132x256, .f32⟩ : BufTy).Contents (Elt Ideal)
set_option quotPrecheck false in
/-- A vector with one entry per output column. -/
local notation "TV" => (⟨S256, .f32⟩ : BufTy).Contents (Elt Ideal)

/-! ### Where each stage reads, at an entry (i, j) or a column j -/

/-- The matrix product's k-th term reads row i of the features at column k … -/
theorem lidx_dot (i : Fin 32) (j : Fin 256) (k : Fin 132) : lidx_main_v112 (ix2 i j) k = ix2 i k :=
  funext fun a => Fin.ext (by match a with | ⟨0, _⟩ => rfl | ⟨1, _⟩ => rfl)

/-- … and column j of the weights at row k. -/
theorem ridx_dot (i : Fin 32) (j : Fin 256) (k : Fin 132) : ridx_main_v112 (ix2 i j) k = ix2 k j :=
  funext fun a => Fin.ext (by match a with | ⟨0, _⟩ => rfl | ⟨1, _⟩ => rfl)

/-- The bias spread over the rows reads its column's entry. -/
theorem idx_bias (i : Fin 32) (j : Fin 256) : idx_main_v113 (idx_main_v114 (ix2 i j)) = ix1 j :=
  funext fun a => Fin.ext (by match a with | ⟨0, _⟩ => rfl)

/-- The k-th term of a column's sum over the rows is the entry (k, j): the sum of the clipped values … -/
theorem idx_rowsum (j : Fin 256) (k : Fin 32) : idx_main_v117 (ix1 j) k = ix2 k j :=
  funext fun a => Fin.ext (by match a with | ⟨0, _⟩ => rfl | ⟨1, _⟩ => rfl)

/-- … and the sum of the squared deviations. -/
theorem idx_rowsum_sq (j : Fin 256) (k : Fin 32) : idx_main_v124 (ix1 j) k = ix2 k j :=
  funext fun a => Fin.ext (by match a with | ⟨0, _⟩ => rfl | ⟨1, _⟩ => rfl)

/-- The column mean spread over the rows reads its column's entry, where the deviations are squared … -/
theorem idx_mean_sq (i : Fin 32) (j : Fin 256) : idx_main_v120 (idx_main_v121 (ix2 i j)) = ix1 j :=
  funext fun a => Fin.ext (by match a with | ⟨0, _⟩ => rfl)

/-- … and where the result is centred. -/
theorem idx_mean (i : Fin 32) (j : Fin 256) : idx_main_v127 (idx_main_v128 (ix2 i j)) = ix1 j :=
  funext fun a => Fin.ext (by match a with | ⟨0, _⟩ => rfl)

/-- The scale spread over the rows reads its column's entry. -/
theorem idx_scale (i : Fin 32) (j : Fin 256) : idx_main_v130 (idx_main_v131 (ix2 i j)) = ix1 j :=
  funext fun a => Fin.ext (by match a with | ⟨0, _⟩ => rfl)

/-- The square root spread over the rows reads its column's entry. -/
theorem idx_root (i : Fin 32) (j : Fin 256) : idx_main_v136 (idx_main_v137 (ix2 i j)) = ix1 j :=
  funext fun a => Fin.ext (by match a with | ⟨0, _⟩ => rfl)

/-- The shift spread over the rows reads its column's entry. -/
theorem idx_shift (i : Fin 32) (j : Fin 256) : idx_main_v139 (idx_main_v140 (ix2 i j)) = ix1 j :=
  funext fun a => Fin.ext (by match a with | ⟨0, _⟩ => rfl)

/-! ### The three derived arrays -/

/-- The clipped dense layer at (i, j): the sum over the 132 columns of features times weights, plus the column's bias,
    then the maximum with zero. -/
theorem clipped_eq (X : TX) (W : TW) (B1 : TV) (i : Fin 32) (j : Fin 256) :
    val_main_v116 (F := Ideal) X W B1 (ix2 i j)
      = Spec.hRelu (fun b k => val_main_v111 (F := Ideal) X (ix2 b k)) W B1 i j := by
  rw [val_main_v116_apply, val_main_v115_apply, val_main_v112_apply, val_main_v114_apply, val_main_v113_apply,
    val_main_call2_v0_apply, val_main_call2_cst_apply]
  unfold Spec.hRelu
  simp only [Ideal.maximumf_def, Ideal.addf_def, Ideal.ofBits_def, Ideal.ofBits_zero_f32, lidx_dot, ridx_dot, idx_bias]

/-- The column mean at j: the sum over the 32 rows of the clipped values (the sum starts from zero), over 32. -/
theorem mean_eq (X : TX) (W : TW) (B1 : TV) (j : Fin 256) :
    val_main_v119 (F := Ideal) X W B1 (ix1 j)
      = Spec.mu (fun b k => val_main_v111 (F := Ideal) X (ix2 b k)) W B1 j := by
  rw [val_main_v119_apply, val_main_v117_apply, val_main_v118_apply, val_main_cst_34_apply, val_main_cst_35_apply]
  unfold Spec.mu Spec.c32
  simp only [Ideal.hostDivf_def, Ideal.ofBits_def, Ideal.ofBits_zero_f32, zero_add, idx_rowsum, clipped_eq]

/-- The column's mean squared deviation at j: the sum over the 32 rows of the squared differences from the column mean,
    over 32. -/
theorem meansq_eq (X : TX) (W : TW) (B1 : TV) (j : Fin 256) :
    val_main_v126 (F := Ideal) X W B1 (ix1 j)
      = Spec.var (fun b k => val_main_v111 (F := Ideal) X (ix2 b k)) W B1 j := by
  rw [val_main_v126_apply, val_main_v124_apply, val_main_v125_apply, val_main_cst_36_apply, val_main_cst_37_apply]
  unfold Spec.var Spec.c32
  simp only [val_main_v123_apply, val_main_v122_apply, val_main_v121_apply, val_main_v120_apply,
    Ideal.hostDivf_def, Ideal.mulf_def, Ideal.subf_def, Ideal.ofBits_def, Ideal.ofBits_zero_f32, zero_add,
    idx_rowsum_sq, idx_mean_sq, clipped_eq, mean_eq]

/-- The result from the reference's own feature matrix. -/
theorem tail_eq (X : TX) (W : (⟨S132x256, .f32⟩ : BufTy).Contents (Elt Ideal)) (B1 Gm Bt : (⟨S256, .f32⟩ : BufTy).Contents (Elt Ideal)) :
    val_main_v141 (F := Ideal) X W B1 Gm Bt = Spec.tail (fun b j => val_main_v111 (F := Ideal) X (ix2 b j)) W B1 Gm Bt := by
  funext y
  obtain ⟨i, j, rfl⟩ : ∃ (i : Fin 32) (j : Fin 256), y = ix2 i j := ⟨y 0, y 1, eq_ix2 y⟩
  rw [val_main_v141_apply, val_main_v138_apply, val_main_v132_apply, val_main_v131_apply, val_main_v130_apply,
    val_main_v129_apply, val_main_v128_apply, val_main_v127_apply, val_main_v137_apply, val_main_v136_apply,
    val_main_v135_apply, val_main_v134_apply, val_main_v133_apply, val_main_cst_38_apply, val_main_v140_apply,
    val_main_v139_apply]
  unfold Spec.tail Spec.cEps5
  simp only [Ideal.addf_def, Ideal.hostDivf_def, Ideal.mulf_def, Ideal.subf_def, Ideal.hostUnary_sqrt_def,
    Ideal.ofBits_def, idx_scale, idx_mean, idx_root, idx_shift, clipped_eq, mean_eq, meansq_eq]

end Cert.ReferenceIdeal.RefVal

end
-- ==== Proof.RefValue.lean ====
/-
  The reference program's result is the specification's, with the variances in the "squared deviations" form.
-/
import proofs.«111025_j75557064671630_1_alg».proof.Proof.RefFeats
import proofs.«111025_j75557064671630_1_alg».proof.Proof.RefTail

set_option maxRecDepth 16384

noncomputable section

namespace Cert.ReferenceIdeal.RefVal

open Idealize.ShloMosaic Idealize.ShloMosaic.ValueIdx Idealize.ShloMosaic.TcCoe Idealize.SL.Sem
open Cert.ReferenceIdeal Cert.ReferenceIdeal.Gen Cert.ReferenceIdeal.Read

/-! Everything in this file's STATEMENTS is FIXED. -/

set_option quotPrecheck false in
/-- The image tensor as the reference's stages take it. -/
local notation "TX" => (⟨S32x3x1024x1024, .f32⟩ : BufTy).Contents (Elt Ideal)

/-- The term the reference's run ends at is the specification of its five arguments. -/
theorem res_eq (m : (ℓ : Loc nD τ sig) → Buf (Elt Ideal) ℓ) (c : Dev nD) :
    Cert.ReferenceIdeal.Value.res_main_v141 (F := Ideal) m c
      = Spec.GR (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  -- the run's last term is the last stage; the stages from the feature matrix on are the specification's tail
  rw [Read.val_main_v141_eq, tail_eq]
  -- and the reference's feature matrix is the specification's, entry by entry
  unfold Spec.GR
  exact congrArg (fun Ft => Spec.tail Ft (m ((c.tc : Thread nD τ).loc main_arg1)) (m ((c.tc : Thread nD τ).loc main_arg2))
      (m ((c.tc : Thread nD τ).loc main_arg3)) (m ((c.tc : Thread nD τ).loc main_arg4)))
    (funext fun b => funext fun j => feats_eq (m ((c.tc : Thread nD τ).loc main_arg0)) b j)

end Cert.ReferenceIdeal.RefVal

end
-- ==== Proof.LibERealSums.lean ====
/-
  Real numbers read as extended reals: finite sums and the arithmetic operations commute with the reading, and the
  operations that have corner cases at infinity or at zero (quotient, square root, reciprocal square root) take their
  ordinary real values away from those corners.  Every statement is general: no array, no program.
-/
import Idealize.ShloMosaic.PureOps.Ideal

universe u

noncomputable section

namespace Cert.LibEReal

open Idealize.ShloMosaic

/-! ### Sums -/

/-- Reading a finite sum of reals as an extended real is the sum of the readings (the reading is additive and sends
    zero to zero; induction on the index set). -/
theorem coe_sum {ι : Type u} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The same read right to left: a sum of readings folds into the reading of the real sum. -/
theorem sum_coe {ι : Type u} (s : Finset ι) (f : ι → ℝ) :
    ∑ i ∈ s, ((f i : ℝ) : EReal) = ((∑ i ∈ s, f i : ℝ) : EReal) :=
  (coe_sum s f).symm

/-- A sum of products of readings is the reading of the real sum of products: the shape a contraction of two arrays
    of finite numbers takes. -/
theorem sum_coe_mul_coe {ι : Type u} (s : Finset ι) (f g : ι → ℝ) :
    ∑ i ∈ s, ((f i : ℝ) : EReal) * ((g i : ℝ) : EReal) = ((∑ i ∈ s, f i * g i : ℝ) : EReal) := by
  rw [coe_sum]
  exact Finset.sum_congr rfl fun i _ => (EReal.coe_mul (f i) (g i)).symm

/-- Zero plus a sum of readings: the shape a reduction that starts from the zero constant takes. -/
theorem zero_add_coe_sum {ι : Type u} (s : Finset ι) (f : ι → ℝ) :
    (0 : EReal) + ∑ i ∈ s, ((f i : ℝ) : EReal) = ((∑ i ∈ s, f i : ℝ) : EReal) := by
  rw [zero_add, coe_sum]

/-- The same with the starting zero itself spelled as the reading of the real zero. -/
theorem coe_zero_add_coe_sum {ι : Type u} (s : Finset ι) (f : ι → ℝ) :
    ((0 : ℝ) : EReal) + ∑ i ∈ s, ((f i : ℝ) : EReal) = ((∑ i ∈ s, f i : ℝ) : EReal) := by
  rw [EReal.coe_zero, zero_add, coe_sum]

/-- Zero plus a sum of products of readings: a contraction accumulated into the zero constant. -/
theorem zero_add_sum_coe_mul_coe {ι : Type u} (s : Finset ι) (f g : ι → ℝ) :
    (0 : EReal) + ∑ i ∈ s, ((f i : ℝ) : EReal) * ((g i : ℝ) : EReal) = ((∑ i ∈ s, f i * g i : ℝ) : EReal) := by
  rw [zero_add, sum_coe_mul_coe]

/-! ### Sum, difference, product, negation and maximum of two readings, folded into one reading -/

/-- The sum of two readings is the reading of the sum. -/
theorem coe_add_coe (a b : ℝ) : ((a : ℝ) : EReal) + (b : EReal) = ((a + b : ℝ) : EReal) :=
  (EReal.coe_add a b).symm

/-- The difference of two readings is the reading of the difference. -/
theorem coe_sub_coe (a b : ℝ) : ((a : ℝ) : EReal) - (b : EReal) = ((a - b : ℝ) : EReal) :=
  (EReal.coe_sub a b).symm

/-- The product of two readings is the reading of the product. -/
theorem coe_mul_coe (a b : ℝ) : ((a : ℝ) : EReal) * (b : EReal) = ((a * b : ℝ) : EReal) :=
  (EReal.coe_mul a b).symm

/-- The negative of a reading is the reading of the negative. -/
theorem neg_coe (a : ℝ) : -((a : ℝ) : EReal) = ((-a : ℝ) : EReal) :=
  (EReal.coe_neg a).symm

/-- A finite number minus itself is zero (false at the two infinities, true at every real). -/
theorem coe_sub_self (a : ℝ) : ((a : ℝ) : EReal) - (a : EReal) = 0 := by
  rw [← EReal.coe_sub, sub_self, EReal.coe_zero]

/-- The same with the zero spelled as the reading of the real zero. -/
theorem coe_sub_self' (a : ℝ) : ((a : ℝ) : EReal) - (a : EReal) = ((0 : ℝ) : EReal) := by
  rw [← EReal.coe_sub, sub_self]

/-- The larger of two readings is the reading of the larger (the reading is monotone). -/
theorem coe_max (a b : ℝ) : max ((a : ℝ) : EReal) (b : EReal) = ((max a b : ℝ) : EReal) :=
  (EReal.coe_strictMono.monotone.map_max (a := a) (b := b)).symm

/-- The smaller of two readings is the reading of the smaller. -/
theorem coe_min (a b : ℝ) : min ((a : ℝ) : EReal) (b : EReal) = ((min a b : ℝ) : EReal) :=
  (EReal.coe_strictMono.monotone.map_min (a := a) (b := b)).symm

/-- Clipping a reading at the extended real zero. -/
theorem coe_max_zero (a : ℝ) : max ((a : ℝ) : EReal) 0 = ((max a 0 : ℝ) : EReal) := by
  rw [← EReal.coe_zero, coe_max]

/-- The same with zero on the left. -/
theorem zero_max_coe (a : ℝ) : max 0 ((a : ℝ) : EReal) = ((max 0 a : ℝ) : EReal) := by
  rw [← EReal.coe_zero, coe_max]

/-! ### Quotient and roots away from their corners -/

/-- The quotient of two readings with a nonzero divisor is the reading of the real quotient. -/
theorem div_coe_coe {y : ℝ} (hy : y ≠ 0) (x : ℝ) :
    Ideal.div (x : EReal) (y : EReal) = ((x / y : ℝ) : EReal) := by
  rw [Ideal.div_coe hy, ← EReal.coe_mul, mul_one_div]

/-- The square root of the reading of a nonnegative real is the reading of its real square root. -/
theorem sqrt_coe_nonneg {r : ℝ} (h : 0 ≤ r) : Ideal.sqrt (r : EReal) = ((Real.sqrt r : ℝ) : EReal) := by
  rw [Ideal.sqrt_coe, if_neg (not_lt.mpr h)]

/-- The reciprocal square root of the reading of a positive real is the reading of the reciprocal of its real square
    root. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

end Cert.LibEReal

end
-- ==== Proof.SpecAlgebra.lean ====
/-
  On finite data the two ways of writing a variance agree: the sum of squared deviations from the mean is the sum of
  squares minus the square of the sum over the number of terms (expand the square; the cross term is twice the square
  of the sum over n, the constant term once).  Over the extended reals this needs every term to be a real number:
  then every sum, product and quotient by a nonzero literal is the reading of the real one, and the identity is the
  real one.  From it: the two feature rows agree, hence the two results.
-/
import proofs.«111025_j75557064671630_1_alg».proof.Proof.Spec
import proofs.«111025_j75557064671630_1_alg».proof.Proof.LibERealSums
import Mathlib.Algebra.BigOperators.Ring.Finset
import Mathlib.Algebra.BigOperators.Group.Finset.Sigma
import Mathlib.Data.Fintype.BigOperators
import Mathlib.Tactic.FieldSimp
import Mathlib.Tactic.Ring
import Mathlib.Tactic.NormNum

noncomputable section

namespace Cert.Spec

open Idealize.ShloMosaic Idealize.ShloMosaic.ValueIdx

/-! ### The two divisors that count terms, as real numbers -/

/-- The word of cN denotes 2^20 = 1048576, the number of pixels of a channel. -/
theorem cN_eq : cN = ((1048576 : ℝ) : EReal) := by
  unfold cN
  simp [Ideal.ofBits, Ideal.ieee, -EReal.coe_mul]; norm_num

/-- The word of c64 denotes 64, the number of pixels of a patch. -/
theorem c64_eq : c64 = ((64 : ℝ) : EReal) := by
  unfold c64
  simp [Ideal.ofBits, Ideal.ieee, -EReal.coe_mul]; norm_num

/-! ### The identity over the reals, for any finite family -/

/-- For a finite family f with n terms (n not zero) and sum S: the squared deviations from S / n add up to the sum of
    squares minus S * S / n.  Each square expands to f i * f i - 2 (S / n) f i + (S / n)^2; summed, the middle term is
    2 (S / n) S and the last is n (S / n)^2, and n cancels. -/
theorem sum_sq_dev {ι : Type*} [Fintype ι] (f : ι → ℝ) {n : ℝ} (hn : (Fintype.card ι : ℝ) = n) (hn0 : n ≠ 0) :
    ∑ i, (f i - (∑ j, f j) / n) * (f i - (∑ j, f j) / n) = ∑ i, f i * f i - ((∑ j, f j) * (∑ j, f j)) / n := by
  generalize hS : ∑ j, f j = S
  have h1 : ∀ i, (f i - S / n) * (f i - S / n) = f i * f i - (2 * (S / n)) * f i + (S / n) * (S / n) :=
    fun i => by ring
  simp only [h1]
  rw [Finset.sum_add_distrib, Finset.sum_sub_distrib, ← Finset.mul_sum, Finset.sum_const, Finset.card_univ,
    nsmul_eq_mul, hn, hS]
  field_simp
  ring

/-! ### The same identity between readings, for a family indexed by pairs -/

/-- For a doubly indexed finite family of reals read as extended reals, with n the number of pairs: the double sum of
    squared deviations from (sum / n) is the double sum of squares minus (sum * sum) / n.  Every sum, difference,
    product and quotient by n folds into the reading of the real one; what is left is the real identity over the
    product index. -/
theorem var_forms_coe {α β : Type*} [Fintype α] [Fintype β] (f : α → β → ℝ) {n : ℝ}
    (hn : (Fintype.card (α × β) : ℝ) = n) (hn0 : n ≠ 0) :
    (∑ a, ∑ b, (((f a b : ℝ) : EReal) - Ideal.div (∑ a', ∑ b', ((f a' b' : ℝ) : EReal)) (n : EReal))
        * (((f a b : ℝ) : EReal) - Ideal.div (∑ a', ∑ b', ((f a' b' : ℝ) : EReal)) (n : EReal)))
      = (∑ a, ∑ b, ((f a b : ℝ) : EReal) * ((f a b : ℝ) : EReal))
        - Ideal.div ((∑ a, ∑ b, ((f a b : ℝ) : EReal)) * (∑ a, ∑ b, ((f a b : ℝ) : EReal))) (n : EReal) := by
  have hS : (∑ a, ∑ b, ((f a b : ℝ) : EReal)) = ((∑ a, ∑ b, f a b : ℝ) : EReal) := by
    simp only [Cert.LibEReal.sum_coe]
  rw [hS]
  simp only [Cert.LibEReal.div_coe_coe hn0, Cert.LibEReal.coe_sub_coe, Cert.LibEReal.coe_mul_coe,
    Cert.LibEReal.sum_coe]
  rw [EReal.coe_eq_coe_iff]
  have h := sum_sq_dev (fun p : α × β => f p.1 p.2) hn hn0
  simp only [Fintype.sum_prod_type] at h
  exact h

/-! Everything in this file's STATEMENTS is FIXED. -/

theorem gvR_eq_gvK (X : SX.Idx → EReal) (hX : Finite X) (b : Fin 32) (ch : Fin 3) : gvR X b ch = gvK X b ch := by
  choose x hx using hX
  have hn : (Fintype.card (Fin 1024 × Fin 1024) : ℝ) = 1048576 := by
    rw [Fintype.card_prod, Fintype.card_fin]; norm_num
  have key := var_forms_coe (fun r c : Fin 1024 => x (ix4 b ch r c)) hn (by norm_num)
  beta_reduce at key
  unfold gvR gvK S1 S2 px
  simp only [hx]
  rw [cN_eq, key]

theorem pvR_eq_pvK (X : SX.Idx → EReal) (hX : Finite X) (b : Fin 32) (ch : Fin 3) (pr pc : Fin 128) :
    pvR X b ch pr pc = pvK X b ch pr pc := by
  choose x hx using hX
  have hn : (Fintype.card (Fin 8 × Fin 8) : ℝ) = 64 := by
    rw [Fintype.card_prod, Fintype.card_fin]; norm_num
  have key := var_forms_coe
    (fun er ec : Fin 8 => x (ix4 b ch ⟨pr.val * 8 + er.val, by omega⟩ ⟨pc.val * 8 + ec.val, by omega⟩))
    hn (by norm_num)
  beta_reduce at key
  unfold pvR pvK P1 P2 pp
  simp only [hx]
  rw [c64_eq, key]

theorem lvR_eq_lvK (X : SX.Idx → EReal) (hX : Finite X) (b : Fin 32) (ch : Fin 3) : lvR X b ch = lvK X b ch := by
  unfold lvR lvK
  simp only [pvR_eq_pvK X hX]

theorem featsR_eq_featsK (X : SX.Idx → EReal) (hX : Finite X) : featsR X = featsK X := by
  funext b j
  unfold featsR featsK featsOf
  simp only [gvR_eq_gvK X hX, lvR_eq_lvK X hX]

theorem GR_eq_G (X : SX.Idx → EReal) (hX : Finite X) (W : SW.Idx → EReal) (B1 Gm Bt : SV.Idx → EReal) :
    GR X W B1 Gm Bt = G X W B1 Gm Bt := by
  unfold GR G
  rw [featsR_eq_featsK X hX]

end Cert.Spec

end
-- ==== Proof.PreFinite.lean ====
/-
  From the precondition to "every entry of the image tensor is a real number".

  The precondition is one bit: for each of the five arguments, every entry's absolute value is below the word of plus
  infinity, all five conjoined.  An extended real whose absolute value is strictly below plus infinity is neither
  infinity, hence a real.
-/
import proofs.«111025_j75557064671630_1_alg».proof.Proof.Gen.Pre_finite_inputs
import proofs.«111025_j75557064671630_1_alg».proof.Proof.Spec
import Idealize.ShloMosaic.Lib.ReduceAll
import Idealize.ShloMosaic.Lib.ValueIdx

noncomputable section

namespace Cert.PreFinite

open Idealize.ShloMosaic Idealize.ShloMosaic.ValueIdx
open Cert.Pre_finite_inputs Cert.Pre_finite_inputs.Gen

/-! ### The pieces -/

/-- The shape with no axes has exactly one index. -/
instance subsingleton_S_Idx : Subsingleton S_.Idx := ⟨fun a b => funext fun d => d.elim0⟩

/-- The word 0x7F800000 denotes plus infinity. -/
theorem inf_word : Ideal.ofBits .f32 0x7F800000#32 = (⊤ : EReal) := by
  simp [Ideal.ofBits, Ideal.ieee]

/-- A conjunction of two one-bit arrays that is set at an index has its left member set there. -/
theorem andi_left {a b : IVec S_ 1} {i : S_.Idx} (h : andi a b i = 1#1) : a i = 1#1 :=
  (IntOp.andi_eq_one.1 h).1

/-- An extended real whose absolute value max x (-x) compares strictly below the word of plus infinity is a real:
    at either infinity the absolute value is plus infinity itself, which is not below itself. -/
theorem real_of_abs_lt_inf (x : EReal)
    (e : Ideal.cmp .olt (max x (-x)) (Ideal.ofBits .f32 0x7F800000#32) = 1#1) : ∃ r : ℝ, x = (r : EReal) := by
  rw [inf_word] at e
  induction x using EReal.rec with
  | bot => exact absurd e (by simp [Ideal.cmp])
  | coe r => exact ⟨r, rfl⟩
  | top => exact absurd e (by simp [Ideal.cmp])

/-! Everything in this file's STATEMENTS is FIXED. -/

/-- If the precondition's bit is set, every entry of the first argument is a real number. -/
theorem finite_arg0 (x0 : FVec Ideal S32x3x1024x1024 .f32) (x1 : FVec Ideal S132x256 .f32) (x2 x3 x4 : FVec Ideal S256 .f32)
    (h : Cert.Pre_finite_inputs.fn (F := Ideal) x0 x1 x2 x3 x4 = fun _ => 1#1) : Spec.Finite x0 := by
  -- the bit at the one index of the result, as the five-fold conjunction it is
  have h0 := congrFun h ix0
  dsimp only [Cert.Pre_finite_inputs.fn, Cert.Pre_finite_inputs.fn_part1] at h0
  -- its left-most member: the conjunction over all entries of the first argument
  have h3 := andi_left (andi_left (andi_left (andi_left h0)))
  -- a conjunction over all entries that is set has every entry set; read the entry at i
  intro i
  exact real_of_abs_lt_inf (x0 i) (Host.reduce_andi_all _ _ _ _ _ h3 i)

end Cert.PreFinite

end
-- ==== Proof.lean ====
/-
  The kernel computes, per image, a 64-bin histogram, the variance and the mean 8 x 8 patch variance of two of the
  image's three channels (a first kernel, one grid point per image, walking each channel plane in 64 chunks of 16 rows),
  and then a dense layer, a clip at zero and a normalisation over the 32 images of the resulting 32 x 132 feature matrix
  (a second kernel, one grid point).  The reference computes the same with array operations: the histogram by a
  scatter-add of ones, each variance as the sum of squared deviations from the mean.

  Over the extended reals both results are one function of the five arguments (Proof/Spec): the kernel's value is read
  off its run block by block (Proof/KIArr), the reference's off its operations one by one (Proof/RefValue).  They
  differ only in the form of the variances, "sum of squares minus square of the sum over n" against "sum of squared
  deviations from the mean", which agree when every pixel is a real number (Proof/SpecAlgebra); that is what the
  precondition says (Proof/PreFinite).  The two frames of the kernel, as printed and as idealized, are the same run
  at the two float instances: every weakly fair execution terminates, nothing faults, and every buffer that is no
  scratch ends at named contents, the arguments at what they were launched with.
-/
import proofs.«111025_j75557064671630_1_alg».proof.Defs
import proofs.«111025_j75557064671630_1_alg».proof.Proof.Gen.Kernel
import proofs.«111025_j75557064671630_1_alg».proof.Proof.Gen.KernelIdeal
import proofs.«111025_j75557064671630_1_alg».proof.Proof.Gen.ReferenceIdeal
import proofs.«111025_j75557064671630_1_alg».proof.Proof.Gen.Pre_finite_inputs
import proofs.«111025_j75557064671630_1_alg».proof.Proof.KBRun
import proofs.«111025_j75557064671630_1_alg».proof.Proof.KIRun
import proofs.«111025_j75557064671630_1_alg».proof.Proof.KIArr
import proofs.«111025_j75557064671630_1_alg».proof.Proof.RefValue
import proofs.«111025_j75557064671630_1_alg».proof.Proof.SpecAlgebra
import proofs.«111025_j75557064671630_1_alg».proof.Proof.PreFinite
import Idealize.ShloMosaic.Adequacy
import Idealize.ShloMosaic.Init

noncomputable section

namespace Cert.Proof

open Idealize.ShloMosaic Idealize.ShloMosaic.TcCoe Idealize.SL.Sem

/-- The program as printed runs and leaves its arguments unchanged: its run with every other buffer dropped. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W3_main_arg0 m c),
     (h c _ (Cert.Kernel.Hand.mem_uc Cert.Kernel.main_arg1 (by decide))).trans (Cert.Kernel.Hand.W3_main_arg1 m c),
     (h c _ (Cert.Kernel.Hand.mem_uc Cert.Kernel.main_arg2 (by decide))).trans (Cert.Kernel.Hand.W3_main_arg2 m c),
     (h c _ (Cert.Kernel.Hand.mem_uc Cert.Kernel.main_arg3 (by decide))).trans (Cert.Kernel.Hand.W3_main_arg3 m c),
     (h c _ (Cert.Kernel.Hand.mem_uc Cert.Kernel.main_arg4 (by decide))).trans (Cert.Kernel.Hand.W3_main_arg4 m c)⟩)
    (Cert.Kernel.Hand.run (F := Bits) m ρ)

/-- The idealized program runs and leaves its arguments unchanged: the same run at the extended reals. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W3_main_arg0 m c),
     (h c _ (Cert.KernelIdeal.Hand.mem_uc Cert.KernelIdeal.main_arg1 (by decide))).trans (Cert.KernelIdeal.Hand.W3_main_arg1 m c),
     (h c _ (Cert.KernelIdeal.Hand.mem_uc Cert.KernelIdeal.main_arg2 (by decide))).trans (Cert.KernelIdeal.Hand.W3_main_arg2 m c),
     (h c _ (Cert.KernelIdeal.Hand.mem_uc Cert.KernelIdeal.main_arg3 (by decide))).trans (Cert.KernelIdeal.Hand.W3_main_arg3 m c),
     (h c _ (Cert.KernelIdeal.Hand.mem_uc Cert.KernelIdeal.main_arg4 (by decide))).trans (Cert.KernelIdeal.Hand.W3_main_arg4 m c)⟩)
    (Cert.KernelIdeal.Hand.run (F := Ideal) m ρ)

/-- The reference runs and leaves its arguments unchanged: its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- From memories that agree on the five arguments, under the precondition, both programs end at the same result:
    the kernel's is the specification with the variances in the first form, the reference's with them in the second,
    and the image tensor is finite. -/
theorem algebraic : Cert.algebraic_KernelIdeal_ReferenceIdeal := by
  intro m ρ m' ρ' hpre hagree
  refine ⟨fun c => Cert.KernelIdeal.Hand.result (F := Ideal) m c, ?_, ?_⟩
  · exact (θ_run (Cert.KernelIdeal.defs (F := Ideal)) _ _).mono (fun r h c =>
      ⟨(h c _ (Cert.KernelIdeal.Hand.mem_uc Cert.KernelIdeal.main_v2 (by decide))).trans (Cert.KernelIdeal.Hand.W3_main_v2 m c),
       (h c _ (Cert.KernelIdeal.Hand.mem_uc Cert.KernelIdeal.main_arg0 (by decide))).trans (Cert.KernelIdeal.Hand.W3_main_arg0 m c),
       (h c _ (Cert.KernelIdeal.Hand.mem_uc Cert.KernelIdeal.main_arg1 (by decide))).trans (Cert.KernelIdeal.Hand.W3_main_arg1 m c),
       (h c _ (Cert.KernelIdeal.Hand.mem_uc Cert.KernelIdeal.main_arg2 (by decide))).trans (Cert.KernelIdeal.Hand.W3_main_arg2 m c),
       (h c _ (Cert.KernelIdeal.Hand.mem_uc Cert.KernelIdeal.main_arg3 (by decide))).trans (Cert.KernelIdeal.Hand.W3_main_arg3 m c),
       (h c _ (Cert.KernelIdeal.Hand.mem_uc Cert.KernelIdeal.main_arg4 (by decide))).trans (Cert.KernelIdeal.Hand.W3_main_arg4 m c)⟩)
      (Cert.KernelIdeal.Hand.run (F := Ideal) m ρ)
  · refine (θ_run (Cert.ReferenceIdeal.defs (F := Ideal)) _ _).mono (fun _ h c => ⟨(h c).1.trans ?_, (h c).2⟩)
      (Cert.ReferenceIdeal.Value.run (F := Ideal) m' ρ')
    rw [Cert.ReferenceIdeal.RefVal.res_eq m' c, (hagree c).1, (hagree c).2.1, (hagree c).2.2.1, (hagree c).2.2.2.1, (hagree c).2.2.2.2,
      Cert.Spec.GR_eq_G _ (Cert.PreFinite.finite_arg0 _ _ _ _ _ (hpre c))]
    exact (Cert.KernelIdeal.Val.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
